-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v108)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v108) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v36) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x2048x2048 : Shape := ⟨3, ![4, 2048, 2048]⟩
abbrev S4x3840x2048 : Shape := ⟨3, ![4, 3840, 2048]⟩
abbrev S4x2048x3840 : Shape := ⟨3, ![4, 2048, 3840]⟩
abbrev S4x2048 : Shape := ⟨2, ![4, 2048]⟩
abbrev S8192 : Shape := ⟨1, ![8192]⟩
abbrev S_ : Shape := ⟨0, ![]⟩

class Facts : Prop where
  bcast_S_S4x2048x2048 : S_.BroadcastsInDim S4x2048x2048 (![] : Fin 0 → Fin S4x2048x2048.rank)
  reducesTo_S4x2048x2048_S_d0_1_2 : S4x2048x2048.ReducesTo [0, 1, 2] S_
  h_S_ : 0 < S_.numel
  bcast_S_S4x3840x2048 : S_.BroadcastsInDim S4x3840x2048 (![] : Fin 0 → Fin S4x3840x2048.rank)
  reducesTo_S4x3840x2048_S_d0_1_2 : S4x3840x2048.ReducesTo [0, 1, 2] S_
  bcast_S_S4x2048x3840 : S_.BroadcastsInDim S4x2048x3840 (![] : Fin 0 → Fin S4x2048x3840.rank)
  reducesTo_S4x2048x3840_S_d0_1_2 : S4x2048x3840.ReducesTo [0, 1, 2] S_
  bcast_S_S4x2048 : S_.BroadcastsInDim S4x2048 (![] : Fin 0 → Fin S4x2048.rank)
  reducesTo_S4x2048_S_d0_1 : S4x2048.ReducesTo [0, 1] S_
  bcast_S_S8192 : S_.BroadcastsInDim S8192 (![] : Fin 0 → Fin S8192.rank)
  reducesTo_S8192_S_d0 : S8192.ReducesTo [0] S_

variable [Facts]

def fn_part1 {F : FTy → Type} [FloatOps F] (main_arg4 : FVec F S4x2048 .f32) (main_arg5 : IVec S8192 32) (main_v13 : IVec S_ 1) (main_v16 : IVec S4x3840x2048 1) : IVec S_ 1 :=
  let main_c_5 : IVec S_ 1 := constantI S_ 1 1#1
  let main_v17 : IVec S_ 1 := (fun x v => Host.reduce IntOp.andi x v reducesTo_S4x3840x2048_S_d0_1_2 h_S_) main_v16 main_c_5
  let main_v18 : IVec S_ 1 := andi main_v13 main_v17
  let main_v19 : FVec F S4x2048 .f32 := Host.absf main_arg4
  let main_cst_6 : FVec F S_ .f32 := constant S_ .f32 0x7F800000#32
  let main_v20 : FVec F S4x2048 .f32 := broadcastInDim S4x2048 ![] bcast_S_S4x2048 main_cst_6
  let main_v21 : IVec S4x2048 1 := cmpf .olt main_v19 main_v20
  let main_c_7 : IVec S_ 1 := constantI S_ 1 1#1
  let main_v22 : IVec S_ 1 := (fun x v => Host.reduce IntOp.andi x v reducesTo_S4x2048_S_d0_1 h_S_) main_v21 main_c_7
  let main_v23 : IVec S_ 1 := andi main_v18 main_v22
  let main_c_8 : IVec S_ 32 := constantI S_ 32 0#32
  let main_v24 : IVec S8192 32 := broadcastInDim S8192 ![] bcast_S_S8192 main_c_8
  let main_v25 : IVec S8192 1 := cmpi .sge main_arg5 main_v24
  let main_c_9 : IVec S_ 1 := constantI S_ 1 1#1
  let main_v26 : IVec S_ 1 := (fun x v => Host.reduce IntOp.andi x v reducesTo_S8192_S_d0 h_S_) main_v25 main_c_9
  let main_v27 : IVec S_ 1 := andi main_v23 main_v26
  let main_c_10 : IVec S_ 32 := constantI S_ 32 4#32
  let main_v28 : IVec S8192 32 := broadcastInDim S8192 ![] bcast_S_S8192 main_c_10
  let main_v29 : IVec S8192 1 := cmpi .slt main_arg5 main_v28
  let main_c_11 : IVec S_ 1 := constantI S_ 1 1#1
  let main_v30 : IVec S_ 1 := (fun x v => Host.reduce IntOp.andi x v reducesTo_S8192_S_d0 h_S_) main_v29 main_c_11
  let main_v31 : IVec S_ 1 := andi main_v27 main_v30
  main_v31

def fn {F : FTy → Type} [FloatOps F] (main_arg0 : FVec F S4x2048x2048 .f32) (main_arg1 : FVec F S4x3840x2048 .f32) (main_arg2 : FVec F S4x2048x3840 .f32) (main_arg3 : FVec F S4x3840x2048 .f32) (main_arg4 : FVec F S4x2048 .f32) (main_arg5 : IVec S8192 32) : IVec S_ 1 :=
  let main_v0 : FVec F S4x2048x2048 .f32 := Host.absf main_arg0
  let main_cst : FVec F S_ .f32 := constant S_ .f32 0x7F800000#32
  let main_v1 : FVec F S4x2048x2048 .f32 := broadcastInDim S4x2048x2048 ![] bcast_S_S4x2048x2048 main_cst
  let main_v2 : IVec S4x2048x2048 1 := cmpf .olt main_v0 main_v1
  let main_c : IVec S_ 1 := constantI S_ 1 1#1
  let main_v3 : IVec S_ 1 := (fun x v => Host.reduce IntOp.andi x v reducesTo_S4x2048x2048_S_d0_1_2 h_S_) main_v2 main_c
  let main_v4 : FVec F S4x3840x2048 .f32 := Host.absf main_arg1
  let main_cst_0 : FVec F S_ .f32 := constant S_ .f32 0x7F800000#32
  let main_v5 : FVec F S4x3840x2048 .f32 := broadcastInDim S4x3840x2048 ![] bcast_S_S4x3840x2048 main_cst_0
  let main_v6 : IVec S4x3840x2048 1 := cmpf .olt main_v4 main_v5
  let main_c_1 : IVec S_ 1 := constantI S_ 1 1#1
  let main_v7 : IVec S_ 1 := (fun x v => Host.reduce IntOp.andi x v reducesTo_S4x3840x2048_S_d0_1_2 h_S_) main_v6 main_c_1
  let main_v8 : IVec S_ 1 := andi main_v3 main_v7
  let main_v9 : FVec F S4x2048x3840 .f32 := Host.absf main_arg2
  let main_cst_2 : FVec F S_ .f32 := constant S_ .f32 0x7F800000#32
  let main_v10 : FVec F S4x2048x3840 .f32 := broadcastInDim S4x2048x3840 ![] bcast_S_S4x2048x3840 main_cst_2
  let main_v11 : IVec S4x2048x3840 1 := cmpf .olt main_v9 main_v10
  let main_c_3 : IVec S_ 1 := constantI S_ 1 1#1
  let main_v12 : IVec S_ 1 := (fun x v => Host.reduce IntOp.andi x v reducesTo_S4x2048x3840_S_d0_1_2 h_S_) main_v11 main_c_3
  let main_v13 : IVec S_ 1 := andi main_v8 main_v12
  let main_v14 : FVec F S4x3840x2048 .f32 := Host.absf main_arg3
  let main_cst_4 : FVec F S_ .f32 := constant S_ .f32 0x7F800000#32
  let main_v15 : FVec F S4x3840x2048 .f32 := broadcastInDim S4x3840x2048 ![] bcast_S_S4x3840x2048 main_cst_4
  let main_v16 : IVec S4x3840x2048 1 := cmpf .olt main_v14 main_v15
  fn_part1 (F := F) main_arg4 main_arg5 main_v13 main_v16
-- ==== Kernel.lean ====
abbrev S4x2048x2048 : Shape := ⟨3, ![4, 2048, 2048]⟩
abbrev S4x3840x2048 : Shape := ⟨3, ![4, 3840, 2048]⟩
abbrev S4x2048x3840 : Shape := ⟨3, ![4, 2048, 3840]⟩
abbrev S4x2048 : Shape := ⟨2, ![4, 2048]⟩
abbrev S8192 : Shape := ⟨1, ![8192]⟩
abbrev S8192x2048 : Shape := ⟨2, ![8192, 2048]⟩
abbrev S_ : Shape := ⟨0, ![]⟩
abbrev S8192x1 : Shape := ⟨2, ![8192, 1]⟩
abbrev S4 : Shape := ⟨1, ![4]⟩
abbrev S1x4 : Shape := ⟨2, ![1, 4]⟩
abbrev S8192x4 : Shape := ⟨2, ![8192, 4]⟩
abbrev S1 : Shape := ⟨1, ![1]⟩
abbrev S3 : Shape := ⟨1, ![3]⟩
abbrev S10240 : Shape := ⟨1, ![10240]⟩
abbrev S20 : Shape := ⟨1, ![20]⟩
abbrev S20x1 : Shape := ⟨2, ![20, 1]⟩
abbrev S20x4 : Shape := ⟨2, ![20, 4]⟩
abbrev S1x2048 : Shape := ⟨2, ![1, 2048]⟩
abbrev S8193x2048 : Shape := ⟨2, ![8193, 2048]⟩
abbrev S10240x1 : Shape := ⟨2, ![10240, 1]⟩
abbrev S10240x2048 : Shape := ⟨2, ![10240, 2048]⟩
abbrev S512x2048 : Shape := ⟨2, ![512, 2048]⟩
abbrev S1x256x2048 : Shape := ⟨3, ![1, 256, 2048]⟩
abbrev S1x2048x256 : Shape := ⟨3, ![1, 2048, 256]⟩
abbrev S256x2048 : Shape := ⟨2, ![256, 2048]⟩
abbrev S2048x256 : Shape := ⟨2, ![2048, 256]⟩
abbrev S512x256 : Shape := ⟨2, ![512, 256]⟩
abbrev S512 : Shape := ⟨1, ![512]⟩
abbrev S512x1 : Shape := ⟨2, ![512, 1]⟩
abbrev S2048 : Shape := ⟨1, ![2048]⟩

abbrev nBuf : Space → Nat
  | .hbm => 175
  | .vmem => 12
  | .smem => 1
  | _ => 0

abbrev hbmTy0_0 (i : Nat) : BufTy := match i % 128 with
  | 0 => ⟨S4x2048x2048, .f32⟩
  | 1 => ⟨S4x3840x2048, .f32⟩
  | 2 => ⟨S4x2048x3840, .f32⟩
  | 3 => ⟨S4x3840x2048, .f32⟩
  | 4 => ⟨S4x2048, .f32⟩
  | 5 => ⟨S8192, .i32⟩
  | 6 => ⟨S8192x2048, .f32⟩
  | 7 => ⟨S_, .i32⟩
  | 8 => ⟨S_, .i32⟩
  | 9 => ⟨S_, .i32⟩
  | 10 => ⟨S8192, .i32⟩
  | 11 => ⟨S8192, .i32⟩
  | 12 => ⟨S_, .i32⟩
  | 13 => ⟨S8192, .i32⟩
  | 14 => ⟨S8192, .i32⟩
  | 15 => ⟨S8192x1, .i32⟩
  | 16 => ⟨S4, .i32⟩
  | 17 => ⟨S1x4, .i32⟩
  | 18 => ⟨S8192x4, .i32⟩
  | 19 => ⟨S8192x4, .i32⟩
  | 20 => ⟨S8192x4, .i1⟩
  | 21 => ⟨S8192x4, .i32⟩
  | 22 => ⟨S_, .i32⟩
  | 23 => ⟨S4, .i32⟩
  | 24 => ⟨S_, .i32⟩
  | 25 => ⟨S4, .i32⟩
  | 26 => ⟨S4, .i32⟩
  | 27 => ⟨S_, .i32⟩
  | 28 => ⟨S4, .i32⟩
  | 29 => ⟨S4, .i32⟩
  | 30 => ⟨S_, .i32⟩
  | 31 => ⟨S_, .i32⟩
  | 32 => ⟨S4, .i32⟩
  | 33 => ⟨S4, .i32⟩
  | 34 => ⟨S4, .i32⟩
  | 35 => ⟨S_, .i32⟩
  | 36 => ⟨S4, .i32⟩
  | 37 => ⟨S4, .i1⟩
  | 38 => ⟨S4, .i32⟩
  | 39 => ⟨S4, .i32⟩
  | 40 => ⟨S_, .i32⟩
  | 41 => ⟨S4, .i32⟩
  | 42 => ⟨S4, .i1⟩
  | 43 => ⟨S4, .i1⟩
  | 44 => ⟨S_, .i32⟩
  | 45 => ⟨S4, .i32⟩
  | 46 => ⟨S4, .i32⟩
  | 47 => ⟨S4, .i32⟩
  | 48 => ⟨S_, .i32⟩
  | 49 => ⟨S4, .i32⟩
  | 50 => ⟨S4, .i32⟩
  | 51 => ⟨S_, .i32⟩
  | 52 => ⟨S1, .i32⟩
  | 53 => ⟨S_, .i32⟩
  | 54 => ⟨S_, .i32⟩
  | 55 => ⟨S4, .i32⟩
  | 56 => ⟨S3, .i32⟩
  | 57 => ⟨S4, .i32⟩
  | 58 => ⟨S_, .i32⟩
  | 59 => ⟨S1, .i32⟩
  | 60 => ⟨S_, .i32⟩
  | 61 => ⟨S_, .i32⟩
  | 62 => ⟨S4, .i32⟩
  | 63 => ⟨S3, .i32⟩
  | 64 => ⟨S4, .i32⟩
  | 65 => ⟨S8192, .i32⟩
  | 66 => ⟨S8192, .i32⟩
  | 67 => ⟨S8192, .i32⟩
  | 68 => ⟨S_, .i32⟩
  | 69 => ⟨S8192, .i32⟩
  | 70 => ⟨S8192, .i1⟩
  | 71 => ⟨S_, .i32⟩
  | 72 => ⟨S8192, .i32⟩
  | 73 => ⟨S8192, .i32⟩
  | 74 => ⟨S8192, .i32⟩
  | 75 => ⟨S8192x1, .i32⟩
  | 76 => ⟨S8192, .i32⟩
  | 77 => ⟨S8192, .i32⟩
  | 78 => ⟨S_, .i32⟩
  | 79 => ⟨S8192, .i32⟩
  | 80 => ⟨S8192, .i1⟩
  | 81 => ⟨S_, .i32⟩
  | 82 => ⟨S8192, .i32⟩
  | 83 => ⟨S8192, .i32⟩
  | 84 => ⟨S8192, .i32⟩
  | 85 => ⟨S8192x1, .i32⟩
  | 86 => ⟨S8192, .i32⟩
  | 87 => ⟨S8192, .i32⟩
  | 88 => ⟨S_, .i32⟩
  | 89 => ⟨S8192, .i32⟩
  | 90 => ⟨S8192, .i1⟩
  | 91 => ⟨S_, .i32⟩
  | 92 => ⟨S8192, .i32⟩
  | 93 => ⟨S8192, .i32⟩
  | 94 => ⟨S8192, .i32⟩
  | 95 => ⟨S8192x1, .i32⟩
  | 96 => ⟨S8192, .i32⟩
  | 97 => ⟨S8192, .i32⟩
  | 98 => ⟨S_, .i32⟩
  | 99 => ⟨S8192, .i32⟩
  | 100 => ⟨S_, .i32⟩
  | 101 => ⟨S8192, .i32⟩
  | 102 => ⟨S8192, .i1⟩
  | 103 => ⟨S_, .i32⟩
  | 104 => ⟨S8192, .i32⟩
  | 105 => ⟨S8192, .i32⟩
  | 106 => ⟨S8192, .i32⟩
  | 107 => ⟨S8192x1, .i32⟩
  | 108 => ⟨S8192, .i32⟩
  | 109 => ⟨S_, .i32⟩
  | 110 => ⟨S8192, .i32⟩
  | 111 => ⟨S_, .i32⟩
  | 112 => ⟨S8192, .i32⟩
  | 113 => ⟨S8192, .i1⟩
  | 114 => ⟨S_, .i32⟩
  | 115 => ⟨S8192, .i32⟩
  | 116 => ⟨S8192, .i32⟩
  | 117 => ⟨S8192, .i32⟩
  | 118 => ⟨S8192x1, .i32⟩
  | 119 => ⟨S8192, .i32⟩
  | 120 => ⟨S_, .i32⟩
  | 121 => ⟨S10240, .i32⟩
  | 122 => ⟨S_, .i32⟩
  | 123 => ⟨S8192, .i32⟩
  | 124 => ⟨S8192, .i1⟩
  | 125 => ⟨S_, .i32⟩
  | 126 => ⟨S8192, .i32⟩
  | 127 => ⟨S8192, .i32⟩
  | _ => ⟨S4x2048x2048, .f32⟩

abbrev hbmTy0_1 (i : Nat) : BufTy := match i % 128 with
  | 0 => ⟨S8192, .i32⟩
  | 1 => ⟨S8192x1, .i32⟩
  | 2 => ⟨S10240, .i32⟩
  | 3 => ⟨S20, .i32⟩
  | 4 => ⟨S_, .i32⟩
  | 5 => ⟨S20, .i32⟩
  | 6 => ⟨S20, .i32⟩
  | 7 => ⟨S_, .i32⟩
  | 8 => ⟨S_, .i32⟩
  | 9 => ⟨S4, .i32⟩
  | 10 => ⟨S20x1, .i32⟩
  | 11 => ⟨S1x4, .i32⟩
  | 12 => ⟨S20x4, .i32⟩
  | 13 => ⟨S20x4, .i32⟩
  | 14 => ⟨S20x4, .i1⟩
  | 15 => ⟨S20x4, .i32⟩
  | 16 => ⟨S_, .i32⟩
  | 17 => ⟨S20, .i32⟩
  | 18 => ⟨S_, .i32⟩
  | 19 => ⟨S20, .i32⟩
  | 20 => ⟨S8192x2048, .bf16⟩
  | 21 => ⟨S_, .bf16⟩
  | 22 => ⟨S1x2048, .bf16⟩
  | 23 => ⟨S8193x2048, .bf16⟩
  | 24 => ⟨S_, .i32⟩
  | 25 => ⟨S10240, .i32⟩
  | 26 => ⟨S10240, .i1⟩
  | 27 => ⟨S_, .i32⟩
  | 28 => ⟨S10240, .i32⟩
  | 29 => ⟨S10240, .i32⟩
  | 30 => ⟨S10240, .i32⟩
  | 31 => ⟨S10240x1, .i32⟩
  | 32 => ⟨S10240x2048, .bf16⟩
  | 33 => ⟨S4x3840x2048, .bf16⟩
  | 34 => ⟨S4x3840x2048, .bf16⟩
  | 35 => ⟨S4x2048x3840, .bf16⟩
  | 36 => ⟨S10240x2048, .f32⟩
  | 37 => ⟨S_, .i32⟩
  | 38 => ⟨S8192, .i32⟩
  | 39 => ⟨S8192, .i1⟩
  | 40 => ⟨S_, .i32⟩
  | 41 => ⟨S8192, .i32⟩
  | 42 => ⟨S8192, .i32⟩
  | 43 => ⟨S8192, .i32⟩
  | 44 => ⟨S8192x1, .i32⟩
  | 45 => ⟨S8192x2048, .f32⟩
  | 46 => ⟨S4x2048x2048, .f32⟩
  | _ => ⟨S4x2048x2048, .f32⟩

abbrev hbmTy (i : Nat) : BufTy := match i / 128 with
  | 0 => hbmTy0_0 i
  | 1 => hbmTy0_1 i
  | _ => ⟨S4x2048x2048, .f32⟩

abbrev bufTy : (tb : Table) → Fin (tcTables nBuf tb) → BufTy
  | .hbm, ⟨i, _⟩ => hbmTy i
  | .local _ .vmem, ⟨0, _⟩ => ⟨S512x2048, .bf16⟩
  | .local _ .vmem, ⟨1, _⟩ => ⟨S512x2048, .bf16⟩
  | .local _ .vmem, ⟨2, _⟩ => ⟨S1x256x2048, .bf16⟩
  | .local _ .vmem, ⟨3, _⟩ => ⟨S1x256x2048, .bf16⟩
  | .local _ .vmem, ⟨4, _⟩ => ⟨S1x256x2048, .bf16⟩
  | .local _ .vmem, ⟨5, _⟩ => ⟨S1x256x2048, .bf16⟩
  | .local _ .vmem, ⟨6, _⟩ => ⟨S1x2048x256, .bf16⟩
  | .local _ .vmem, ⟨7, _⟩ => ⟨S1x2048x256, .bf16⟩
  | .local _ .vmem, ⟨8, _⟩ => ⟨S4x2048, .f32⟩
  | .local _ .vmem, ⟨9, _⟩ => ⟨S512x2048, .f32⟩
  | .local _ .vmem, ⟨10, _⟩ => ⟨S512x2048, .f32⟩
  | .local _ .vmem, ⟨11, _⟩ => ⟨S512x2048, .f32⟩
  | .local _ .smem, ⟨0, _⟩ => ⟨S20, .i32⟩
  | _, _ => ⟨S4x2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_c : Ref sig .tc := ⟨.hbm, 7, rfl⟩
abbrev main_c_0 : Ref sig .tc := ⟨.hbm, 8, rfl⟩
abbrev main_call0_v0 : Ref sig .tc := ⟨.hbm, 9, rfl⟩
abbrev main_call0_v1 : Ref sig .tc := ⟨.hbm, 10, rfl⟩
abbrev main_call0_v2 : Ref sig .tc := ⟨.hbm, 11, rfl⟩
abbrev main_call0_v3 : Ref sig .tc := ⟨.hbm, 12, rfl⟩
abbrev main_call0_v4 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_c_1 : Ref sig .tc := ⟨.hbm, 22, rfl⟩
abbrev main_v9 : Ref sig .tc := ⟨.hbm, 23, rfl⟩
abbrev main_c_2 : Ref sig .tc := ⟨.hbm, 24, rfl⟩
abbrev main_v10 : Ref sig .tc := ⟨.hbm, 25, rfl⟩
abbrev main_v11 : Ref sig .tc := ⟨.hbm, 26, rfl⟩
abbrev main_c_3 : Ref sig .tc := ⟨.hbm, 27, rfl⟩
abbrev main_v12 : Ref sig .tc := ⟨.hbm, 28, rfl⟩
abbrev main_v13 : Ref sig .tc := ⟨.hbm, 29, rfl⟩
abbrev main_c_4 : Ref sig .tc := ⟨.hbm, 30, rfl⟩
abbrev main_call1_v0 : Ref sig .tc := ⟨.hbm, 31, rfl⟩
abbrev main_call1_v1 : Ref sig .tc := ⟨.hbm, 32, rfl⟩
abbrev main_call1_v2 : Ref sig .tc := ⟨.hbm, 33, rfl⟩
abbrev main_call1_v3 : Ref sig .tc := ⟨.hbm, 34, rfl⟩
abbrev main_call1_v4 : Ref sig .tc := ⟨.hbm, 35, rfl⟩
abbrev main_call1_v5 : Ref sig .tc := ⟨.hbm, 36, rfl⟩
abbrev main_call1_v6 : Ref sig .tc := ⟨.hbm, 37, rfl⟩
abbrev main_call1_v7 : Ref sig .tc := ⟨.hbm, 38, rfl⟩
abbrev main_call1_v8 : Ref sig .tc := ⟨.hbm, 39, rfl⟩
abbrev main_call1_c : Ref sig .tc := ⟨.hbm, 40, rfl⟩
abbrev main_call1_v9 : Ref sig .tc := ⟨.hbm, 41, rfl⟩
abbrev main_call1_v10 : Ref sig .tc := ⟨.hbm, 42, rfl⟩
abbrev main_call1_v11 : Ref sig .tc := ⟨.hbm, 43, rfl⟩
abbrev main_call1_c_0 : Ref sig .tc := ⟨.hbm, 44, rfl⟩
abbrev main_call1_v12 : Ref sig .tc := ⟨.hbm, 45, rfl⟩
abbrev main_call1_v13 : Ref sig .tc := ⟨.hbm, 46, rfl⟩
abbrev main_v14 : Ref sig .tc := ⟨.hbm, 47, rfl⟩
abbrev main_c_5 : Ref sig .tc := ⟨.hbm, 48, rfl⟩
abbrev main_v15 : Ref sig .tc := ⟨.hbm, 49, rfl⟩
abbrev main_v16 : Ref sig .tc := ⟨.hbm, 50, rfl⟩
abbrev main_c_6 : Ref sig .tc := ⟨.hbm, 51, rfl⟩
abbrev main_v17 : Ref sig .tc := ⟨.hbm, 52, rfl⟩
abbrev main_call2_call0_c : Ref sig .tc := ⟨.hbm, 53, rfl⟩
abbrev main_call2_call0_v0 : Ref sig .tc := ⟨.hbm, 54, rfl⟩
abbrev main_v18 : Ref sig .tc := ⟨.hbm, 55, rfl⟩
abbrev main_v19 : Ref sig .tc := ⟨.hbm, 56, rfl⟩
abbrev main_v20 : Ref sig .tc := ⟨.hbm, 57, rfl⟩
abbrev main_c_7 : Ref sig .tc := ⟨.hbm, 58, rfl⟩
abbrev main_v21 : Ref sig .tc := ⟨.hbm, 59, rfl⟩
abbrev main_call3_call0_c : Ref sig .tc := ⟨.hbm, 60, rfl⟩
abbrev main_call3_call0_v0 : Ref sig .tc := ⟨.hbm, 61, rfl⟩
abbrev main_v22 : Ref sig .tc := ⟨.hbm, 62, rfl⟩
abbrev main_v23 : Ref sig .tc := ⟨.hbm, 63, rfl⟩
abbrev main_v24 : Ref sig .tc := ⟨.hbm, 64, rfl⟩
abbrev main_call4_v0 : Ref sig .tc := ⟨.hbm, 65, rfl⟩
abbrev main_call4_v1_0 : Ref sig .tc := ⟨.hbm, 66, rfl⟩
abbrev main_v25 : Ref sig .tc := ⟨.hbm, 67, rfl⟩
abbrev main_c_8 : Ref sig .tc := ⟨.hbm, 68, rfl⟩
abbrev main_v26 : Ref sig .tc := ⟨.hbm, 69, rfl⟩
abbrev main_v27 : Ref sig .tc := ⟨.hbm, 70, rfl⟩
abbrev main_c_9 : Ref sig .tc := ⟨.hbm, 71, rfl⟩
abbrev main_v28 : Ref sig .tc := ⟨.hbm, 72, rfl⟩
abbrev main_v29 : Ref sig .tc := ⟨.hbm, 73, rfl⟩
abbrev main_v30 : Ref sig .tc := ⟨.hbm, 74, rfl⟩
abbrev main_v31 : Ref sig .tc := ⟨.hbm, 75, rfl⟩
abbrev main_v32 : Ref sig .tc := ⟨.hbm, 76, rfl⟩
abbrev main_v33 : Ref sig .tc := ⟨.hbm, 77, rfl⟩
abbrev main_c_10 : Ref sig .tc := ⟨.hbm, 78, rfl⟩
abbrev main_v34 : Ref sig .tc := ⟨.hbm, 79, rfl⟩
abbrev main_v35 : Ref sig .tc := ⟨.hbm, 80, rfl⟩
abbrev main_c_11 : Ref sig .tc := ⟨.hbm, 81, rfl⟩
abbrev main_v36 : Ref sig .tc := ⟨.hbm, 82, rfl⟩
abbrev main_v37 : Ref sig .tc := ⟨.hbm, 83, rfl⟩
abbrev main_v38 : Ref sig .tc := ⟨.hbm, 84, rfl⟩
abbrev main_v39 : Ref sig .tc := ⟨.hbm, 85, rfl⟩
abbrev main_v40 : Ref sig .tc := ⟨.hbm, 86, rfl⟩
abbrev main_v41 : Ref sig .tc := ⟨.hbm, 87, rfl⟩
abbrev main_c_12 : Ref sig .tc := ⟨.hbm, 88, rfl⟩
abbrev main_v42 : Ref sig .tc := ⟨.hbm, 89, rfl⟩
abbrev main_v43 : Ref sig .tc := ⟨.hbm, 90, rfl⟩
abbrev main_c_13 : Ref sig .tc := ⟨.hbm, 91, rfl⟩
abbrev main_v44 : Ref sig .tc := ⟨.hbm, 92, rfl⟩
abbrev main_v45 : Ref sig .tc := ⟨.hbm, 93, rfl⟩
abbrev main_v46 : Ref sig .tc := ⟨.hbm, 94, rfl⟩
abbrev main_v47 : Ref sig .tc := ⟨.hbm, 95, rfl⟩
abbrev main_v48 : Ref sig .tc := ⟨.hbm, 96, rfl⟩
abbrev main_v49 : Ref sig .tc := ⟨.hbm, 97, rfl⟩
abbrev main_c_14 : Ref sig .tc := ⟨.hbm, 98, rfl⟩
abbrev main_v50 : Ref sig .tc := ⟨.hbm, 99, rfl⟩
abbrev main_c_15 : Ref sig .tc := ⟨.hbm, 100, rfl⟩
abbrev main_v51 : Ref sig .tc := ⟨.hbm, 101, rfl⟩
abbrev main_v52 : Ref sig .tc := ⟨.hbm, 102, rfl⟩
abbrev main_c_16 : Ref sig .tc := ⟨.hbm, 103, rfl⟩
abbrev main_v53 : Ref sig .tc := ⟨.hbm, 104, rfl⟩
abbrev main_v54 : Ref sig .tc := ⟨.hbm, 105, rfl⟩
abbrev main_v55 : Ref sig .tc := ⟨.hbm, 106, rfl⟩
abbrev main_v56 : Ref sig .tc := ⟨.hbm, 107, rfl⟩
abbrev main_v57 : Ref sig .tc := ⟨.hbm, 108, rfl⟩
abbrev main_c_17 : Ref sig .tc := ⟨.hbm, 109, rfl⟩
abbrev main_v58 : Ref sig .tc := ⟨.hbm, 110, rfl⟩
abbrev main_c_18 : Ref sig .tc := ⟨.hbm, 111, rfl⟩
abbrev main_v59 : Ref sig .tc := ⟨.hbm, 112, rfl⟩
abbrev main_v60 : Ref sig .tc := ⟨.hbm, 113, rfl⟩
abbrev main_c_19 : Ref sig .tc := ⟨.hbm, 114, rfl⟩
abbrev main_v61 : Ref sig .tc := ⟨.hbm, 115, rfl⟩
abbrev main_v62 : Ref sig .tc := ⟨.hbm, 116, rfl⟩
abbrev main_v63 : Ref sig .tc := ⟨.hbm, 117, rfl⟩
abbrev main_v64 : Ref sig .tc := ⟨.hbm, 118, rfl⟩
abbrev main_v65 : Ref sig .tc := ⟨.hbm, 119, rfl⟩
abbrev main_c_20 : Ref sig .tc := ⟨.hbm, 120, rfl⟩
abbrev main_v66 : Ref sig .tc := ⟨.hbm, 121, rfl⟩
abbrev main_c_21 : Ref sig .tc := ⟨.hbm, 122, rfl⟩
abbrev main_v67 : Ref sig .tc := ⟨.hbm, 123, rfl⟩
abbrev main_v68 : Ref sig .tc := ⟨.hbm, 124, rfl⟩
abbrev main_c_22 : Ref sig .tc := ⟨.hbm, 125, rfl⟩
abbrev main_v69 : Ref sig .tc := ⟨.hbm, 126, rfl⟩
abbrev main_v70 : Ref sig .tc := ⟨.hbm, 127, rfl⟩
abbrev main_v71 : Ref sig .tc := ⟨.hbm, 128, rfl⟩
abbrev main_v72 : Ref sig .tc := ⟨.hbm, 129, rfl⟩
abbrev main_v73 : Ref sig .tc := ⟨.hbm, 130, rfl⟩
abbrev main_v74 : Ref sig .tc := ⟨.hbm, 131, rfl⟩
abbrev main_c_23 : Ref sig .tc := ⟨.hbm, 132, rfl⟩
abbrev main_v75 : Ref sig .tc := ⟨.hbm, 133, rfl⟩
abbrev main_v76 : Ref sig .tc := ⟨.hbm, 134, rfl⟩
abbrev main_call5_call0_c : Ref sig .tc := ⟨.hbm, 135, rfl⟩
abbrev main_call5_call0_v0 : Ref sig .tc := ⟨.hbm, 136, rfl⟩
abbrev main_v77 : Ref sig .tc := ⟨.hbm, 137, rfl⟩
abbrev main_v78 : Ref sig .tc := ⟨.hbm, 138, rfl⟩
abbrev main_v79 : Ref sig .tc := ⟨.hbm, 139, rfl⟩
abbrev main_v80 : Ref sig .tc := ⟨.hbm, 140, rfl⟩
abbrev main_v81 : Ref sig .tc := ⟨.hbm, 141, rfl⟩
abbrev main_v82 : Ref sig .tc := ⟨.hbm, 142, rfl⟩
abbrev main_v83 : Ref sig .tc := ⟨.hbm, 143, rfl⟩
abbrev main_c_24 : Ref sig .tc := ⟨.hbm, 144, rfl⟩
abbrev main_v84 : Ref sig .tc := ⟨.hbm, 145, rfl⟩
abbrev main_c_25 : Ref sig .tc := ⟨.hbm, 146, rfl⟩
abbrev main_v85 : Ref sig .tc := ⟨.hbm, 147, rfl⟩
abbrev main_v87 : Ref sig .tc := ⟨.hbm, 148, rfl⟩
abbrev main_cst : Ref sig .tc := ⟨.hbm, 149, rfl⟩
abbrev main_v88 : Ref sig .tc := ⟨.hbm, 150, rfl⟩
abbrev main_v89 : Ref sig .tc := ⟨.hbm, 151, rfl⟩
abbrev main_c_26 : Ref sig .tc := ⟨.hbm, 152, rfl⟩
abbrev main_v90 : Ref sig .tc := ⟨.hbm, 153, rfl⟩
abbrev main_v91 : Ref sig .tc := ⟨.hbm, 154, rfl⟩
abbrev main_c_27 : Ref sig .tc := ⟨.hbm, 155, rfl⟩
abbrev main_v92 : Ref sig .tc := ⟨.hbm, 156, rfl⟩
abbrev main_v93 : Ref sig .tc := ⟨.hbm, 157, rfl⟩
abbrev main_v94 : Ref sig .tc := ⟨.hbm, 158, rfl⟩
abbrev main_v95 : Ref sig .tc := ⟨.hbm, 159, rfl⟩
abbrev main_v96 : Ref sig .tc := ⟨.hbm, 160, rfl⟩
abbrev main_v97 : Ref sig .tc := ⟨.hbm, 161, rfl⟩
abbrev main_v98 : Ref sig .tc := ⟨.hbm, 162, rfl⟩
abbrev main_v99 : Ref sig .tc := ⟨.hbm, 163, rfl⟩
abbrev main_v100 : Ref sig .tc := ⟨.hbm, 164, rfl⟩
abbrev main_c_28 : Ref sig .tc := ⟨.hbm, 165, rfl⟩
abbrev main_v101 : Ref sig .tc := ⟨.hbm, 166, rfl⟩
abbrev main_v102 : Ref sig .tc := ⟨.hbm, 167, rfl⟩
abbrev main_c_29 : Ref sig .tc := ⟨.hbm, 168, rfl⟩
abbrev main_v103 : Ref sig .tc := ⟨.hbm, 169, rfl⟩
abbrev main_v104 : Ref sig .tc := ⟨.hbm, 170, rfl⟩
abbrev main_v105 : Ref sig .tc := ⟨.hbm, 171, rfl⟩
abbrev main_v106 : Ref sig .tc := ⟨.hbm, 172, rfl⟩
abbrev main_v107 : Ref sig .tc := ⟨.hbm, 173, rfl⟩
abbrev main_v108 : Ref sig .tc := ⟨.hbm, 174, rfl⟩
abbrev main_v86 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg5_1 : Ref sig .tc := ⟨.vmem, 10, rfl⟩
abbrev cc0_scratch0 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨2, ![20, 15], ![false, false]⟩

abbrev pre0 : Pipeline.Prefetch sig := ⟨1, ![main_v86.idx], fun | 0 => main_v86.names | ⟨_ + 1, h⟩ => absurd h (Nat.not_lt.2 (Nat.le_add_left _ _)), fun | 0 => rfl | ⟨_ + 1, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def k0_cond2 (i : grid0.Coords) : BitVec 1 :=
  let arg1 : BitVec 32 := BitVec.ofNat 32 (i 1).val
  let c14_i32 : BitVec 32 := 14#32
  let v23 : BitVec 1 := Scalar.cmpi .eq arg1 c14_i32
  let v24 : BitVec 32 := Scalar.extui v23
  let c0_i32_17 : BitVec 32 := 0#32
  let v25 : BitVec 1 := Scalar.cmpi .ne v24 c0_i32_17
  v25

def k0_off2 (i : grid0.Coords) : Fin 1 → Nat :=
  let arg0 : BitVec 32 := BitVec.ofNat 32 (i 0).val
  let v26 : Index := Scalar.indexCast arg0
  ![v26.toNat]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (k0_off1_inb : ∀ i : grid0.Coords, ∀ a, (k0_off1 i) a + S1.size a ≤ S20.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg0
  let v1 : BitVec 32 := pf.at 0 (Rect.unit (s := S20) ![v0.toNat] S1.size (k0_off1_inb i)) numel1_S1
  let c0_i32 : BitVec 32 := 0#32
  let c0_i32_0 : BitVec 32 := 0#32
  ![v1.toNat, arg1.toNat, c0_i32.toNat]

def cc0_transform_2 (k0_off1_inb : ∀ i : grid0.Coords, ∀ a, (k0_off1 i) a + S1.size a ≤ S20.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg0
  let v1 : BitVec 32 := pf.at 0 (Rect.unit (s := S20) ![v0.toNat] S1.size (k0_off1_inb i)) numel1_S1
  let c0_i32 : BitVec 32 := 0#32
  let c0_i32_0 : BitVec 32 := 0#32
  ![v1.toNat, arg1.toNat, c0_i32.toNat]

def cc0_transform_3 (k0_off1_inb : ∀ i : grid0.Coords, ∀ a, (k0_off1 i) a + S1.size a ≤ S20.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg0
  let v1 : BitVec 32 := pf.at 0 (Rect.unit (s := S20) ![v0.toNat] S1.size (k0_off1_inb i)) numel1_S1
  let c0_i32 : BitVec 32 := 0#32
  let c0_i32_0 : BitVec 32 := 0#32
  ![v1.toNat, c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x256x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x256x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x2048x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 1 → Memref sig .tc .vmem S4x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S512x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

class Facts₀ : Prop where
  shapeCasts_S4x2048x2048_S8192x2048 : S4x2048x2048.ShapeCasts S8192x2048
  bcast_S_S8192 : S_.BroadcastsInDim S8192 (![] : Fin 0 → Fin S8192.rank)
  bcast_S8192_S8192x1_0 : S8192.BroadcastsInDim S8192x1 (![0] : Fin 1 → Fin S8192x1.rank)
  bcast_S4_S1x4_1 : S4.BroadcastsInDim S1x4 (![1] : Fin 1 → Fin S1x4.rank)
  bcast_S8192x1_S8192x4_0_1 : S8192x1.BroadcastsInDim S8192x4 (![0, 1] : Fin 2 → Fin S8192x4.rank)
  bcast_S1x4_S8192x4_0_1 : S1x4.BroadcastsInDim S8192x4 (![0, 1] : Fin 2 → Fin S8192x4.rank)
  natLt_1_32 : 1 < 32
  reducesTo_S8192x4_S4_d0 : S8192x4.ReducesTo [0] S4
  h_S_ : 0 < S_.numel
  bcast_S_S4 : S_.BroadcastsInDim S4 (![] : Fin 0 → Fin S4.rank)
  bcast_S_S1 : S_.BroadcastsInDim S1 (![] : Fin 0 → Fin S1.rank)
  bcast_S_S_ : S_.BroadcastsInDim S_ (![] : Fin 0 → Fin S_.rank)
  reduceWindows_S4_S4_w4s1p3_0 : S4.ReduceWindows (![4] : Fin 1 → Nat) ![1] ![3] ![0] S4
  slices_S4_S3_0 : S4.Slices ![0] S3
  concatenates_S1_S3_S4_d0 : Shape.Concatenates [S1, S3] S4 0
  bcast_S_S10240 : S_.BroadcastsInDim S10240 (![] : Fin 0 → Fin S10240.rank)
  bcast_S_S20 : S_.BroadcastsInDim S20 (![] : Fin 0 → Fin S20.rank)
  bcast_S20_S20x1_0 : S20.BroadcastsInDim S20x1 (![0] : Fin 1 → Fin S20x1.rank)
  bcast_S20x1_S20x4_0_1 : S20x1.BroadcastsInDim S20x4 (![0, 1] : Fin 2 → Fin S20x4.rank)
  bcast_S1x4_S20x4_0_1 : S1x4.BroadcastsInDim S20x4 (![0, 1] : Fin 2 → Fin S20x4.rank)
  reducesTo_S20x4_S20_d1 : S20x4.ReducesTo [1] S20
  bitsLt_bf16_f32 : FTy.bits .bf16 < FTy.bits .f32
  bcast_S_S1x2048 : S_.BroadcastsInDim S1x2048 (![] : Fin 0 → Fin S1x2048.rank)
  concatenates_S8192x2048_S1x2048_S8193x2048_d0 : Shape.Concatenates [S8192x2048, S1x2048] S8193x2048 0
  bcast_S10240_S10240x1_0 : S10240.BroadcastsInDim S10240x1 (![0] : Fin 1 → Fin S10240x1.rank)
  numel1_S1 : S1.numel = 1
  inb_S512x2048_S512x2048_0_0 : ∀ a, (![0, 0] : Fin 2 → Nat) a + S512x2048.size a ≤ S512x2048.size a
  h_S512x2048 : 0 < S512x2048.numel
  shapeCasts_S512x2048_S512x2048 : S512x2048.ShapeCasts S512x2048
  inb_S1x256x2048_S1x256x2048_0_0_0 : ∀ a, (![0, 0, 0] : Fin 3 → Nat) a + S1x256x2048.size a ≤ S1x256x2048.size a
  h_S1x256x2048 : 0 < S1x256x2048.numel
  shapeCasts_S1x256x2048_S256x2048 : S1x256x2048.ShapeCasts S256x2048
  inb_S1x2048x256_S1x2048x256_0_0_0 : ∀ a, (![0, 0, 0] : Fin 3 → Nat) a + S1x2048x256.size a ≤ S1x2048x256.size a
  h_S1x2048x256 : 0 < S1x2048x256.numel
  shapeCasts_S1x2048x256_S2048x256 : S1x2048x256.ShapeCasts S2048x256
  reduces_S512x2048_S512 : S512x2048.Reduces [1] S512
  shapeCasts_S512_S512x1 : S512.ShapeCasts S512x1
  iota_S4x2048_d0_w32 : S4x2048.Iotas .tc 32 [0]
  inb_S4x2048_S4x2048_0_0 : ∀ a, (![0, 0] : Fin 2 → Nat) a + S4x2048.size a ≤ S4x2048.size a
  h_S4x2048 : 0 < S4x2048.numel
  reduces_S4x2048_S2048 : S4x2048.Reduces [0] S2048
  shapeCasts_S2048_S1x2048 : S2048.ShapeCasts S1x2048
  broadcasts_S512x1_S512x2048 : S512x1.Broadcasts S512x2048
  broadcasts_S1x2048_S512x2048 : S1x2048.Broadcasts S512x2048
  shapeCasts_S8192x2048_S4x2048x2048 : S8192x2048.ShapeCasts S4x2048x2048
  gather_S8192_S8192x1_S8192_n_0_n_n_0_1_1_wf : GatherDims.WF S8192 S8192x1 S8192 [] [0] [] [0] [] 1 ![1]
  gather_S4_S8192x1_S8192_n_0_n_n_0_1_1_wf : GatherDims.WF S4 S8192x1 S8192 [] [0] [] [0] [] 1 ![1]
  scatter_S8192_S8192x1_S8192_n_0_0_1_wf : ScatterDims.WF S8192 S8192x1 S8192 [] [0] [0] 1
  scatter_S10240_S8192x1_S8192_n_0_0_1_wf : ScatterDims.WF S10240 S8192x1 S8192 [] [0] [0] 1
  gather_S8193x2048_S10240x1_S10240x2048_1_0_n_n_0_1_12048_wf : GatherDims.WF S8193x2048 S10240x1 S10240x2048 [1] [0] [] [0] [] 1 ![1, 2048]
  dot_S512x2048_S256x2048_S512x256_1_1_0_0_n_n_wf : DotDims.WF S512x2048 S256x2048 S512x256 [1] [1] [0] [0] [] []
  dot_S512x256_S2048x256_S512x2048_1_1_0_0_n_n_wf : DotDims.WF S512x256 S2048x256 S512x2048 [1] [1] [0] [0] [] []
  gather_S10240x2048_S8192x1_S8192x2048_1_0_n_n_0_1_12048_wf : GatherDims.WF S10240x2048 S8192x1 S8192x2048 [1] [0] [] [0] [] 1 ![1, 2048]
  hrank0 : 0 < grid0.rank
  k0_off1_inb : ∀ i : grid0.Coords, ∀ a, (k0_off1 i) a + S1.size a ≤ S20.size a
  k0_off2_inb : ∀ i : grid0.Coords, ∀ (k0_h2 : k0_cond2 i = 1#1), ∀ a, (k0_off2 i) a + S1.size a ≤ S20.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x2048.size a ≤ S10240x2048.size a
  hwx0_0 : ∀ i : grid0.Coords, EltTy.bits .bf16 = 32 ∨ (Rect.block (s := S10240x2048) S512x2048.size (cc0_transform_0 i) (hinb0_0 i)).WholeWords (EltTy.packing .bf16)
  hstage0_1 : ∀ j, (stage0_1 j).IsWhole
  nbuf0_1 : grid0.bufCount reads0_1 false = 2
  hreads0_1 : ∀ {F : FTy → Type} [FloatOps F] (pf : pre0.Contents (Elt F)) (i i' : grid0.Coords), (∀ a, reads0_1 a = true → i a = i' a) → cc0_transform_1 k0_off1_inb numel1_S1 pf i = cc0_transform_1 k0_off1_inb numel1_S1 pf i'
  hstage0_2 : ∀ j, (stage0_2 j).IsWhole
  nbuf0_2 : grid0.bufCount reads0_2 false = 2
  hreads0_2 : ∀ {F : FTy → Type} [FloatOps F] (pf : pre0.Contents (Elt F)) (i i' : grid0.Coords), (∀ a, reads0_2 a = true → i a = i' a) → cc0_transform_2 k0_off1_inb numel1_S1 pf i = cc0_transform_2 k0_off1_inb numel1_S1 pf i'
  hstage0_3 : ∀ j, (stage0_3 j).IsWhole
  nbuf0_3 : grid0.bufCount reads0_3 false = 2
  hreads0_3 : ∀ {F : FTy → Type} [FloatOps F] (pf : pre0.Contents (Elt F)) (i i' : grid0.Coords), (∀ a, reads0_3 a = true → i a = i' a) → cc0_transform_3 k0_off1_inb numel1_S1 pf i = cc0_transform_3 k0_off1_inb numel1_S1 pf i'
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S4x2048.size a ≤ S4x2048.size a
  hwx0_4 : ∀ i : grid0.Coords, EltTy.bits .f32 = 32 ∨ (Rect.block (s := S4x2048) S4x2048.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S512x2048.size a ≤ S10240x2048.size a
  hwx0_5 : ∀ i : grid0.Coords, EltTy.bits .f32 = 32 ∨ (Rect.block (s := S10240x2048) S512x2048.size (cc0_transform_5 i) (hinb0_5 i)).WholeWords (EltTy.packing .f32)

variable [Facts₀]

def comparator_i32_i32_d0 : BitVec 32 × BitVec 32 → BitVec 32 × BitVec 32 → BitVec 1 :=
  fun l r =>
    let v2 := IntOp.cmpi .slt l.1 r.1
    v2
def gather_S8192_S8192x1_S8192_n_0_n_n_0_1_1 : GatherDims S8192 S8192x1 S8192 where
  offsetDims := []
  collapsedSliceDims := [0]
  operandBatchingDims := []
  startIndicesBatchingDims := []
  startIndexMap := [0]
  indexVectorDim := 1
  sliceSizes := ![1]
  wf := gather_S8192_S8192x1_S8192_n_0_n_n_0_1_1_wf
def gather_S4_S8192x1_S8192_n_0_n_n_0_1_1 : GatherDims S4 S8192x1 S8192 where
  offsetDims := []
  collapsedSliceDims := [0]
  operandBatchingDims := []
  startIndicesBatchingDims := []
  startIndexMap := [0]
  indexVectorDim := 1
  sliceSizes := ![1]
  wf := gather_S4_S8192x1_S8192_n_0_n_n_0_1_1_wf
def scatter_S8192_S8192x1_S8192_n_0_0_1 : ScatterDims S8192 S8192x1 S8192 where
  updateWindowDims := []
  insertedWindowDims := [0]
  scatterDimsToOperandDims := [0]
  indexVectorDim := 1
  wf := scatter_S8192_S8192x1_S8192_n_0_0_1_wf
def scatter_S10240_S8192x1_S8192_n_0_0_1 : ScatterDims S10240 S8192x1 S8192 where
  updateWindowDims := []
  insertedWindowDims := [0]
  scatterDimsToOperandDims := [0]
  indexVectorDim := 1
  wf := scatter_S10240_S8192x1_S8192_n_0_0_1_wf
def gather_S8193x2048_S10240x1_S10240x2048_1_0_n_n_0_1_12048 : GatherDims S8193x2048 S10240x1 S10240x2048 where
  offsetDims := [1]
  collapsedSliceDims := [0]
  operandBatchingDims := []
  startIndicesBatchingDims := []
  startIndexMap := [0]
  indexVectorDim := 1
  sliceSizes := ![1, 2048]
  wf := gather_S8193x2048_S10240x1_S10240x2048_1_0_n_n_0_1_12048_wf
def dot_S512x2048_S256x2048_S512x256_1_1_0_0_n_n : DotDims S512x2048 S256x2048 S512x256 where
  lhsContracting := [1]
  rhsContracting := [1]
  lhsNonContracting := [0]
  rhsNonContracting := [0]
  lhsBatch := []
  rhsBatch := []
  wf := dot_S512x2048_S256x2048_S512x256_1_1_0_0_n_n_wf
def dot_S512x256_S2048x256_S512x2048_1_1_0_0_n_n : DotDims S512x256 S2048x256 S512x2048 where
  lhsContracting := [1]
  rhsContracting := [1]
  lhsNonContracting := [0]
  rhsNonContracting := [0]
  lhsBatch := []
  rhsBatch := []
  wf := dot_S512x256_S2048x256_S512x2048_1_1_0_0_n_n_wf
def gather_S10240x2048_S8192x1_S8192x2048_1_0_n_n_0_1_12048 : GatherDims S10240x2048 S8192x1 S8192x2048 where
  offsetDims := [1]
  collapsedSliceDims := [0]
  operandBatchingDims := []
  startIndicesBatchingDims := []
  startIndexMap := [0]
  indexVectorDim := 1
  sliceSizes := ![1, 2048]
  wf := gather_S10240x2048_S8192x1_S8192x2048_1_0_n_n_0_1_12048_wf

abbrev spec0_0 : Pipeline.WinSpec sig grid0.rank :=
  Pipeline.WinSpec.ofSpec (Memref.whole main_v96) S512x2048.size reads0_0 false false 2 stage0_0 sem0_0 nbuf0_0 hstage0_0

abbrev spec0_1 : Pipeline.WinSpec sig grid0.rank :=
  Pipeline.WinSpec.ofSpec (Memref.whole main_v97) S1x256x2048.size reads0_1 false false 2 stage0_1 sem0_1 nbuf0_1 hstage0_1

abbrev spec0_2 : Pipeline.WinSpec sig grid0.rank :=
  Pipeline.WinSpec.ofSpec (Memref.whole main_v98) S1x256x2048.size reads0_2 false false 2 stage0_2 sem0_2 nbuf0_2 hstage0_2

abbrev spec0_3 : Pipeline.WinSpec sig grid0.rank :=
  Pipeline.WinSpec.ofSpec (Memref.whole main_v99) S1x2048x256.size reads0_3 false false 2 stage0_3 sem0_3 nbuf0_3 hstage0_3

abbrev spec0_4 : Pipeline.WinSpec sig grid0.rank :=
  Pipeline.WinSpec.ofSpec (Memref.whole main_arg4) S4x2048.size reads0_4 false true 1 stage0_4 sem0_4 nbuf0_4 hstage0_4

abbrev spec0_5 : Pipeline.WinSpec sig grid0.rank :=
  Pipeline.WinSpec.ofSpec (Memref.whole main_v100) S512x2048.size reads0_5 true false 2 stage0_5 sem0_5 nbuf0_5 hstage0_5

abbrev spec0 : Fin 6 → Pipeline.WinSpec sig grid0.rank := fun | 0 => spec0_0 | 1 => spec0_1 | 2 => spec0_2 | 3 => spec0_3 | 4 => spec0_4 | 5 => spec0_5 | ⟨_ + 6, h⟩ => absurd h (Nat.not_lt.2 (Nat.le_add_left _ _))
theorem hcount0 : ∀ w, grid0.bufCount (spec0 w).reads (spec0 w).sync = (spec0 w).nbuf := fun | 0 => nbuf0_0 | 1 => nbuf0_1 | 2 => nbuf0_2 | 3 => nbuf0_3 | 4 => nbuf0_4 | 5 => nbuf0_5 | ⟨_ + 6, h⟩ => absurd h (Nat.not_lt.2 (Nat.le_add_left _ _))
abbrev ix0 (pf : pre0.Contents (Elt F)) : (w : Fin 6) → grid0.Coords → Fin (spec0 w).shape.rank → Nat := fun | 0 => cc0_transform_0 | 1 => cc0_transform_1 k0_off1_inb numel1_S1 pf | 2 => cc0_transform_2 k0_off1_inb numel1_S1 pf | 3 => cc0_transform_3 k0_off1_inb numel1_S1 pf | 4 => cc0_transform_4 | 5 => cc0_transform_5 | ⟨_ + 6, h⟩ => absurd h (Nat.not_lt.2 (Nat.le_add_left _ _))
theorem hreads0 : ∀ (pf : pre0.Contents (Elt F)) w (i i' : grid0.Coords), (∀ a, (spec0 w).reads a = true → i a = i' a) → ix0 pf w i = ix0 pf w i' := fun pf => fun | 0 => hreads0_0 | 1 => hreads0_1 pf | 2 => hreads0_2 pf | 3 => hreads0_3 pf | 4 => hreads0_4 | 5 => hreads0_5 | ⟨_ + 6, h⟩ => absurd h (Nat.not_lt.2 (Nat.le_add_left _ _))
def ok0 (pf : pre0.Contents (Elt F)) : Prop :=
  (∀ i : grid0.Coords, ∃ h : (∀ a, (cc0_transform_1 k0_off1_inb numel1_S1 pf i a + 1) * S1x256x2048.size a ≤ S4x3840x2048.size a), EltTy.bits .bf16 = 32 ∨ (Rect.block (s := S4x3840x2048) S1x256x2048.size (cc0_transform_1 k0_off1_inb numel1_S1 pf i) h).WholeWords (EltTy.packing .bf16)) ∧
  (∀ i : grid0.Coords, ∃ h : (∀ a, (cc0_transform_2 k0_off1_inb numel1_S1 pf i a + 1) * S1x256x2048.size a ≤ S4x3840x2048.size a), EltTy.bits .bf16 = 32 ∨ (Rect.block (s := S4x3840x2048) S1x256x2048.size (cc0_transform_2 k0_off1_inb numel1_S1 pf i) h).WholeWords (EltTy.packing .bf16)) ∧
  (∀ i : grid0.Coords, ∃ h : (∀ a, (cc0_transform_3 k0_off1_inb numel1_S1 pf i a + 1) * S1x2048x256.size a ≤ S4x2048x3840.size a), EltTy.bits .bf16 = 32 ∨ (Rect.block (s := S4x2048x3840) S1x2048x256.size (cc0_transform_3 k0_off1_inb numel1_S1 pf i) h).WholeWords (EltTy.packing .bf16))
instance (pf : pre0.Contents (Elt F)) : Decidable (ok0 pf) := decidable_of_iff' _ (Iff.of_eq (ok0.eq_1 pf))
theorem hinb0 : ∀ (pf : pre0.Contents (Elt F)), ok0 pf → ∀ w (i : grid0.Coords) a, (ix0 pf w i a + 1) * (spec0 w).size a ≤ (spec0 w).shape.size a :=
  fun pf hok => fun | 0 => hinb0_0 | 1 => fun i a => (hok.1 i).elim fun h _ => h a | 2 => fun i a => (hok.2.1 i).elim fun h _ => h a | 3 => fun i a => (hok.2.2 i).elim fun h _ => h a | 4 => hinb0_4 | 5 => hinb0_5 | ⟨_ + 6, h⟩ => absurd h (Nat.not_lt.2 (Nat.le_add_left _ _))
theorem hwx0 : ∀ (pf : pre0.Contents (Elt F)) (hok : ok0 pf) w (i : grid0.Coords), (spec0 w).elt.bits = 32 ∨ (Rect.block (spec0 w).size (ix0 pf w i) (hinb0 pf hok w i)).WholeWords (spec0 w).elt.packing :=
  fun pf hok => fun | 0 => hwx0_0 | 1 => fun i => (hok.1 i).elim fun _ h => h | 2 => fun i => (hok.2.1 i).elim fun _ h => h | 3 => fun i => (hok.2.2 i).elim fun _ h => h | 4 => hwx0_4 | 5 => hwx0_5 | ⟨_ + 6, h⟩ => absurd h (Nat.not_lt.2 (Nat.le_add_left _ _))
abbrev idle0 : Fin 6 → grid0.Coords → Bool := fun | 0 => fun _ => false | 1 => fun _ => false | 2 => fun _ => false | 3 => fun _ => false | 4 => fun _ => false | 5 => fun i => !(k0_cond2 i == 1#1) | ⟨_ + 6, h⟩ => absurd h (Nat.not_lt.2 (Nat.le_add_left _ _))

class Facts : Prop extends Facts₀ where
  harr0 : ∀ w, (spec0 w).arr.IsWhole

variable [Facts]
-- ==== ReferenceIdeal.lean ====
abbrev S4x2048x2048 : Shape := ⟨3, ![4, 2048, 2048]⟩
abbrev S4x3840x2048 : Shape := ⟨3, ![4, 3840, 2048]⟩
abbrev S4x2048x3840 : Shape := ⟨3, ![4, 2048, 3840]⟩
abbrev S4x2048 : Shape := ⟨2, ![4, 2048]⟩
abbrev S8192 : Shape := ⟨1, ![8192]⟩
abbrev S8192x2048 : Shape := ⟨2, ![8192, 2048]⟩
abbrev S4x3840x8192 : Shape := ⟨3, ![4, 3840, 8192]⟩
abbrev S4x8192x3840 : Shape := ⟨3, ![4, 8192, 3840]⟩
abbrev S_ : Shape := ⟨0, ![]⟩
abbrev S4x8192x2048 : Shape := ⟨3, ![4, 8192, 2048]⟩
abbrev S4x8192 : Shape := ⟨2, ![4, 8192]⟩
abbrev S4x8192x1 : Shape := ⟨3, ![4, 8192, 1]⟩
abbrev S4x1x2048 : Shape := ⟨3, ![4, 1, 2048]⟩
abbrev S8192x1 : Shape := ⟨2, ![8192, 1]⟩
abbrev S8192x2 : Shape := ⟨2, ![8192, 2]⟩

abbrev nBuf : Space → Nat
  | .hbm => 58
  | .vmem => 0
  | .smem => 0
  | _ => 0

abbrev bufTy : (tb : Table) → Fin (tcTables nBuf tb) → BufTy
  | .hbm, ⟨0, _⟩ => ⟨S4x2048x2048, .f32⟩
  | .hbm, ⟨1, _⟩ => ⟨S4x3840x2048, .f32⟩
  | .hbm, ⟨2, _⟩ => ⟨S4x2048x3840, .f32⟩
  | .hbm, ⟨3, _⟩ => ⟨S4x3840x2048, .f32⟩
  | .hbm, ⟨4, _⟩ => ⟨S4x2048, .f32⟩
  | .hbm, ⟨5, _⟩ => ⟨S8192, .i32⟩
  | .hbm, ⟨6, _⟩ => ⟨S8192x2048, .f32⟩
  | .hbm, ⟨7, _⟩ => ⟨S4x3840x8192, .f32⟩
  | .hbm, ⟨8, _⟩ => ⟨S4x8192x3840, .f32⟩
  | .hbm, ⟨9, _⟩ => ⟨S4x8192x3840, .f32⟩
  | .hbm, ⟨10, _⟩ => ⟨S4x8192x3840, .f32⟩
  | .hbm, ⟨11, _⟩ => ⟨S_, .f32⟩
  | .hbm, ⟨12, _⟩ => ⟨S4x8192x3840, .f32⟩
  | .hbm, ⟨13, _⟩ => ⟨S4x8192x3840, .f32⟩
  | .hbm, ⟨14, _⟩ => ⟨S_, .f32⟩
  | .hbm, ⟨15, _⟩ => ⟨S4x8192x3840, .f32⟩
  | .hbm, ⟨16, _⟩ => ⟨S4x8192x3840, .f32⟩
  | .hbm, ⟨17, _⟩ => ⟨S4x8192x3840, .f32⟩
  | .hbm, ⟨18, _⟩ => ⟨S4x3840x8192, .f32⟩
  | .hbm, ⟨19, _⟩ => ⟨S4x8192x3840, .f32⟩
  | .hbm, ⟨20, _⟩ => ⟨S4x8192x3840, .f32⟩
  | .hbm, ⟨21, _⟩ => ⟨S4x8192x2048, .f32⟩
  | .hbm, ⟨22, _⟩ => ⟨S4x8192x2048, .f32⟩
  | .hbm, ⟨23, _⟩ => ⟨S_, .f32⟩
  | .hbm, ⟨24, _⟩ => ⟨S4x8192, .f32⟩
  | .hbm, ⟨25, _⟩ => ⟨S4x8192x1, .f32⟩
  | .hbm, ⟨26, _⟩ => ⟨S_, .f32⟩
  | .hbm, ⟨27, _⟩ => ⟨S4x8192x1, .f32⟩
  | .hbm, ⟨28, _⟩ => ⟨S4x8192x1, .f32⟩
  | .hbm, ⟨29, _⟩ => ⟨S_, .f32⟩
  | .hbm, ⟨30, _⟩ => ⟨S4x8192x1, .f32⟩
  | .hbm, ⟨31, _⟩ => ⟨S4x8192x1, .f32⟩
  | .hbm, ⟨32, _⟩ => ⟨S4x8192x1, .f32⟩
  | .hbm, ⟨33, _⟩ => ⟨S4x8192x2048, .f32⟩
  | .hbm, ⟨34, _⟩ => ⟨S4x8192x2048, .f32⟩
  | .hbm, ⟨35, _⟩ => ⟨S4x1x2048, .f32⟩
  | .hbm, ⟨36, _⟩ => ⟨S4x8192x2048, .f32⟩
  | .hbm, ⟨37, _⟩ => ⟨S4x8192x2048, .f32⟩
  | .hbm, ⟨38, _⟩ => ⟨S8192, .i32⟩
  | .hbm, ⟨39, _⟩ => ⟨S_, .i32⟩
  | .hbm, ⟨40, _⟩ => ⟨S8192, .i32⟩
  | .hbm, ⟨41, _⟩ => ⟨S8192, .i1⟩
  | .hbm, ⟨42, _⟩ => ⟨S_, .i32⟩
  | .hbm, ⟨43, _⟩ => ⟨S8192, .i32⟩
  | .hbm, ⟨44, _⟩ => ⟨S8192, .i32⟩
  | .hbm, ⟨45, _⟩ => ⟨S8192, .i32⟩
  | .hbm, ⟨46, _⟩ => ⟨S_, .i32⟩
  | .hbm, ⟨47, _⟩ => ⟨S8192, .i32⟩
  | .hbm, ⟨48, _⟩ => ⟨S8192, .i1⟩
  | .hbm, ⟨49, _⟩ => ⟨S_, .i32⟩
  | .hbm, ⟨50, _⟩ => ⟨S8192, .i32⟩
  | .hbm, ⟨51, _⟩ => ⟨S8192, .i32⟩
  | .hbm, ⟨52, _⟩ => ⟨S8192, .i32⟩
  | .hbm, ⟨53, _⟩ => ⟨S8192x1, .i32⟩
  | .hbm, ⟨54, _⟩ => ⟨S8192x1, .i32⟩
  | .hbm, ⟨55, _⟩ => ⟨S8192x2, .i32⟩
  | .hbm, ⟨56, _⟩ => ⟨S8192x2048, .f32⟩
  | .hbm, ⟨57, _⟩ => ⟨S4x2048x2048, .f32⟩
  | _, _ => ⟨S4x2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_call0_v0 : Ref sig .tc := ⟨.hbm, 9, rfl⟩
abbrev main_call0_v1 : Ref sig .tc := ⟨.hbm, 10, rfl⟩
abbrev main_call0_cst : Ref sig .tc := ⟨.hbm, 11, rfl⟩
abbrev main_call0_v2 : Ref sig .tc := ⟨.hbm, 12, rfl⟩
abbrev main_call0_v3 : Ref sig .tc := ⟨.hbm, 13, rfl⟩
abbrev main_call0_cst_0 : Ref sig .tc := ⟨.hbm, 14, rfl⟩
abbrev main_call0_v4 : Ref sig .tc := ⟨.hbm, 15, rfl⟩
abbrev main_call0_v5 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_cst : Ref sig .tc := ⟨.hbm, 23, rfl⟩
abbrev main_v9 : Ref sig .tc := ⟨.hbm, 24, rfl⟩
abbrev main_v10 : Ref sig .tc := ⟨.hbm, 25, rfl⟩
abbrev main_cst_0 : Ref sig .tc := ⟨.hbm, 26, rfl⟩
abbrev main_v11 : Ref sig .tc := ⟨.hbm, 27, rfl⟩
abbrev main_v12 : Ref sig .tc := ⟨.hbm, 28, rfl⟩
abbrev main_cst_1 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_c : Ref sig .tc := ⟨.hbm, 39, rfl⟩
abbrev main_v22 : Ref sig .tc := ⟨.hbm, 40, rfl⟩
abbrev main_v23 : Ref sig .tc := ⟨.hbm, 41, rfl⟩
abbrev main_c_2 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_c_3 : Ref sig .tc := ⟨.hbm, 46, rfl⟩
abbrev main_v27 : Ref sig .tc := ⟨.hbm, 47, rfl⟩
abbrev main_v28 : Ref sig .tc := ⟨.hbm, 48, rfl⟩
abbrev main_c_4 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩

abbrev nD : Nat := 1
abbrev τ : Topo := Topo.v7x

variable {F : FTy → Type} [FloatOps F]

class Facts₀ : Prop where
  shapeCasts_S4x2048x2048_S8192x2048 : S4x2048x2048.ShapeCasts S8192x2048
  transposes_S4x3840x8192_S4x8192x3840_0_2_1 : S4x3840x8192.Transposes [0, 2, 1] S4x8192x3840
  bcast_S_S4x8192x3840 : S_.BroadcastsInDim S4x8192x3840 (![] : Fin 0 → Fin S4x8192x3840.rank)
  reducesTo_S4x8192x2048_S4x8192_d2 : S4x8192x2048.ReducesTo [2] S4x8192
  h_S_ : 0 < S_.numel
  bcast_S4x8192_S4x8192x1_0_1 : S4x8192.BroadcastsInDim S4x8192x1 (![0, 1] : Fin 2 → Fin S4x8192x1.rank)
  bcast_S_S4x8192x1 : S_.BroadcastsInDim S4x8192x1 (![] : Fin 0 → Fin S4x8192x1.rank)
  bcast_S4x8192x1_S4x8192x2048_0_1_2 : S4x8192x1.BroadcastsInDim S4x8192x2048 (![0, 1, 2] : Fin 3 → Fin S4x8192x2048.rank)
  bcast_S4x2048_S4x1x2048_0_2 : S4x2048.BroadcastsInDim S4x1x2048 (![0, 2] : Fin 2 → Fin S4x1x2048.rank)
  bcast_S4x1x2048_S4x8192x2048_0_1_2 : S4x1x2048.BroadcastsInDim S4x8192x2048 (![0, 1, 2] : Fin 3 → Fin S4x8192x2048.rank)
  bcast_S_S8192 : S_.BroadcastsInDim S8192 (![] : Fin 0 → Fin S8192.rank)
  bcast_S8192_S8192x1_0 : S8192.BroadcastsInDim S8192x1 (![0] : Fin 1 → Fin S8192x1.rank)
  concatenates_S8192x1_S8192x1_S8192x2_d1 : Shape.Concatenates [S8192x1, S8192x1] S8192x2 1
  shapeCasts_S8192x2048_S4x2048x2048 : S8192x2048.ShapeCasts S4x2048x2048
  dot_S4x3840x2048_S8192x2048_S4x3840x8192_2_1_01_0_n_n_wf : DotDims.WF S4x3840x2048 S8192x2048 S4x3840x8192 [2] [1] [0, 1] [0] [] []
  dot_S4x8192x3840_S4x2048x3840_S4x8192x2048_2_2_1_1_0_0_wf : DotDims.WF S4x8192x3840 S4x2048x3840 S4x8192x2048 [2] [2] [1] [1] [0] [0]
  gather_S4x8192x2048_S8192x2_S8192x2048_1_01_n_n_01_1_112048_wf : GatherDims.WF S4x8192x2048 S8192x2 S8192x2048 [1] [0, 1] [] [0, 1] [] 1 ![1, 1, 2048]

variable [Facts₀]

def dot_S4x3840x2048_S8192x2048_S4x3840x8192_2_1_01_0_n_n : DotDims S4x3840x2048 S8192x2048 S4x3840x8192 where
  lhsContracting := [2]
  rhsContracting := [1]
  lhsNonContracting := [0, 1]
  rhsNonContracting := [0]
  lhsBatch := []
  rhsBatch := []
  wf := dot_S4x3840x2048_S8192x2048_S4x3840x8192_2_1_01_0_n_n_wf
def dot_S4x8192x3840_S4x2048x3840_S4x8192x2048_2_2_1_1_0_0 : DotDims S4x8192x3840 S4x2048x3840 S4x8192x2048 where
  lhsContracting := [2]
  rhsContracting := [2]
  lhsNonContracting := [1]
  rhsNonContracting := [1]
  lhsBatch := [0]
  rhsBatch := [0]
  wf := dot_S4x8192x3840_S4x2048x3840_S4x8192x2048_2_2_1_1_0_0_wf
def gather_S4x8192x2048_S8192x2_S8192x2048_1_01_n_n_01_1_112048 : GatherDims S4x8192x2048 S8192x2 S8192x2048 where
  offsetDims := [1]
  collapsedSliceDims := [0, 1]
  operandBatchingDims := []
  startIndicesBatchingDims := []
  startIndexMap := [0, 1]
  indexVectorDim := 1
  sliceSizes := ![1, 1, 2048]
  wf := gather_S4x8192x2048_S8192x2_S8192x2048_1_01_n_n_01_1_112048_wf

class Facts : Prop extends Facts₀ where

variable [Facts]
-- ==== Proof.HostRead.lean ====
/-
  Reading the host program's values on entry to the kernel: one tactic that opens the contents on entry as the fold of
  the program's operation list and rewrites every operation's result at its own buffer to the operation's function of
  the contents at its operand buffers.
-/
import proofs.«413600_j1477468749957_2_alg».proof.Proof.Gen.KernelIdeal.Frame.Runs
import Idealize.ShloMosaic.Lib.StableHlo.Run

namespace Cert.KernelIdeal.HostSteps

open Idealize.ShloMosaic Idealize.ShloMosaic.StableHlo Cert.KernelIdeal Cert.KernelIdeal.Gen

/-- Open the contents on entry as the fold of the operation list, and read every operation's result. -/
macro "host_read" : tactic =>
  `(tactic| (unfold V V0
             simp only [hostOps0, hostOps0_1, hostOps0_2, hostOps0_3, hostOps0_4, hostOps0_5, hostOps0_6, hostOps0_7, hostOps0_8, hostOps0_9, hostOps0_10, hostOps0_11, hostOps0_12, List.flatten_cons, List.flatten_nil, List.append_nil, List.cons_append, List.nil_append]
             after_results_simp
             try simp only [TRef.ofBuf, TRef.toBuf, cast_eq]))

/-- The same reading one rewrite at a time: for a value whose operation holds its operands inside a list (a
    concatenation), where the one-pass form does not reach them. -/
macro "host_read_rw" : tactic =>
  `(tactic| (unfold V V0
             simp only [hostOps0, hostOps0_1, hostOps0_2, hostOps0_3, hostOps0_4, hostOps0_5, hostOps0_6, hostOps0_7, hostOps0_8, hostOps0_9, hostOps0_10, hostOps0_11, hostOps0_12, List.flatten_cons, List.flatten_nil, List.append_nil, List.cons_append, List.nil_append]
             after_results
             try simp only [TRef.ofBuf, TRef.toBuf, cast_eq]))

end Cert.KernelIdeal.HostSteps
-- ==== Proof.HostStages.lean ====
/-
  The host program around the kernel, cut into stages: each stage is one value of the program as a pure function of
  the earlier values it is computed from, spelt with the program's own operations in the program's order.

  The program clips the modality words to [0, 3] (`clipS`), counts the tokens of each expert (`cntS`), rounds each
  count up to a multiple of the 512-row tile (`pcntS`), takes running sums of both (`cumsumS`; shifted by one place
  with a zero in front, `shiftS`, they are where each expert's group starts in the sorted order and in the padded
  layout), sorts the tokens by expert carrying their numbers (`sortIdxS`), reads each sorted token's expert
  (`sortedModS`), places sorted token j at its group's padded start plus its rank in the group (`destS`), scatters
  that place to the token's own number (`o2pS`) and the token's number to that place over a fill of 8192 (`psrcS`),
  names each tile's expert as the number of experts whose padded groups end at or before the tile's first row, capped
  at 3 (`eidS`), and gathers the rows of x (cast to bf16, one zero row appended at 8192) through the placed numbers
  (`xpadS`).
-/
import proofs.«413600_j1477468749957_2_alg».proof.Proof.Gen.KernelIdeal

noncomputable section

namespace Cert.KernelIdeal.Stages

open Idealize.ShloMosaic Cert.KernelIdeal Cert.KernelIdeal.Gen

variable {F : FTy → Type} [FloatOps F]

/-- A splat of an integer word over [8192]. -/
abbrev splat8192 (w : BitVec 32) : IVec S8192 32 := broadcastInDim S8192 ![] bcast_S_S8192 (constantI S_ 32 w)
/-- A splat of an integer word over [4]. -/
abbrev splat4 (w : BitVec 32) : IVec S4 32 := broadcastInDim S4 ![] bcast_S_S4 (constantI S_ 32 w)

/-- The modality words clipped to [0, 3]: `min (splat 3) (max (splat 0) a5)`. -/
def clipS (a5 : IVec S8192 32) : IVec S8192 32 :=
  minsi (broadcastInDim S8192 ![] bcast_S_S8192 (id (constantI S_ 32 3#32)))
    (maxsi (broadcastInDim S8192 ![] bcast_S_S8192 (id (constantI S_ 32 0#32))) a5)

/-- The number of tokens of each expert: the column sums of the [8192, 4] table of `v1 t == e`. -/
def cntS (v1 : IVec S8192 32) : IVec S4 32 :=
  Host.reduce IntOp.addi
    (extui 32 (cmpi .eq (broadcastInDim S8192x4 ![0, 1] bcast_S8192x1_S8192x4_0_1 (broadcastInDim S8192x1 ![0] bcast_S8192_S8192x1_0 v1))
      (broadcastInDim S8192x4 ![0, 1] bcast_S1x4_S8192x4_0_1 (broadcastInDim S1x4 ![1] bcast_S4_S1x4_1 (iotaInDim S4 32 0)))) natLt_1_32)
    (constantI S_ 32 0#32) reducesTo_S8192x4_S4_d0 h_S_

/-- `counts + 512 - 1`. -/
def cnt511S (v9 : IVec S4 32) : IVec S4 32 := subi (addi v9 (splat4 512#32)) (splat4 1#32)

/-- jnp's floor division by 512 as lowered: the truncated quotient, less one where the signs differ and the remainder is not zero. -/
def floordivS (v13 : IVec S4 32) : IVec S4 32 :=
  select
    (andi (cmpi .ne (signi v13) (broadcastInDim S4 ![] bcast_S_S4 (signi (id (constantI S_ 32 512#32)))))
      (cmpi .ne (Host.remsi v13 (broadcastInDim S4 ![] bcast_S_S4 (id (constantI S_ 32 512#32)))) (splat4 0#32)))
    (subi (Host.divsi v13 (broadcastInDim S4 ![] bcast_S_S4 (id (constantI S_ 32 512#32)))) (splat4 1#32))
    (Host.divsi v13 (broadcastInDim S4 ![] bcast_S_S4 (id (constantI S_ 32 512#32))))

/-- The padded counts: `floor_divide (counts + 511) 512 * 512`. -/
def pcntS (v9 : IVec S4 32) : IVec S4 32 := muli (floordivS (cnt511S v9)) (splat4 512#32)

/-- jnp's cumsum over four entries: a window of 4 padded 3 low. -/
def cumsumS (x : IVec S4 32) : IVec S4 32 :=
  Host.reduceWindow IntOp.addi ![4] ![1] ![3] ![0] x (broadcastInDim S_ ![] bcast_S_S_ (constantI S_ 32 0#32)) reduceWindows_S4_S4_w4s1p3_0 h_S_

/-- A zero in front of the first three entries: the exclusive running sum from the inclusive one. -/
def shiftS (cs : IVec S4 32) : IVec S4 32 :=
  concatenate S4 0 [⟨S1, broadcastInDim S1 ![] bcast_S_S1 (constantI S_ 32 0#32)⟩, ⟨S3, extractStridedSlice S3 ![0] cs slices_S4_S3_0⟩] concatenates_S1_S3_S4_d0

/-- The token numbers in sorted order: the second result of the stable sort of (key, iota) by signed less-than on the keys. -/
def sortIdxS (v1 : IVec S8192 32) : IVec S8192 32 := (Host.sort2 S8192 0 comparator_i32_i32_d0 v1 (iotaInDim S8192 32 0)).2

/-- jnp's index normalisation: a negative index has the extent `n` added. -/
def normS (n : BitVec 32) (x : IVec S8192 32) : IVec S8192 32 := select (cmpi .slt x (splat8192 0#32)) (addi x (splat8192 n)) x

/-- The expert of each sorted token: `v1[sort_idx]`. -/
def sortedModS (v1 v25 : IVec S8192 32) : IVec S8192 32 :=
  Host.gather gather_S8192_S8192x1_S8192_n_0_n_n_0_1_1 v1 (broadcastInDim S8192x1 ![0] bcast_S8192_S8192x1_0 (normS 8192#32 v25))

/-- A four-entry table read at each sorted token's expert. -/
def takeS (tab : IVec S4 32) (v32 : IVec S8192 32) : IVec S8192 32 :=
  Host.gather gather_S4_S8192x1_S8192_n_0_n_n_0_1_1 tab (broadcastInDim S8192x1 ![0] bcast_S8192_S8192x1_0 (normS 4#32 v32))

/-- The padded place of sorted token j: `pstart[e] + (j - ustart[e])` with e its expert (`v20` the groups' starts in the sorted order, `v24` in the padded layout, `v32` the sorted tokens' experts). -/
def destS (v20 v24 : IVec S4 32) (v32 : IVec S8192 32) : IVec S8192 32 :=
  addi (takeS v24 v32) (subi (iotaInDim S8192 32 0) (takeS v20 v32))

/-- Each token's padded place: the places scattered to the tokens' own numbers, over zeros. -/
def o2pS (v25 v49 : IVec S8192 32) : IVec S8192 32 :=
  Host.scatter scatter_S8192_S8192x1_S8192_n_0_0_1 (fun _ b => b) (splat8192 0#32)
    (broadcastInDim S8192x1 ![0] bcast_S8192_S8192x1_0 (normS 8192#32 v25)) v49

/-- Each padded place's token: the tokens' numbers scattered to their places, over a fill of 8192. -/
def psrcS (v25 v49 : IVec S8192 32) : IVec S10240 32 :=
  Host.scatter scatter_S10240_S8192x1_S8192_n_0_0_1 (fun _ b => b) (broadcastInDim S10240 ![] bcast_S_S10240 (constantI S_ 32 8192#32))
    (broadcastInDim S8192x1 ![0] bcast_S8192_S8192x1_0 (normS 10240#32 v49)) v25

/-- Each tile's expert: how many of the four padded groups end at or before the tile's first row `512 · tile`, capped at 3 (`v77` the padded groups' ends). -/
def eidS (v77 : IVec S4 32) : IVec S20 32 :=
  minsi
    (Host.reduce IntOp.addi
      (extui 32 (cmpi .sge
        (broadcastInDim S20x4 ![0, 1] bcast_S20x1_S20x4_0_1 (broadcastInDim S20x1 ![0] bcast_S20_S20x1_0
          (muli (iotaInDim S20 32 0) (broadcastInDim S20 ![] bcast_S_S20 (constantI S_ 32 512#32)))))
        (broadcastInDim S20x4 ![0, 1] bcast_S1x4_S20x4_0_1 (broadcastInDim S1x4 ![1] bcast_S4_S1x4_1 v77))) natLt_1_32)
      (constantI S_ 32 0#32) reducesTo_S20x4_S20_d1 h_S_)
    (broadcastInDim S20 ![] bcast_S_S20 (constantI S_ 32 3#32))

/-- The padded rows of x: x cast to bf16 with one zero row appended at 8192, read at each padded place's token (`v73`). -/
def xpadS (v0 : FVec F S8192x2048 .f32) (v73 : IVec S10240 32) : FVec F S10240x2048 .bf16 :=
  Host.gather gather_S8193x2048_S10240x1_S10240x2048_1_0_n_n_0_1_12048
    (concatenate S8193x2048 0 [⟨S8192x2048, truncf .bf16 v0 bitsLt_bf16_f32⟩,
      ⟨S1x2048, broadcastInDim S1x2048 ![] bcast_S_S1x2048 (constant S_ .bf16 0x0000#16)⟩] concatenates_S8192x2048_S1x2048_S8193x2048_d0)
    (broadcastInDim S10240x1 ![0] bcast_S10240_S10240x1_0
      (select (cmpi .slt v73 (broadcastInDim S10240 ![] bcast_S_S10240 (constantI S_ 32 0#32)))
        (addi v73 (broadcastInDim S10240 ![] bcast_S_S10240 (constantI S_ 32 8193#32))) v73))

end Cert.KernelIdeal.Stages

end
-- ==== Proof.EidBound.lean ====
/-
  Each tile's expert word is in [0, 3], whatever the table of padded group ends it is computed from. The word is the
  signed minimum with 3 of a row sum of the [20, 4] table of bits `512 · tile ≥ v77 e`: a row of four bits sums to at
  most 4, and the signed minimum with 3 of a word in [0, 4] is in [0, 3].
-/
import proofs.«413600_j1477468749957_2_alg».proof.Proof.HostStages
import Idealize.ShloMosaic.Lib.StableHlo.Predicate
import Idealize.ShloMosaic.Lib.WordArith
import Idealize.ShloMosaic.Lib.ValueIdx
import Mathlib.Data.Finset.Card
import Mathlib.Data.Fintype.Card

namespace Cert.KernelIdeal.Decode
open Idealize.ShloMosaic Idealize.ShloMosaic.ValueIdx Cert.KernelIdeal Cert.KernelIdeal.Gen Cert.KernelIdeal.Stages

/-- The [20, 4] table of `512 · tile ≥ v77 e`. -/
abbrev eidMask (v77 : IVec S4 32) : IVec S20x4 1 :=
  cmpi .sge
    (broadcastInDim S20x4 ![0, 1] bcast_S20x1_S20x4_0_1 (broadcastInDim S20x1 ![0] bcast_S20_S20x1_0
      (muli (iotaInDim S20 32 0) (broadcastInDim S20 ![] bcast_S_S20 (constantI S_ 32 512#32)))))
    (broadcastInDim S20x4 ![0, 1] bcast_S1x4_S20x4_0_1 (broadcastInDim S1x4 ![1] bcast_S4_S1x4_1 v77))

/-- The tiles' expert words are the row sums of that table, capped at 3. -/
theorem eidS_eq (v77 : IVec S4 32) (tile : Fin 20) :
    eidS v77 (ix1 tile) = IntOp.minsi (Host.reduce IntOp.addi (extui 32 (eidMask v77) natLt_1_32) (constantI S_ 32 0#32)
      reducesTo_S20x4_S20_d1 h_S_ (ix1 tile)) 3#32 := rfl

/-- Whatever the table `v77`, a tile's expert word is in [0, 3]. -/
theorem eidS_lt (v77 : IVec S4 32) (tile : Fin 20) : (eidS v77 (ix1 tile)).toNat < 4 := by
  rw [eidS_eq]
  have hcount := StableHlo.Predicate.toNat_reduce_count_cols (n := 20) (m := 4) (by norm_num) (eidMask v77) natLt_1_32
    reducesTo_S20x4_S20_d1 h_S_ (ix1 tile)
  have hle : (Finset.univ.filter fun q : Fin 4 => eidMask v77 (StableHlo.Predicate.ij ((ix1 tile : S20.Idx) 0) q) = 1#1).card ≤ 4 :=
    (Finset.card_filter_le _ _).trans (le_of_eq (by rw [Finset.card_univ, Fintype.card_fin]))
  rw [WordArith.toNat_minsi_of_lt _ _ (by rw [hcount]; omega) (by decide)]
  exact lt_of_le_of_lt (Nat.min_le_right _ _) (by decide)

end Cert.KernelIdeal.Decode
-- ==== Proof.OkOfTable.lean ====
/-
  The pipeline's side condition on the prefetched table, from a bound on the table's words.

  The launch prefetches one table of 20 words, one per row tile: the expert whose weights the tile uses. The index
  maps of the three weight windows read the word of the tile (grid coordinate 0) and use it as the block index on the
  leading axis of a [4, 3840, 2048] or [4, 2048, 3840] array cut in blocks (1, 256, 2048) or (1, 2048, 256); grid
  coordinate 1, below 15, is the block index on the axis of extent 3840 = 15 · 256, and the remaining block index is 0.
  So a block lies inside its array as soon as the word is below 4. Each block's second-to-last extent (256 or 2048) is
  even, so its rows are whole words of the two-to-a-word 16-bit element type wherever the block sits.
-/
import proofs.«413600_j1477468749957_2_alg».proof.Proof.Gen.KernelIdeal
import Idealize.ShloMosaic.Lib.Affine
import Idealize.ShloMosaic.Lib.ValueIdx

noncomputable section

namespace Cert.KernelIdeal.OkOfTable

open Idealize.ShloMosaic Idealize.SL.Sem
open Cert.KernelIdeal Cert.KernelIdeal.Gen

variable {F : FTy → Type} [FloatOps F]

/-- The table word the index maps read at grid point `i`: the entry at the tile's number. -/
def wordAt (pf : pre0.Contents (Elt F)) (i : grid0.Coords) : BitVec 32 :=
  pf.at 0 (Rect.unit (s := S20) ![(Scalar.indexCast (BitVec.ofNat 32 (i 0).val)).toNat] S1.size (Gen.k0_off1_inb i)) Gen.numel1_S1

/-- The three index maps, in terms of the word: (word, k, 0), (word, k, 0) and (word, 0, k). -/
theorem transform_1_eq (pf : pre0.Contents (Elt F)) (i : grid0.Coords) :
    cc0_transform_1 Gen.k0_off1_inb Gen.numel1_S1 pf i
      = ![(wordAt pf i).toNat, (BitVec.ofNat 32 (i 1).val).toNat, (0#32 : BitVec 32).toNat] := rfl
theorem transform_2_eq (pf : pre0.Contents (Elt F)) (i : grid0.Coords) :
    cc0_transform_2 Gen.k0_off1_inb Gen.numel1_S1 pf i
      = ![(wordAt pf i).toNat, (BitVec.ofNat 32 (i 1).val).toNat, (0#32 : BitVec 32).toNat] := rfl
theorem transform_3_eq (pf : pre0.Contents (Elt F)) (i : grid0.Coords) :
    cc0_transform_3 Gen.k0_off1_inb Gen.numel1_S1 pf i
      = ![(wordAt pf i).toNat, (0#32 : BitVec 32).toNat, (BitVec.ofNat 32 (i 1).val).toNat] := rfl

/-- Block (w, k, 0) of sizes (1, 256, 2048) lies inside [4, 3840, 2048] when w < 4 and k < 15. -/
theorem inb_rows (w : BitVec 32) (hw : w.toNat < 4) (k : Nat) (hk : k < 15) :
    ∀ a, ((![w.toNat, (BitVec.ofNat 32 k).toNat, (0#32 : BitVec 32).toNat] : Fin 3 → Nat) a + 1) * S1x256x2048.size a
      ≤ S4x3840x2048.size a := by
  have e : (BitVec.ofNat 32 k).toNat = k := by rw [BitVec.toNat_ofNat]; omega
  intro a
  match a with
  | ⟨0, _⟩ => show (w.toNat + 1) * 1 ≤ 4; omega
  | ⟨1, _⟩ => show ((BitVec.ofNat 32 k).toNat + 1) * 256 ≤ 3840; rw [e]; omega
  | ⟨2, _⟩ => show ((0#32 : BitVec 32).toNat + 1) * 2048 ≤ 2048; decide

/-- Block (w, 0, k) of sizes (1, 2048, 256) lies inside [4, 2048, 3840] when w < 4 and k < 15. -/
theorem inb_cols (w : BitVec 32) (hw : w.toNat < 4) (k : Nat) (hk : k < 15) :
    ∀ a, ((![w.toNat, (0#32 : BitVec 32).toNat, (BitVec.ofNat 32 k).toNat] : Fin 3 → Nat) a + 1) * S1x2048x256.size a
      ≤ S4x2048x3840.size a := by
  have e : (BitVec.ofNat 32 k).toNat = k := by rw [BitVec.toNat_ofNat]; omega
  intro a
  match a with
  | ⟨0, _⟩ => show (w.toNat + 1) * 1 ≤ 4; omega
  | ⟨1, _⟩ => show ((0#32 : BitVec 32).toNat + 1) * 2048 ≤ 2048; decide
  | ⟨2, _⟩ => show ((BitVec.ofNat 32 k).toNat + 1) * 256 ≤ 3840; rw [e]; omega

/-- THE SIDE CONDITION: every block the three table-indexed windows name lies inside its array and is whole words,
    when every word the maps read is below 4. -/
theorem ok_of_words (pf : pre0.Contents (Elt F)) (h : ∀ i : grid0.Coords, (wordAt pf i).toNat < 4) : ok0 pf :=
  ⟨fun i => ⟨inb_rows _ (h i) (i 1).val (i 1).isLt, .inr (Affine.block_words_dvd (of_decide_eq_true rfl) (by decide))⟩,
   fun i => ⟨inb_rows _ (h i) (i 1).val (i 1).isLt, .inr (Affine.block_words_dvd (of_decide_eq_true rfl) (by decide))⟩,
   fun i => ⟨inb_cols _ (h i) (i 1).val (i 1).isLt, .inr (Affine.block_words_dvd (of_decide_eq_true rfl) (by decide))⟩⟩

/-- The word is the table's entry at the tile number. -/
theorem wordAt_eq (pf : pre0.Contents (Elt F)) (i : grid0.Coords) :
    wordAt pf i = pf 0 (ValueIdx.ix1 ⟨(i 0).val, (i 0).isLt⟩) := by
  have e : (Scalar.indexCast (BitVec.ofNat 32 (i 0).val)).toNat = (i 0).val := by
    show (BitVec.ofNat 32 (i 0).val).toNat = (i 0).val
    rw [BitVec.toNat_ofNat]
    have : (i 0).val < 20 := (i 0).isLt
    omega
  show pf 0 _ = pf 0 _
  congr 1
  funext a
  match a with
  | ⟨0, _⟩ =>
    apply Fin.ext
    show (Scalar.indexCast (BitVec.ofNat 32 (i 0).val)).toNat + 1 * 0 = (i 0).val
    rw [e, Nat.mul_zero, Nat.add_zero]

end Cert.KernelIdeal.OkOfTable

end
-- ==== Proof.TableBound.lean ====
/-
  The table of the tiles' experts holds words below 4 whatever the inputs are: each word is the signed minimum of 3
  and a sum of four 0/1 words. So every table-indexed block of the kernel's windows lies inside its array: the
  pipeline's side condition of the table.
-/
import proofs.«413600_j1477468749957_2_alg».proof.Proof.HostRead
import proofs.«413600_j1477468749957_2_alg».proof.Proof.HostStages
import proofs.«413600_j1477468749957_2_alg».proof.Proof.EidBound
import proofs.«413600_j1477468749957_2_alg».proof.Proof.OkOfTable

-- the operation list is a literal of some 340 entries: its elaboration recurses once per entry
set_option maxRecDepth 8192

noncomputable section

namespace Cert.KernelIdeal.TableBound

open Idealize.ShloMosaic Idealize.ShloMosaic.TcCoe Idealize.SL.Sem Idealize.ShloMosaic.StableHlo Idealize.ShloMosaic.ValueIdx
open Cert.KernelIdeal Cert.KernelIdeal.Gen Cert.KernelIdeal.Stages Cert.KernelIdeal.HostSteps Cert.KernelIdeal.Decode

variable {F : FTy → Type} [FloatOps F]
variable (m : (ℓ : Loc nD τ sig) → Buf (Elt F) ℓ)

set_option maxHeartbeats 8000000 in
/-- The tiles' experts: the prefetched table, from the padded groups' ends. -/
theorem v86_eq (c : Dev nD) : V m c main_v86 = eidS (V m c main_v77) := by
  host_read <;> rfl

/-- Every word of the table is below 4. -/
theorem table_lt (c : Dev nD) (tile : Fin 20) : ((V m c main_v86 : IVec S20 32) (ix1 tile)).toNat < 4 := by
  rw [v86_eq]
  exact eidS_lt _ tile

/-- The pipeline's side condition of the table holds at every launch memory. -/
theorem ok : Ok m :=
  OkOfTable.ok_of_words (tbl m) fun i => by
    rw [OkOfTable.wordAt_eq]
    exact table_lt m 0 ⟨(i 0).val, (i 0).isLt⟩

end Cert.KernelIdeal.TableBound

end
-- ==== Proof.HostReadK.lean ====
/-
  Reading the host program's values on entry to the kernel: one tactic that opens the contents on entry as the fold of
  the program's operation list and rewrites every operation's result at its own buffer to the operation's function of
  the contents at its operand buffers.
-/
import proofs.«413600_j1477468749957_2_alg».proof.Proof.Gen.Kernel.Frame.Runs
import Idealize.ShloMosaic.Lib.StableHlo.Run

namespace Cert.Kernel.HostSteps

open Idealize.ShloMosaic Idealize.ShloMosaic.StableHlo Cert.Kernel Cert.Kernel.Gen

/-- Open the contents on entry as the fold of the operation list, and read every operation's result. -/
macro "host_read" : tactic =>
  `(tactic| (unfold V V0
             simp only [hostOps0, hostOps0_1, hostOps0_2, hostOps0_3, hostOps0_4, hostOps0_5, hostOps0_6, hostOps0_7, hostOps0_8, hostOps0_9, hostOps0_10, hostOps0_11, hostOps0_12, List.flatten_cons, List.flatten_nil, List.append_nil, List.cons_append, List.nil_append]
             after_results_simp
             try simp only [TRef.ofBuf, TRef.toBuf, cast_eq]))

/-- The same reading one rewrite at a time: for a value whose operation holds its operands inside a list (a
    concatenation), where the one-pass form does not reach them. -/
macro "host_read_rw" : tactic =>
  `(tactic| (unfold V V0
             simp only [hostOps0, hostOps0_1, hostOps0_2, hostOps0_3, hostOps0_4, hostOps0_5, hostOps0_6, hostOps0_7, hostOps0_8, hostOps0_9, hostOps0_10, hostOps0_11, hostOps0_12, List.flatten_cons, List.flatten_nil, List.append_nil, List.cons_append, List.nil_append]
             after_results
             try simp only [TRef.ofBuf, TRef.toBuf, cast_eq]))

end Cert.Kernel.HostSteps
-- ==== Proof.HostStagesK.lean ====
/-
  The host program around the kernel, cut into stages: each stage is one value of the program as a pure function of
  the earlier values it is computed from, spelt with the program's own operations in the program's order.

  The program clips the modality words to [0, 3] (`clipS`), counts the tokens of each expert (`cntS`), rounds each
  count up to a multiple of the 512-row tile (`pcntS`), takes running sums of both (`cumsumS`; shifted by one place
  with a zero in front, `shiftS`, they are where each expert's group starts in the sorted order and in the padded
  layout), sorts the tokens by expert carrying their numbers (`sortIdxS`), reads each sorted token's expert
  (`sortedModS`), places sorted token j at its group's padded start plus its rank in the group (`destS`), scatters
  that place to the token's own number (`o2pS`) and the token's number to that place over a fill of 8192 (`psrcS`),
  names each tile's expert as the number of experts whose padded groups end at or before the tile's first row, capped
  at 3 (`eidS`), and gathers the rows of x (cast to bf16, one zero row appended at 8192) through the placed numbers
  (`xpadS`).
-/
import proofs.«413600_j1477468749957_2_alg».proof.Proof.Gen.Kernel

noncomputable section

namespace Cert.Kernel.Stages

open Idealize.ShloMosaic Cert.Kernel Cert.Kernel.Gen

variable {F : FTy → Type} [FloatOps F]

/-- A splat of an integer word over [8192]. -/
abbrev splat8192 (w : BitVec 32) : IVec S8192 32 := broadcastInDim S8192 ![] bcast_S_S8192 (constantI S_ 32 w)
/-- A splat of an integer word over [4]. -/
abbrev splat4 (w : BitVec 32) : IVec S4 32 := broadcastInDim S4 ![] bcast_S_S4 (constantI S_ 32 w)

/-- The modality words clipped to [0, 3]: `min (splat 3) (max (splat 0) a5)`. -/
def clipS (a5 : IVec S8192 32) : IVec S8192 32 :=
  minsi (broadcastInDim S8192 ![] bcast_S_S8192 (id (constantI S_ 32 3#32)))
    (maxsi (broadcastInDim S8192 ![] bcast_S_S8192 (id (constantI S_ 32 0#32))) a5)

/-- The number of tokens of each expert: the column sums of the [8192, 4] table of `v1 t == e`. -/
def cntS (v1 : IVec S8192 32) : IVec S4 32 :=
  Host.reduce IntOp.addi
    (extui 32 (cmpi .eq (broadcastInDim S8192x4 ![0, 1] bcast_S8192x1_S8192x4_0_1 (broadcastInDim S8192x1 ![0] bcast_S8192_S8192x1_0 v1))
      (broadcastInDim S8192x4 ![0, 1] bcast_S1x4_S8192x4_0_1 (broadcastInDim S1x4 ![1] bcast_S4_S1x4_1 (iotaInDim S4 32 0)))) natLt_1_32)
    (constantI S_ 32 0#32) reducesTo_S8192x4_S4_d0 h_S_

/-- `counts + 512 - 1`. -/
def cnt511S (v9 : IVec S4 32) : IVec S4 32 := subi (addi v9 (splat4 512#32)) (splat4 1#32)

/-- jnp's floor division by 512 as lowered: the truncated quotient, less one where the signs differ and the remainder is not zero. -/
def floordivS (v13 : IVec S4 32) : IVec S4 32 :=
  select
    (andi (cmpi .ne (signi v13) (broadcastInDim S4 ![] bcast_S_S4 (signi (id (constantI S_ 32 512#32)))))
      (cmpi .ne (Host.remsi v13 (broadcastInDim S4 ![] bcast_S_S4 (id (constantI S_ 32 512#32)))) (splat4 0#32)))
    (subi (Host.divsi v13 (broadcastInDim S4 ![] bcast_S_S4 (id (constantI S_ 32 512#32)))) (splat4 1#32))
    (Host.divsi v13 (broadcastInDim S4 ![] bcast_S_S4 (id (constantI S_ 32 512#32))))

/-- The padded counts: `floor_divide (counts + 511) 512 * 512`. -/
def pcntS (v9 : IVec S4 32) : IVec S4 32 := muli (floordivS (cnt511S v9)) (splat4 512#32)

/-- jnp's cumsum over four entries: a window of 4 padded 3 low. -/
def cumsumS (x : IVec S4 32) : IVec S4 32 :=
  Host.reduceWindow IntOp.addi ![4] ![1] ![3] ![0] x (broadcastInDim S_ ![] bcast_S_S_ (constantI S_ 32 0#32)) reduceWindows_S4_S4_w4s1p3_0 h_S_

/-- A zero in front of the first three entries: the exclusive running sum from the inclusive one. -/
def shiftS (cs : IVec S4 32) : IVec S4 32 :=
  concatenate S4 0 [⟨S1, broadcastInDim S1 ![] bcast_S_S1 (constantI S_ 32 0#32)⟩, ⟨S3, extractStridedSlice S3 ![0] cs slices_S4_S3_0⟩] concatenates_S1_S3_S4_d0

/-- The token numbers in sorted order: the second result of the stable sort of (key, iota) by signed less-than on the keys. -/
def sortIdxS (v1 : IVec S8192 32) : IVec S8192 32 := (Host.sort2 S8192 0 comparator_i32_i32_d0 v1 (iotaInDim S8192 32 0)).2

/-- jnp's index normalisation: a negative index has the extent `n` added. -/
def normS (n : BitVec 32) (x : IVec S8192 32) : IVec S8192 32 := select (cmpi .slt x (splat8192 0#32)) (addi x (splat8192 n)) x

/-- The expert of each sorted token: `v1[sort_idx]`. -/
def sortedModS (v1 v25 : IVec S8192 32) : IVec S8192 32 :=
  Host.gather gather_S8192_S8192x1_S8192_n_0_n_n_0_1_1 v1 (broadcastInDim S8192x1 ![0] bcast_S8192_S8192x1_0 (normS 8192#32 v25))

/-- A four-entry table read at each sorted token's expert. -/
def takeS (tab : IVec S4 32) (v32 : IVec S8192 32) : IVec S8192 32 :=
  Host.gather gather_S4_S8192x1_S8192_n_0_n_n_0_1_1 tab (broadcastInDim S8192x1 ![0] bcast_S8192_S8192x1_0 (normS 4#32 v32))

/-- The padded place of sorted token j: `pstart[e] + (j - ustart[e])` with e its expert (`v20` the groups' starts in the sorted order, `v24` in the padded layout, `v32` the sorted tokens' experts). -/
def destS (v20 v24 : IVec S4 32) (v32 : IVec S8192 32) : IVec S8192 32 :=
  addi (takeS v24 v32) (subi (iotaInDim S8192 32 0) (takeS v20 v32))

/-- Each token's padded place: the places scattered to the tokens' own numbers, over zeros. -/
def o2pS (v25 v49 : IVec S8192 32) : IVec S8192 32 :=
  Host.scatter scatter_S8192_S8192x1_S8192_n_0_0_1 (fun _ b => b) (splat8192 0#32)
    (broadcastInDim S8192x1 ![0] bcast_S8192_S8192x1_0 (normS 8192#32 v25)) v49

/-- Each padded place's token: the tokens' numbers scattered to their places, over a fill of 8192. -/
def psrcS (v25 v49 : IVec S8192 32) : IVec S10240 32 :=
  Host.scatter scatter_S10240_S8192x1_S8192_n_0_0_1 (fun _ b => b) (broadcastInDim S10240 ![] bcast_S_S10240 (constantI S_ 32 8192#32))
    (broadcastInDim S8192x1 ![0] bcast_S8192_S8192x1_0 (normS 10240#32 v49)) v25

/-- Each tile's expert: how many of the four padded groups end at or before the tile's first row `512 · tile`, capped at 3 (`v77` the padded groups' ends). -/
def eidS (v77 : IVec S4 32) : IVec S20 32 :=
  minsi
    (Host.reduce IntOp.addi
      (extui 32 (cmpi .sge
        (broadcastInDim S20x4 ![0, 1] bcast_S20x1_S20x4_0_1 (broadcastInDim S20x1 ![0] bcast_S20_S20x1_0
          (muli (iotaInDim S20 32 0) (broadcastInDim S20 ![] bcast_S_S20 (constantI S_ 32 512#32)))))
        (broadcastInDim S20x4 ![0, 1] bcast_S1x4_S20x4_0_1 (broadcastInDim S1x4 ![1] bcast_S4_S1x4_1 v77))) natLt_1_32)
      (constantI S_ 32 0#32) reducesTo_S20x4_S20_d1 h_S_)
    (broadcastInDim S20 ![] bcast_S_S20 (constantI S_ 32 3#32))

/-- The padded rows of x: x cast to bf16 with one zero row appended at 8192, read at each padded place's token (`v73`). -/
def xpadS (v0 : FVec F S8192x2048 .f32) (v73 : IVec S10240 32) : FVec F S10240x2048 .bf16 :=
  Host.gather gather_S8193x2048_S10240x1_S10240x2048_1_0_n_n_0_1_12048
    (concatenate S8193x2048 0 [⟨S8192x2048, truncf .bf16 v0 bitsLt_bf16_f32⟩,
      ⟨S1x2048, broadcastInDim S1x2048 ![] bcast_S_S1x2048 (constant S_ .bf16 0x0000#16)⟩] concatenates_S8192x2048_S1x2048_S8193x2048_d0)
    (broadcastInDim S10240x1 ![0] bcast_S10240_S10240x1_0
      (select (cmpi .slt v73 (broadcastInDim S10240 ![] bcast_S_S10240 (constantI S_ 32 0#32)))
        (addi v73 (broadcastInDim S10240 ![] bcast_S_S10240 (constantI S_ 32 8193#32))) v73))

end Cert.Kernel.Stages

end
-- ==== Proof.EidBoundK.lean ====
/-
  Each tile's expert word is in [0, 3], whatever the table of padded group ends it is computed from. The word is the
  signed minimum with 3 of a row sum of the [20, 4] table of bits `512 · tile ≥ v77 e`: a row of four bits sums to at
  most 4, and the signed minimum with 3 of a word in [0, 4] is in [0, 3].
-/
import proofs.«413600_j1477468749957_2_alg».proof.Proof.HostStagesK
import Idealize.ShloMosaic.Lib.StableHlo.Predicate
import Idealize.ShloMosaic.Lib.WordArith
import Idealize.ShloMosaic.Lib.ValueIdx
import Mathlib.Data.Finset.Card
import Mathlib.Data.Fintype.Card

namespace Cert.Kernel.Decode
open Idealize.ShloMosaic Idealize.ShloMosaic.ValueIdx Cert.Kernel Cert.Kernel.Gen Cert.Kernel.Stages

/-- The [20, 4] table of `512 · tile ≥ v77 e`. -/
abbrev eidMask (v77 : IVec S4 32) : IVec S20x4 1 :=
  cmpi .sge
    (broadcastInDim S20x4 ![0, 1] bcast_S20x1_S20x4_0_1 (broadcastInDim S20x1 ![0] bcast_S20_S20x1_0
      (muli (iotaInDim S20 32 0) (broadcastInDim S20 ![] bcast_S_S20 (constantI S_ 32 512#32)))))
    (broadcastInDim S20x4 ![0, 1] bcast_S1x4_S20x4_0_1 (broadcastInDim S1x4 ![1] bcast_S4_S1x4_1 v77))

/-- The tiles' expert words are the row sums of that table, capped at 3. -/
theorem eidS_eq (v77 : IVec S4 32) (tile : Fin 20) :
    eidS v77 (ix1 tile) = IntOp.minsi (Host.reduce IntOp.addi (extui 32 (eidMask v77) natLt_1_32) (constantI S_ 32 0#32)
      reducesTo_S20x4_S20_d1 h_S_ (ix1 tile)) 3#32 := rfl

/-- Whatever the table `v77`, a tile's expert word is in [0, 3]. -/
theorem eidS_lt (v77 : IVec S4 32) (tile : Fin 20) : (eidS v77 (ix1 tile)).toNat < 4 := by
  rw [eidS_eq]
  have hcount := StableHlo.Predicate.toNat_reduce_count_cols (n := 20) (m := 4) (by norm_num) (eidMask v77) natLt_1_32
    reducesTo_S20x4_S20_d1 h_S_ (ix1 tile)
  have hle : (Finset.univ.filter fun q : Fin 4 => eidMask v77 (StableHlo.Predicate.ij ((ix1 tile : S20.Idx) 0) q) = 1#1).card ≤ 4 :=
    (Finset.card_filter_le _ _).trans (le_of_eq (by rw [Finset.card_univ, Fintype.card_fin]))
  rw [WordArith.toNat_minsi_of_lt _ _ (by rw [hcount]; omega) (by decide)]
  exact lt_of_le_of_lt (Nat.min_le_right _ _) (by decide)

end Cert.Kernel.Decode
-- ==== Proof.OkOfTableK.lean ====
/-
  The pipeline's side condition on the prefetched table, from a bound on the table's words.

  The launch prefetches one table of 20 words, one per row tile: the expert whose weights the tile uses. The index
  maps of the three weight windows read the word of the tile (grid coordinate 0) and use it as the block index on the
  leading axis of a [4, 3840, 2048] or [4, 2048, 3840] array cut in blocks (1, 256, 2048) or (1, 2048, 256); grid
  coordinate 1, below 15, is the block index on the axis of extent 3840 = 15 · 256, and the remaining block index is 0.
  So a block lies inside its array as soon as the word is below 4. Each block's second-to-last extent (256 or 2048) is
  even, so its rows are whole words of the two-to-a-word 16-bit element type wherever the block sits.
-/
import proofs.«413600_j1477468749957_2_alg».proof.Proof.Gen.Kernel
import Idealize.ShloMosaic.Lib.Affine
import Idealize.ShloMosaic.Lib.ValueIdx

noncomputable section

namespace Cert.Kernel.OkOfTable

open Idealize.ShloMosaic Idealize.SL.Sem
open Cert.Kernel Cert.Kernel.Gen

variable {F : FTy → Type} [FloatOps F]

/-- The table word the index maps read at grid point `i`: the entry at the tile's number. -/
def wordAt (pf : pre0.Contents (Elt F)) (i : grid0.Coords) : BitVec 32 :=
  pf.at 0 (Rect.unit (s := S20) ![(Scalar.indexCast (BitVec.ofNat 32 (i 0).val)).toNat] S1.size (Gen.k0_off1_inb i)) Gen.numel1_S1

/-- The three index maps, in terms of the word: (word, k, 0), (word, k, 0) and (word, 0, k). -/
theorem transform_1_eq (pf : pre0.Contents (Elt F)) (i : grid0.Coords) :
    cc0_transform_1 Gen.k0_off1_inb Gen.numel1_S1 pf i
      = ![(wordAt pf i).toNat, (BitVec.ofNat 32 (i 1).val).toNat, (0#32 : BitVec 32).toNat] := rfl
theorem transform_2_eq (pf : pre0.Contents (Elt F)) (i : grid0.Coords) :
    cc0_transform_2 Gen.k0_off1_inb Gen.numel1_S1 pf i
      = ![(wordAt pf i).toNat, (BitVec.ofNat 32 (i 1).val).toNat, (0#32 : BitVec 32).toNat] := rfl
theorem transform_3_eq (pf : pre0.Contents (Elt F)) (i : grid0.Coords) :
    cc0_transform_3 Gen.k0_off1_inb Gen.numel1_S1 pf i
      = ![(wordAt pf i).toNat, (0#32 : BitVec 32).toNat, (BitVec.ofNat 32 (i 1).val).toNat] := rfl

/-- Block (w, k, 0) of sizes (1, 256, 2048) lies inside [4, 3840, 2048] when w < 4 and k < 15. -/
theorem inb_rows (w : BitVec 32) (hw : w.toNat < 4) (k : Nat) (hk : k < 15) :
    ∀ a, ((![w.toNat, (BitVec.ofNat 32 k).toNat, (0#32 : BitVec 32).toNat] : Fin 3 → Nat) a + 1) * S1x256x2048.size a
      ≤ S4x3840x2048.size a := by
  have e : (BitVec.ofNat 32 k).toNat = k := by rw [BitVec.toNat_ofNat]; omega
  intro a
  match a with
  | ⟨0, _⟩ => show (w.toNat + 1) * 1 ≤ 4; omega
  | ⟨1, _⟩ => show ((BitVec.ofNat 32 k).toNat + 1) * 256 ≤ 3840; rw [e]; omega
  | ⟨2, _⟩ => show ((0#32 : BitVec 32).toNat + 1) * 2048 ≤ 2048; decide

/-- Block (w, 0, k) of sizes (1, 2048, 256) lies inside [4, 2048, 3840] when w < 4 and k < 15. -/
theorem inb_cols (w : BitVec 32) (hw : w.toNat < 4) (k : Nat) (hk : k < 15) :
    ∀ a, ((![w.toNat, (0#32 : BitVec 32).toNat, (BitVec.ofNat 32 k).toNat] : Fin 3 → Nat) a + 1) * S1x2048x256.size a
      ≤ S4x2048x3840.size a := by
  have e : (BitVec.ofNat 32 k).toNat = k := by rw [BitVec.toNat_ofNat]; omega
  intro a
  match a with
  | ⟨0, _⟩ => show (w.toNat + 1) * 1 ≤ 4; omega
  | ⟨1, _⟩ => show ((0#32 : BitVec 32).toNat + 1) * 2048 ≤ 2048; decide
  | ⟨2, _⟩ => show ((BitVec.ofNat 32 k).toNat + 1) * 256 ≤ 3840; rw [e]; omega

/-- THE SIDE CONDITION: every block the three table-indexed windows name lies inside its array and is whole words,
    when every word the maps read is below 4. -/
theorem ok_of_words (pf : pre0.Contents (Elt F)) (h : ∀ i : grid0.Coords, (wordAt pf i).toNat < 4) : ok0 pf :=
  ⟨fun i => ⟨inb_rows _ (h i) (i 1).val (i 1).isLt, .inr (Affine.block_words_dvd (of_decide_eq_true rfl) (by decide))⟩,
   fun i => ⟨inb_rows _ (h i) (i 1).val (i 1).isLt, .inr (Affine.block_words_dvd (of_decide_eq_true rfl) (by decide))⟩,
   fun i => ⟨inb_cols _ (h i) (i 1).val (i 1).isLt, .inr (Affine.block_words_dvd (of_decide_eq_true rfl) (by decide))⟩⟩

/-- The word is the table's entry at the tile number. -/
theorem wordAt_eq (pf : pre0.Contents (Elt F)) (i : grid0.Coords) :
    wordAt pf i = pf 0 (ValueIdx.ix1 ⟨(i 0).val, (i 0).isLt⟩) := by
  have e : (Scalar.indexCast (BitVec.ofNat 32 (i 0).val)).toNat = (i 0).val := by
    show (BitVec.ofNat 32 (i 0).val).toNat = (i 0).val
    rw [BitVec.toNat_ofNat]
    have : (i 0).val < 20 := (i 0).isLt
    omega
  show pf 0 _ = pf 0 _
  congr 1
  funext a
  match a with
  | ⟨0, _⟩ =>
    apply Fin.ext
    show (Scalar.indexCast (BitVec.ofNat 32 (i 0).val)).toNat + 1 * 0 = (i 0).val
    rw [e, Nat.mul_zero, Nat.add_zero]

end Cert.Kernel.OkOfTable

end
-- ==== Proof.TableBoundK.lean ====
/-
  The table of the tiles' experts holds words below 4 whatever the inputs are: each word is the signed minimum of 3
  and a sum of four 0/1 words. So every table-indexed block of the kernel's windows lies inside its array: the
  pipeline's side condition of the table.
-/
import proofs.«413600_j1477468749957_2_alg».proof.Proof.HostReadK
import proofs.«413600_j1477468749957_2_alg».proof.Proof.HostStagesK
import proofs.«413600_j1477468749957_2_alg».proof.Proof.EidBoundK
import proofs.«413600_j1477468749957_2_alg».proof.Proof.OkOfTableK

-- the operation list is a literal of some 340 entries: its elaboration recurses once per entry
set_option maxRecDepth 8192

noncomputable section

namespace Cert.Kernel.TableBound

open Idealize.ShloMosaic Idealize.ShloMosaic.TcCoe Idealize.SL.Sem Idealize.ShloMosaic.StableHlo Idealize.ShloMosaic.ValueIdx
open Cert.Kernel Cert.Kernel.Gen Cert.Kernel.Stages Cert.Kernel.HostSteps Cert.Kernel.Decode

variable {F : FTy → Type} [FloatOps F]
variable (m : (ℓ : Loc nD τ sig) → Buf (Elt F) ℓ)

set_option maxHeartbeats 8000000 in
/-- The tiles' experts: the prefetched table, from the padded groups' ends. -/
theorem v86_eq (c : Dev nD) : V m c main_v86 = eidS (V m c main_v77) := by
  host_read <;> rfl

/-- Every word of the table is below 4. -/
theorem table_lt (c : Dev nD) (tile : Fin 20) : ((V m c main_v86 : IVec S20 32) (ix1 tile)).toNat < 4 := by
  rw [v86_eq]
  exact eidS_lt _ tile

/-- The pipeline's side condition of the table holds at every launch memory. -/
theorem ok : Ok m :=
  OkOfTable.ok_of_words (tbl m) fun i => by
    rw [OkOfTable.wordAt_eq]
    exact table_lt m 0 ⟨(i 0).val, (i 0).isLt⟩

end Cert.Kernel.TableBound

end
-- ==== Proof.Spec.lean ====
/-
  What the modality-routed feed-forward computes, as plain mathematics over the extended reals.

  A token row `xr` (2048 entries) is sent through ONE expert `e` of four: a gated feed-forward
  (`silu (xr · W1ᵉ) ⊙ (xr · W3ᵉ)`, 3840 hidden units, then `· W2ᵉ` back to 2048 entries), an RMS normalisation
  of the result row (mean of squares over the 2048 entries, plus the f32 word of 1e-5, inverse square root) and the
  expert's gain row. The array form `rowsOut` gives token `t` the expert `ids t`.

  Every sum is a plain finite sum: no order of summation is part of the specification, and a sum that a program
  starts from a zero accumulator is this sum (zero is neutral for + on the extended reals).
-/
import Idealize.ShloMosaic.PureOps.Ideal
import Idealize.ShloMosaic.Lib.ValueIdx

noncomputable section

open scoped BigOperators

namespace Cert.Spec

open Idealize.ShloMosaic Idealize.ShloMosaic.ValueIdx

/-- The shapes of the statement's arrays, spelt as literals (each program's own abbreviations unfold to these). -/
abbrev SX : Shape := ⟨3, ![4, 2048, 2048]⟩
abbrev SW13 : Shape := ⟨3, ![4, 3840, 2048]⟩
abbrev SW2 : Shape := ⟨3, ![4, 2048, 3840]⟩
abbrev SNW : Shape := ⟨2, ![4, 2048]⟩
abbrev SROWS : Shape := ⟨2, ![8192, 2048]⟩
abbrev SIDS : Shape := ⟨1, ![8192]⟩

/-- The f32 word of 2048 and of 1e-5 (rounded to f32), read at the extended reals. -/
abbrev c2048 : EReal := Ideal.ofBits .f32 0x45000000#32
abbrev ceps : EReal := Ideal.ofBits .f32 0x3727C5AC#32

/-- One projection: the row against row `h` of expert `e`'s matrix, contracted over the 2048 model entries. -/
def proj (xr : Fin 2048 → EReal) (w : SW13.Idx → EReal) (e : Fin 4) (h : Fin 3840) : EReal :=
  ∑ j : Fin 2048, xr j * w (ix3 e h j)

/-- The gated hidden activation at unit `h`: `silu (xr·W1) · (xr·W3)`, with `silu a = a · logistic a`. -/
def act (xr : Fin 2048 → EReal) (w1 w3 : SW13.Idx → EReal) (e : Fin 4) (h : Fin 3840) : EReal :=
  (proj xr w1 e h * Ideal.logistic (proj xr w1 e h)) * proj xr w3 e h

/-- The feed-forward's result entry `d`: the hidden row against row `d` of expert `e`'s down matrix. -/
def ffn (xr : Fin 2048 → EReal) (w1 w3 : SW13.Idx → EReal) (w2 : SW2.Idx → EReal) (e : Fin 4) (d : Fin 2048) : EReal :=
  ∑ h : Fin 3840, act xr w1 w3 e h * w2 (ix3 e d h)

/-- The RMS scale of a row: `rsqrt (mean of squares + eps)`, the mean a quotient by the f32 word 2048. -/
def rmsScale (y : Fin 2048 → EReal) : EReal :=
  Ideal.rsqrt (Ideal.div (∑ d : Fin 2048, y d * y d) c2048 + ceps)

/-- One token row through expert `e`: feed-forward, RMS scale, the expert's gain. -/
def rowOut (xr : Fin 2048 → EReal) (w1 w3 : SW13.Idx → EReal) (w2 : SW2.Idx → EReal) (nw : SNW.Idx → EReal)
    (e : Fin 4) (d : Fin 2048) : EReal :=
  (ffn xr w1 w3 w2 e d * rmsScale (ffn xr w1 w3 w2 e)) * nw (ix2 e d)

/-- The whole result as token rows: token `t` goes through the expert `ids t`. -/
def rowsOut (xf : SROWS.Idx → EReal) (w1 w3 : SW13.Idx → EReal) (w2 : SW2.Idx → EReal) (nw : SNW.Idx → EReal)
    (ids : Fin 8192 → Fin 4) : SROWS.Idx → EReal :=
  fun i => rowOut (fun j => xf (ix2 (i 0) j)) w1 w3 w2 nw (ids (i 0)) (i 1)

/-- The modality words are in range: each, read as a natural number, is below 4. -/
def IdsInRange (a5 : IVec SIDS 32) : Prop := ∀ t : Fin 8192, (a5 (ix1 t)).toNat < 4

/-- The expert of each token, from the words. -/
def idsOf (a5 : IVec SIDS 32) (h : IdsInRange a5) : Fin 8192 → Fin 4 := fun t => ⟨(a5 (ix1 t)).toNat, h t⟩

end Cert.Spec

end
-- ==== Proof.PreDecode.lean ====
/-
  The precondition decoded: its last two conjuncts say every modality word is at least 0 and below 4, read signed,
  so each word read as a natural number is below 4.

  The printed predicate is a conjunction of one-bit words, `andi (andi prev ge_all) lt_all`, claimed equal to 1; each of
  `ge_all`, `lt_all` is a reduction by `and` over every index of the 8192-long array of comparisons of a word with
  the broadcast constant 0 (signed ≥) or 4 (signed <). A conjunction that is 1 has both conjuncts 1; a reduction by
  `and` over all indices that is 1 met a 1 at each index; the comparison words being 1 say 0 ≤ w and w < 4 for the
  signed reading of the word w, and a word whose signed reading is nonnegative reads the same unsigned.
-/
import proofs.«413600_j1477468749957_2_alg».proof.Pre_finite_inputs
import proofs.«413600_j1477468749957_2_alg».proof.Proof.Gen.Pre_finite_inputs
import proofs.«413600_j1477468749957_2_alg».proof.Proof.Spec
import Idealize.ShloMosaic.Lib.ReduceAll
import Idealize.ShloMosaic.Lib.StableHlo.Predicate
import Idealize.ShloMosaic.Lib.WordArith
import Idealize.ShloMosaic.Lib.ValueIdx

noncomputable section

namespace Cert.PreDecode

open Idealize.ShloMosaic Idealize.ShloMosaic.ValueIdx Cert.Pre_finite_inputs

/-- The rank-0 shape has one index. -/
instance subsingleton_S_ : Subsingleton S_.Idx := ⟨fun a b => funext fun d => d.elim0⟩

/-- A 32-bit word in [0, 4) read signed is below 4 read unsigned. -/
theorem toNat_lt_four (w : BitVec 32) (h0 : IntOp.cmpi .sge w 0#32 = 1#1) (h4 : IntOp.cmpi .slt w 4#32 = 1#1) :
    w.toNat < 4 := by
  rw [IntOp.cmpi_sge] at h0
  rw [IntOp.cmpi_slt] at h4
  have e0 : (0#32 : BitVec 32).toInt = 0 := by decide
  have e4 : (4#32 : BitVec 32).toInt = 4 := by decide
  rw [e0] at h0
  rw [e4] at h4
  have e := BitVec.toInt_eq_toNat_cond w
  have hw := w.isLt
  split at e <;> omega

/-- THE PRECONDITION DECODED: every modality word, read as a natural number, is below 4. -/
theorem ids_in_range {F : FTy → Type} [FloatOps F] [Cert.Pre_finite_inputs.Facts]
    (a0 : FVec F Cert.Pre_finite_inputs.S4x2048x2048 .f32) (a1 : FVec F Cert.Pre_finite_inputs.S4x3840x2048 .f32)
    (a2 : FVec F Cert.Pre_finite_inputs.S4x2048x3840 .f32) (a3 : FVec F Cert.Pre_finite_inputs.S4x3840x2048 .f32)
    (a4 : FVec F Cert.Pre_finite_inputs.S4x2048 .f32) (a5 : IVec Cert.Pre_finite_inputs.S8192 32)
    (h : Cert.Pre_finite_inputs.fn (F := F) a0 a1 a2 a3 a4 a5 = fun _ => 1#1) : Cert.Spec.IdsInRange a5 := by
  intro t
  have e := congrFun h ix0
  dsimp only [Cert.Pre_finite_inputs.fn, Cert.Pre_finite_inputs.fn_part1] at e
  obtain ⟨e1, hlt⟩ := IntOp.andi_eq_one.1 e
  obtain ⟨-, hge⟩ := IntOp.andi_eq_one.1 e1
  have g := Host.reduce_andi_all _ _ _ _ _ hge (ix1 t)
  have l := Host.reduce_andi_all _ _ _ _ _ hlt (ix1 t)
  exact toNat_lt_four (a5 (ix1 t)) g l

end Cert.PreDecode

end
-- ==== Proof.KTail.lean ====
/-
  The host operations after the kernel: the result is the reshape of the gather of the kernel's output rows through
  each token's padded row (a negative row number would have 10240 added; none is).
-/
import proofs.«413600_j1477468749957_2_alg».proof.Proof.FrameKI
import proofs.«413600_j1477468749957_2_alg».proof.Proof.HostStages
import Idealize.ShloMosaic.Lib.StableHlo.Run

set_option maxRecDepth 8192

noncomputable section

namespace Cert.KernelIdeal.KTail

open Idealize.ShloMosaic Idealize.ShloMosaic.TcCoe Idealize.SL.Sem Idealize.ShloMosaic.StableHlo
open Cert.KernelIdeal Cert.KernelIdeal.Gen Cert.KernelIdeal.GenP Cert.KernelIdeal.Stages

variable {F : FTy → Type} [FloatOps F]
variable (m : (ℓ : Loc nD τ sig) → Buf (Elt F) ℓ)

/-- The rows of the kernel's output gathered through the tokens' padded rows, reshaped to [4, 2048, 2048]. -/
def tailS (out : FVec F S10240x2048 .f32) (v65 : IVec S8192 32) : FVec F S4x2048x2048 .f32 :=
  shapeCast S4x2048x2048
    (Host.gather gather_S10240x2048_S8192x1_S8192x2048_1_0_n_n_0_1_12048 out
      (broadcastInDim S8192x1 ![0] bcast_S8192_S8192x1_0 (normS 10240#32 v65)))
    shapeCasts_S8192x2048_S4x2048x2048

set_option maxHeartbeats 4000000 in
/-- What the lines after the kernel leave in the result buffer. -/
theorem tail_result (hO : Ok m) (c : Dev nD) :
    Pipeline.afterTail pcfgs (fun _ => adm m hO) (dats m hO) 0 (V0 m) [hostOps1] c main_v108
      = tailS ((dats m hO 0 c).arrAt 5 (cfgM m hO).N) (V m c main_v65) := by
  unfold Pipeline.afterTail
  simp only [hostOps1, List.flatten_cons, List.flatten_nil, List.append_nil]
  after_results
  rw [Pipeline.withArrays_of_ne _ c (V0 m c) _ main_v65 (by exact (by decide : ∀ w, Pipeline.arrRef spec0 w ≠ main_v65))]
  have e : Pipeline.withArrays (Pipeline.pin pcfgs (fun _ => adm m hO) 0).spec c (V0 m c)
        (fun w => (dats m hO 0 c).arrAt w (Pipeline.pin pcfgs (fun _ => adm m hO) 0).N) (Proc.devRef .tc main_v100)
      = (dats m hO 0 c).arrAt 5 (cfgM m hO).N :=
    Pipeline.withArrays_arr (Pipeline.pin pcfgs (fun _ => adm m hO) 0).spec (launch0 (F := F)).win.arr_inj c (V0 m c) _ 5
  rw [e]
  rfl

end Cert.KernelIdeal.KTail

end
-- ==== Proof.KPieces.lean ====
import proofs.«413600_j1477468749957_2_alg».proof.Proof.FrameKI
import Idealize.ShloMosaic.Lib.Pipeline.Value
import Idealize.ShloMosaic.Lib.WholeRead
import Idealize.ShloMosaic.Lib.ValueIdx
import Idealize.ShloMosaic.Lib.Tactic

/-!
  The kernel's class-R frame read as values, generic in the float instance.

  The body runs on a grid of 20 tiles × 15 hidden blocks (point `t = 15·tile + k`). At `k = 0` it resets the scratch
  accumulator to the zero block; at every point it adds one hidden block's contribution (the accumulate payload
  `k0_pay2`); at `k = 14` it stores the normalised and scaled result (`k0_pay3`) into output 5's staging buffer. Here:
  each case's found pieces are read back as those payloads (`sA`, `sB`, `sC`, `oC`), the scratch after point `n` is
  the closed recursion `acc` (`scratch_eq`, by induction on the point), and output 5's staging buffer after a closing
  point is `k0_pay3` of the table word, the accumulator and the scale block (`out_eq`).
-/

noncomputable section

open Idealize.ShloMosaic Idealize.ShloMosaic.TcCoe Idealize.SL.Sem

namespace Cert.KernelIdeal.KPieces

open Cert.KernelIdeal Cert.KernelIdeal.Gen Cert.KernelIdeal.GenP

variable {F : FTy → Type} [FloatOps F]
variable (m : (ℓ : Loc nD τ sig) → Buf (Elt F) ℓ)

theorem hz : (![0, 0] : Fin 2 → Nat) = fun _ => 0 := funext fun a => by fin_cases a <;> rfl

theorem hz3 : (![0, 0, 0] : Fin 3 → Nat) = fun _ => 0 := funext fun a => by fin_cases a <;> rfl

/-- Case B (a point that neither opens nor closes a tile's run of hidden blocks): the scratch, holding `xs0`, is
    left at the accumulate payload over the four input blocks and `xs0` — its one covering store's payload, whose
    loads read the whole buffers. -/
theorem sB (c : Dev nD) (i : grid0.Coords) (arg3 : Memref sig .tc .vmem S512x2048 .bf16) (harg3 : arg3.IsWhole) (arg4 : Memref sig .tc .vmem S1x256x2048 .bf16) (harg4 : arg4.IsWhole) (arg5 : Memref sig .tc .vmem S1x256x2048 .bf16) (harg5 : arg5.IsWhole) (arg6 : Memref sig .tc .vmem S1x2048x256 .bf16) (harg6 : arg6.IsWhole) (arg7 : Memref sig .tc .vmem S4x2048 .f32) (harg7 : arg7.IsWhole) (arg8 : Memref sig .tc .vmem S512x2048 .f32) (harg8 : arg8.IsWhole) (arg9 : Memref sig .tc .vmem S512x2048 .f32) (harg9 : arg9.IsWhole) (hc0 : ¬cond0_0 i) (hc1 : ¬cond0_1 i)
    (x0 : Vec F S512x2048 .bf16) (x1 : Vec F S1x256x2048 .bf16) (x2 : Vec F S1x256x2048 .bf16) (x3 : Vec F S1x2048x256 .bf16) (x4 : Vec F S4x2048 .f32) (xt0 : TbBuf0 (F := F) c tbM0_0) (xs0 : Vec F S512x2048 .f32) :
    sout0_B_0 c i arg3 harg3 arg4 harg4 arg5 harg5 arg6 harg6 arg7 harg7 arg8 harg8 arg9 harg9 hc0 hc1 x0 x1 x2 x3 x4 xt0 xs0 = k0_pay2 x0 x1 x2 x3 xs0 := by
  unfold sout0_B_0
  rw [View.read_writes_eq_canon _ _ _ (scover0_B_0 c i arg3 harg3 arg4 harg4 arg5 harg5 arg6 harg6 arg7 harg7 arg8 harg8 arg9 harg9 hc0 hc1 x0 x1 x2 x3 x4 xt0 xs0)]
  unfold kernelRun0_B
  dsimp only
  sl_unfold_words
  rw [View.canon_unit_zero hz]
  simp only [View.readAt_eq_ld, harg3.read_unread, harg4.read_unread, harg5.read_unread, harg6.read_unread,
    harg9.read_unread, View.ld_unit_zero (S := S512x2048) hz, View.ld_unit_zero (S := S1x256x2048) hz3,
    View.ld_unit_zero (S := S1x2048x256) hz3]

/-- Case A (the first hidden block of a tile): the scratch is reset to the zero block, read back, and left at the
    accumulate payload over the four input blocks and the zero block. -/
theorem sA (c : Dev nD) (i : grid0.Coords) (arg3 : Memref sig .tc .vmem S512x2048 .bf16) (harg3 : arg3.IsWhole) (arg4 : Memref sig .tc .vmem S1x256x2048 .bf16) (harg4 : arg4.IsWhole) (arg5 : Memref sig .tc .vmem S1x256x2048 .bf16) (harg5 : arg5.IsWhole) (arg6 : Memref sig .tc .vmem S1x2048x256 .bf16) (harg6 : arg6.IsWhole) (arg7 : Memref sig .tc .vmem S4x2048 .f32) (harg7 : arg7.IsWhole) (arg8 : Memref sig .tc .vmem S512x2048 .f32) (harg8 : arg8.IsWhole) (arg9 : Memref sig .tc .vmem S512x2048 .f32) (harg9 : arg9.IsWhole) (hc0 : cond0_0 i) (hc1 : ¬cond0_1 i)
    (x0 : Vec F S512x2048 .bf16) (x1 : Vec F S1x256x2048 .bf16) (x2 : Vec F S1x256x2048 .bf16) (x3 : Vec F S1x2048x256 .bf16) (x4 : Vec F S4x2048 .f32) (xt0 : TbBuf0 (F := F) c tbM0_0) :
    sout0_A_0 c i arg3 harg3 arg4 harg4 arg5 harg5 arg6 harg6 arg7 harg7 arg8 harg8 arg9 harg9 hc0 hc1 x0 x1 x2 x3 x4 xt0 = k0_pay2 x0 x1 x2 x3 k0_pay1 := by
  unfold sout0_A_0
  rw [View.read_writes_eq_canon _ _ _ (scover0_A_0 c i arg3 harg3 arg4 harg4 arg5 harg5 arg6 harg6 arg7 harg7 arg8 harg8 arg9 harg9 hc0 hc1 x0 x1 x2 x3 x4 xt0)]
  unfold kernelRun0_A
  dsimp only
  sl_unfold_words
  rw [View.canon_cons_unit_zero (S := S512x2048) hz, View.readCov_unit_zero (S := S512x2048) _ hz]
  simp only [View.readAt_eq_ld, harg3.read_unread, harg4.read_unread, harg5.read_unread, harg6.read_unread,
    View.ld_unit_zero (S := S512x2048) hz, View.ld_unit_zero (S := S1x256x2048) hz3,
    View.ld_unit_zero (S := S1x2048x256) hz3]

/-- Case C (the last hidden block of a tile), the scratch: as in case B. -/
theorem sC (c : Dev nD) (i : grid0.Coords) (arg3 : Memref sig .tc .vmem S512x2048 .bf16) (harg3 : arg3.IsWhole) (arg4 : Memref sig .tc .vmem S1x256x2048 .bf16) (harg4 : arg4.IsWhole) (arg5 : Memref sig .tc .vmem S1x256x2048 .bf16) (harg5 : arg5.IsWhole) (arg6 : Memref sig .tc .vmem S1x2048x256 .bf16) (harg6 : arg6.IsWhole) (arg7 : Memref sig .tc .vmem S4x2048 .f32) (harg7 : arg7.IsWhole) (arg8 : Memref sig .tc .vmem S512x2048 .f32) (harg8 : arg8.IsWhole) (arg9 : Memref sig .tc .vmem S512x2048 .f32) (harg9 : arg9.IsWhole) (hc0 : ¬cond0_0 i) (hc1 : cond0_1 i)
    (x0 : Vec F S512x2048 .bf16) (x1 : Vec F S1x256x2048 .bf16) (x2 : Vec F S1x256x2048 .bf16) (x3 : Vec F S1x2048x256 .bf16) (x4 : Vec F S4x2048 .f32) (xt0 : TbBuf0 (F := F) c tbM0_0) (xs0 : Vec F S512x2048 .f32) :
    sout0_C_0 c i arg3 harg3 arg4 harg4 arg5 harg5 arg6 harg6 arg7 harg7 arg8 harg8 arg9 harg9 hc0 hc1 x0 x1 x2 x3 x4 xt0 xs0 = k0_pay2 x0 x1 x2 x3 xs0 := by
  unfold sout0_C_0
  rw [View.read_writes_eq_canon _ _ _ (scover0_C_0 c i arg3 harg3 arg4 harg4 arg5 harg5 arg6 harg6 arg7 harg7 arg8 harg8 arg9 harg9 hc0 hc1 x0 x1 x2 x3 x4 xt0 xs0)]
  unfold kernelRun0_C
  dsimp only
  sl_unfold_words
  rw [View.canon_unit_zero hz]
  simp only [View.readAt_eq_ld, harg3.read_unread, harg4.read_unread, harg5.read_unread, harg6.read_unread,
    harg9.read_unread, View.ld_unit_zero (S := S512x2048) hz, View.ld_unit_zero (S := S1x256x2048) hz3,
    View.ld_unit_zero (S := S1x2048x256) hz3]

/-- The table word the body loads at a closing point, as the load reads it: the table's contents `xt0` through the
    one-element rectangle at the tile coordinate. -/
def wordAt (c : Dev nD) (i : grid0.Coords) (hc1 : cond0_1 i) (xt0 : TbBuf0 (F := F) c tbM0_0) : Elt F .i32 :=
  View.readAt (Elt F) tbM0_0.view (Rect.unit (s := S20) (k0_off2 i) S1.size (k0_off2_inb i hc1)).toLoadRect xt0
    (Shape.Idx.first (numel1_S1.symm ▸ Nat.one_pos))

/-- Case C, output 5's staging buffer: the normalise-and-scale payload over the table word, the scratch AFTER this
    point's accumulate, and the scale block. -/
theorem oC (c : Dev nD) (i : grid0.Coords) (arg3 : Memref sig .tc .vmem S512x2048 .bf16) (harg3 : arg3.IsWhole) (arg4 : Memref sig .tc .vmem S1x256x2048 .bf16) (harg4 : arg4.IsWhole) (arg5 : Memref sig .tc .vmem S1x256x2048 .bf16) (harg5 : arg5.IsWhole) (arg6 : Memref sig .tc .vmem S1x2048x256 .bf16) (harg6 : arg6.IsWhole) (arg7 : Memref sig .tc .vmem S4x2048 .f32) (harg7 : arg7.IsWhole) (arg8 : Memref sig .tc .vmem S512x2048 .f32) (harg8 : arg8.IsWhole) (arg9 : Memref sig .tc .vmem S512x2048 .f32) (harg9 : arg9.IsWhole) (hc0 : ¬cond0_0 i) (hc1 : cond0_1 i)
    (x0 : Vec F S512x2048 .bf16) (x1 : Vec F S1x256x2048 .bf16) (x2 : Vec F S1x256x2048 .bf16) (x3 : Vec F S1x2048x256 .bf16) (x4 : Vec F S4x2048 .f32) (xt0 : TbBuf0 (F := F) c tbM0_0) (xs0 : Vec F S512x2048 .f32) :
    out0_C_5 c i arg3 harg3 arg4 harg4 arg5 harg5 arg6 harg6 arg7 harg7 arg8 harg8 arg9 harg9 hc0 hc1 x0 x1 x2 x3 x4 xt0 xs0 = k0_pay3 (wordAt c i hc1 xt0) (k0_pay2 x0 x1 x2 x3 xs0) x4 := by
  unfold out0_C_5
  rw [View.read_writes_eq_canon _ _ _ (cover0_C_5 c i arg3 harg3 arg4 harg4 arg5 harg5 arg6 harg6 arg7 harg7 arg8 harg8 arg9 harg9 hc0 hc1 x0 x1 x2 x3 x4 xt0 xs0)]
  unfold kernelRun0_C
  dsimp only
  sl_unfold_words
  rw [View.canon_unit_zero hz]
  simp only [View.readAt_eq_ld, harg3.read_unread, harg4.read_unread, harg5.read_unread, harg6.read_unread,
    harg7.read_unread, harg9.read_unread, View.readCov_unit_zero (S := S512x2048) _ hz,
    View.ld_unit_zero (S := S512x2048) hz, View.ld_unit_zero (S := S1x256x2048) hz3,
    View.ld_unit_zero (S := S1x2048x256) hz3, View.ld_unit_zero (S := S4x2048) hz]
  rfl

/-- The word in closed form: the table's entry at the tile coordinate. -/
theorem wordAt_eq (c : Dev nD) (i : grid0.Coords) (hc1 : cond0_1 i) (xt0 : TbBuf0 (F := F) c tbM0_0) :
    wordAt c i hc1 xt0 = xt0 (ValueIdx.ix1 ⟨(i 0).val, (i 0).isLt⟩) := by
  unfold wordAt
  rw [View.readAt_apply]
  show xt0 _ = xt0 _
  congr 1
  funext a
  match a with
  | ⟨0, _⟩ =>
    apply Fin.ext
    show k0_off2 i 0 + 1 * 0 = (i 0).val
    rw [k0_off2_eq]
    rfl

/-! ## The running accumulator -/

/-- What the scratch holds after point `n`, in closed form: at the first hidden block of a tile the accumulate
    payload over the zero block, afterwards over what the point before left. -/
def acc (hO : Ok m) (c : Dev nD) : (n : ℕ) → n < (cfgM m hO).N → Vec F S512x2048 .f32
  | 0, h => k0_pay2 (iblk m hO c 0 ⟨0, h⟩) (iblk m hO c 1 ⟨0, h⟩) (iblk m hO c 2 ⟨0, h⟩) (iblk m hO c 3 ⟨0, h⟩) k0_pay1
  | n + 1, h =>
    if (n + 1) % 15 = 0 then k0_pay2 (iblk m hO c 0 ⟨n + 1, h⟩) (iblk m hO c 1 ⟨n + 1, h⟩) (iblk m hO c 2 ⟨n + 1, h⟩) (iblk m hO c 3 ⟨n + 1, h⟩) k0_pay1
    else k0_pay2 (iblk m hO c 0 ⟨n + 1, h⟩) (iblk m hO c 1 ⟨n + 1, h⟩) (iblk m hO c 2 ⟨n + 1, h⟩) (iblk m hO c 3 ⟨n + 1, h⟩) (acc hO c n (Nat.lt_of_succ_lt h))

/-- The accumulator at the first hidden block of a tile. -/
theorem acc_first (hO : Ok m) (c : Dev nD) (t : Fin (cfgM m hO).N) (h0 : t.val % 15 = 0) :
    acc m hO c t.val t.isLt = k0_pay2 (iblk m hO c 0 t) (iblk m hO c 1 t) (iblk m hO c 2 t) (iblk m hO c 3 t) k0_pay1 := by
  obtain ⟨n, hn⟩ := t
  cases n with
  | zero => rfl
  | succ n => rw [acc]; exact if_pos h0

/-- The accumulator at a later hidden block: the payload over what the point before left. -/
theorem acc_next (hO : Ok m) (c : Dev nD) (t : Fin (cfgM m hO).N) (h0 : ¬t.val % 15 = 0) :
    acc m hO c t.val t.isLt
      = k0_pay2 (iblk m hO c 0 t) (iblk m hO c 1 t) (iblk m hO c 2 t) (iblk m hO c 3 t) (acc m hO c (t.val - 1) (Nat.lt_of_le_of_lt (Nat.sub_le _ _) t.isLt)) := by
  obtain ⟨n, hn⟩ := t
  cases n with
  | zero => exact absurd (Nat.zero_mod _) h0
  | succ n => rw [acc]; exact if_neg h0

/-- The conditions at a point, from its residue. -/
theorem hcA0 (hO : Ok m) (t : Fin (cfgM m hO).N) (h0 : t.val % 15 = 0) : cond0_0 (grid0.coords t) := (hcond0_0 t).mpr h0
theorem hcN0 (hO : Ok m) (t : Fin (cfgM m hO).N) (h0 : ¬t.val % 15 = 0) : ¬cond0_0 (grid0.coords t) :=
  fun h => h0 ((hcond0_0 t).mp h)
theorem hcA1 (hO : Ok m) (t : Fin (cfgM m hO).N) (h1 : t.val % 15 = 14) : cond0_1 (grid0.coords t) := (hcond0_1 t).mpr h1
theorem hcN1 (hO : Ok m) (t : Fin (cfgM m hO).N) (h1 : ¬t.val % 15 = 14) : ¬cond0_1 (grid0.coords t) :=
  fun h => h1 ((hcond0_1 t).mp h)

/-- One step of the scratch: at a point that opens a tile's run the payload over the zero block, -/
theorem scratch_first (hO : Ok m) (c : Dev nD) (t : Fin (cfgM m hO).N) (h0 : t.val % 15 = 0) :
    (outsAt0 m hO c t.val t.isLt).2 = k0_pay2 (iblk m hO c 0 t) (iblk m hO c 1 t) (iblk m hO c 2 t) (iblk m hO c 3 t) k0_pay1 := by
  have h1 : ¬t.val % 15 = 14 := by omega
  rw [outsAt0_A m hO c t h0 h1]
  dsimp only
  exact sA (F := F) c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) scM0_0 (Memref.isWhole_whole cc0_scratch0) (hcA0 m hO t h0) (hcN1 m hO t h1) (iblk m hO c 0 t) (iblk m hO c 1 t) (iblk m hO c 2 t) (iblk m hO c 3 t) (iblk m hO c 4 t) (tbl m 0)

/-- and at a later point the payload over what the point before left. -/
theorem scratch_next (hO : Ok m) (c : Dev nD) (t : Fin (cfgM m hO).N) (h0 : ¬t.val % 15 = 0) :
    (outsAt0 m hO c t.val t.isLt).2
      = k0_pay2 (iblk m hO c 0 t) (iblk m hO c 1 t) (iblk m hO c 2 t) (iblk m hO c 3 t) (outsAt0 m hO c (t.val - 1) (Nat.lt_of_le_of_lt (Nat.sub_le _ _) t.isLt)).2 := by
  by_cases h1 : t.val % 15 = 14
  · rw [outsAt0_C m hO c t h0 h1]
    dsimp only
    exact sC (F := F) c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) scM0_0 (Memref.isWhole_whole cc0_scratch0) (hcN0 m hO t h0) (hcA1 m hO t h1) (iblk m hO c 0 t) (iblk m hO c 1 t) (iblk m hO c 2 t) (iblk m hO c 3 t) (iblk m hO c 4 t) (tbl m 0)
      (outsAt0 m hO c (t.val - 1) (Nat.lt_of_le_of_lt (Nat.sub_le _ _) t.isLt)).2
  · rw [outsAt0_B m hO c t h0 h1]
    dsimp only
    exact sB (F := F) c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) scM0_0 (Memref.isWhole_whole cc0_scratch0) (hcN0 m hO t h0) (hcN1 m hO t h1) (iblk m hO c 0 t) (iblk m hO c 1 t) (iblk m hO c 2 t) (iblk m hO c 3 t) (iblk m hO c 4 t) (tbl m 0)
      (outsAt0 m hO c (t.val - 1) (Nat.lt_of_le_of_lt (Nat.sub_le _ _) t.isLt)).2

/-- THE SCRATCH IS THE ACCUMULATOR: what the scratch holds after point `n` is the closed recursion — by induction on
    the point. -/
theorem scratch_eq (hO : Ok m) (c : Dev nD) :
    ∀ (n : ℕ) (h : n < (cfgM m hO).N), (outsAt0 m hO c n h).2 = acc m hO c n h
  | 0, h => (scratch_first m hO c ⟨0, h⟩ (Nat.zero_mod _)).trans (acc_first m hO c ⟨0, h⟩ (Nat.zero_mod _)).symm
  | n + 1, h => by
    by_cases h0 : (n + 1) % 15 = 0
    · exact (scratch_first m hO c ⟨n + 1, h⟩ h0).trans (acc_first m hO c ⟨n + 1, h⟩ h0).symm
    · exact (scratch_next m hO c ⟨n + 1, h⟩ h0).trans
        ((congrArg (k0_pay2 (iblk m hO c 0 ⟨n + 1, h⟩) (iblk m hO c 1 ⟨n + 1, h⟩) (iblk m hO c 2 ⟨n + 1, h⟩) (iblk m hO c 3 ⟨n + 1, h⟩)) (scratch_eq hO c n (Nat.lt_of_succ_lt h))).trans
          (acc_next m hO c ⟨n + 1, h⟩ h0).symm)

/-- OUTPUT 5 AT A CLOSING POINT: after the last hidden block of a tile the staging buffer holds the normalise-and-scale
    payload over the tile's table word, the accumulator after that point, and the scale block. -/
theorem out_eq (hO : Ok m) (c : Dev nD) (t : Fin (cfgM m hO).N) (h14 : t.val % 15 = 14) :
    (outsAt0 m hO c t.val t.isLt).1
      = k0_pay3 (wordAt c (grid0.coords t) (hcA1 m hO t h14) (tbl m 0)) (acc m hO c t.val t.isLt) (iblk m hO c 4 t) := by
  have h0 : ¬t.val % 15 = 0 := by omega
  have hs : k0_pay2 (iblk m hO c 0 t) (iblk m hO c 1 t) (iblk m hO c 2 t) (iblk m hO c 3 t) (outsAt0 m hO c (t.val - 1) (Nat.lt_of_le_of_lt (Nat.sub_le _ _) t.isLt)).2
      = acc m hO c t.val t.isLt :=
    (scratch_next m hO c t h0).symm.trans (scratch_eq m hO c t.val t.isLt)
  rw [outsAt0_C m hO c t h0 h14]
  dsimp only
  exact (oC (F := F) c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) scM0_0 (Memref.isWhole_whole cc0_scratch0) (hcN0 m hO t h0) (hcA1 m hO t h14) (iblk m hO c 0 t) (iblk m hO c 1 t) (iblk m hO c 2 t) (iblk m hO c 3 t) (iblk m hO c 4 t) (tbl m 0)
      (outsAt0 m hO c (t.val - 1) (Nat.lt_of_le_of_lt (Nat.sub_le _ _) t.isLt)).2).trans
    (congrArg (fun y => k0_pay3 (wordAt c (grid0.coords t) (hcA1 m hO t h14) (tbl m 0)) y (iblk m hO c 4 t)) hs)

/-- A point's tile coordinate is its quotient by the 15 hidden blocks, its block coordinate the remainder. -/
theorem coords_tile : ∀ t : Fin grid0.N, (grid0.coords t 0).val = t.val / 15 ∧ (grid0.coords t 1).val = t.val % 15 :=
  (by decide +kernel : ∀ t : Fin grid0.N, (grid0.coords t 0).val = t.val / 15 ∧ (grid0.coords t 1).val = t.val % 15)

theorem tile_lt (hO : Ok m) (t : Fin (cfgM m hO).N) : t.val / 15 < 20 := by
  have hN : t.val < 300 := lt_of_lt_of_eq t.isLt (show (cfgM m hO).N = 300 from N_0)
  omega

/-- The word at a closing point: the table's entry at the point's tile. -/
theorem word_point (hO : Ok m) (c : Dev nD) (t : Fin (cfgM m hO).N) (h14 : t.val % 15 = 14) :
    wordAt c (grid0.coords t) (hcA1 m hO t h14) (tbl m 0) = tbl m 0 (ValueIdx.ix1 ⟨t.val / 15, tile_lt m hO t⟩) :=
  (wordAt_eq c (grid0.coords t) (hcA1 m hO t h14) (tbl m 0)).trans
    (congrArg (fun j : Fin 20 => tbl m 0 (ValueIdx.ix1 j)) (Fin.ext (coords_tile t).1))

end Cert.KernelIdeal.KPieces

end
-- ==== Proof.PayValue.lean ====
/-
  The kernel body's arithmetic read at ONE index, at the ideal values (floats are extended reals, every operation exact,
  a change of float format the identity).

  The body stores three values. The first is the zero block the accumulator starts from. The second adds, to the
  accumulator, one block of 256 hidden units' contribution to the feed-forward: with `p1 = x · W1ᵀ` and `p3 = x · W3ᵀ`
  (each a contraction over the 2048 model entries, started from a zero accumulator) it is
  `acc + ((p1 · logistic p1) · p3) · W2ᵀ`, the last contraction over the block's 256 hidden units. The third is the
  epilogue: the accumulated row times `rsqrt (mean of squares + eps)` of that row, times the gain row of expert `e`,
  which the body selects from the four gain rows by a sum against the one-hot row `e' = e`.

  Each is read here at the index `(r, d)` as plain finite sums over `Fin`: a contraction into a zero accumulator is the
  sum of the products (zero is neutral for `+` on the extended reals), a lane reduction from the zero word likewise, and
  the one-hot sum over the four experts keeps exactly the term of `e` (`x · 0 = 0` and `0 + x = x` hold for every
  extended real, the infinities included).
-/
import proofs.«413600_j1477468749957_2_alg».proof.Proof.Gen.KernelIdeal.Skeleton
import proofs.«413600_j1477468749957_2_alg».proof.Proof.Spec
import Idealize.ShloMosaic.Lib.ValueIdx
import Idealize.ShloMosaic.Lib.Pipeline.Value
import Idealize.ShloMosaic.Lib.ValueLayout
import Idealize.ShloMosaic.PureOps.Ideal.Laws

noncomputable section

open scoped BigOperators

namespace Cert.KernelIdeal.PayValue

open Idealize.ShloMosaic Idealize.ShloMosaic.ValueIdx Cert.KernelIdeal Cert.KernelIdeal.Gen

/-! ## The two contractions read at an index

Both `tpu.matmul`s contract axis 1 of the left operand with axis 1 of the right one: the result at `(a, b)` is the sum over
`c` of `lhs (a, c) · rhs (b, c)`. First the operand indices, axis by axis. -/

theorem lhsUp_0 (j : S512x256.Idx) (k : dot_S512x2048_S256x2048_S512x256_1_1_0_0_n_n.contr.Idx) :
    (dot_S512x2048_S256x2048_S512x256_1_1_0_0_n_n.lhsIdx j k 0 : ℕ) = j 0 := by
  simp [DotDims.lhsIdx, dot_S512x2048_S256x2048_S512x256_1_1_0_0_n_n]; rfl
theorem lhsUp_1 (j : S512x256.Idx) (k : dot_S512x2048_S256x2048_S512x256_1_1_0_0_n_n.contr.Idx) :
    (dot_S512x2048_S256x2048_S512x256_1_1_0_0_n_n.lhsIdx j k 1 : ℕ) = k ⟨0, by decide⟩ :=
  DotDims.lhsIdx_val_of_single _ rfl j k
theorem rhsUp_0 (j : S512x256.Idx) (k : dot_S512x2048_S256x2048_S512x256_1_1_0_0_n_n.contr.Idx) :
    (dot_S512x2048_S256x2048_S512x256_1_1_0_0_n_n.rhsIdx j k 0 : ℕ) = j 1 := by
  simp [DotDims.rhsIdx, dot_S512x2048_S256x2048_S512x256_1_1_0_0_n_n]; rfl
theorem rhsUp_1 (j : S512x256.Idx) (k : dot_S512x2048_S256x2048_S512x256_1_1_0_0_n_n.contr.Idx) :
    (dot_S512x2048_S256x2048_S512x256_1_1_0_0_n_n.rhsIdx j k 1 : ℕ) = k ⟨0, by decide⟩ :=
  DotDims.rhsIdx_val_of_single _ rfl j k

theorem lhsDown_0 (j : S512x2048.Idx) (k : dot_S512x256_S2048x256_S512x2048_1_1_0_0_n_n.contr.Idx) :
    (dot_S512x256_S2048x256_S512x2048_1_1_0_0_n_n.lhsIdx j k 0 : ℕ) = j 0 := by
  simp [DotDims.lhsIdx, dot_S512x256_S2048x256_S512x2048_1_1_0_0_n_n]; rfl
theorem lhsDown_1 (j : S512x2048.Idx) (k : dot_S512x256_S2048x256_S512x2048_1_1_0_0_n_n.contr.Idx) :
    (dot_S512x256_S2048x256_S512x2048_1_1_0_0_n_n.lhsIdx j k 1 : ℕ) = k ⟨0, by decide⟩ :=
  DotDims.lhsIdx_val_of_single _ rfl j k
theorem rhsDown_0 (j : S512x2048.Idx) (k : dot_S512x256_S2048x256_S512x2048_1_1_0_0_n_n.contr.Idx) :
    (dot_S512x256_S2048x256_S512x2048_1_1_0_0_n_n.rhsIdx j k 0 : ℕ) = j 1 := by
  simp [DotDims.rhsIdx, dot_S512x256_S2048x256_S512x2048_1_1_0_0_n_n]; rfl
theorem rhsDown_1 (j : S512x2048.Idx) (k : dot_S512x256_S2048x256_S512x2048_1_1_0_0_n_n.contr.Idx) :
    (dot_S512x256_S2048x256_S512x2048_1_1_0_0_n_n.rhsIdx j k 1 : ℕ) = k ⟨0, by decide⟩ :=
  DotDims.rhsIdx_val_of_single _ rfl j k

/-- The up projections' contraction: `[512, 2048] × [256, 2048] → [512, 256]` into a zero accumulator, at `(r, h)`, is the
    sum over the 2048 model entries. -/
theorem matmulUp_apply (A : FVec Ideal S512x2048 .bf16) (B : FVec Ideal S256x2048 .bf16) (r : Fin 512) (h : Fin 256) :
    matmul dot_S512x2048_S256x2048_S512x256_1_1_0_0_n_n none A B (constant (F := Ideal) S512x256 .f32 0x00000000#32) (ix2 r h)
      = ∑ j : Fin 2048, A (ix2 r j) * B (ix2 h j) := by
  show FloatOps.matmul _ none A B _ (ix2 r h) = _
  rw [Ideal.matmul_constant_zero_apply,
    ← Equiv.sum_comp (contrEquiv1 dot_S512x2048_S256x2048_S512x256_1_1_0_0_n_n 2048 rfl rfl).symm]
  refine Finset.sum_congr rfl fun c _ => ?_
  have hc := contrEquiv1_symm_val dot_S512x2048_S256x2048_S512x256_1_1_0_0_n_n 2048 rfl rfl c
  have hl : dot_S512x2048_S256x2048_S512x256_1_1_0_0_n_n.lhsIdx (ix2 r h) ((contrEquiv1 _ 2048 rfl rfl).symm c) = ix2 r c := by
    funext ax; apply Fin.ext
    match ax with
    | ⟨0, _⟩ => exact lhsUp_0 _ _
    | ⟨1, _⟩ => exact (lhsUp_1 _ _).trans hc
  have hr : dot_S512x2048_S256x2048_S512x256_1_1_0_0_n_n.rhsIdx (ix2 r h) ((contrEquiv1 _ 2048 rfl rfl).symm c) = ix2 h c := by
    funext ax; apply Fin.ext
    match ax with
    | ⟨0, _⟩ => exact rhsUp_0 _ _
    | ⟨1, _⟩ => exact (rhsUp_1 _ _).trans hc
  rw [hl, hr]

/-- The down projection's contraction: `[512, 256] × [2048, 256] → [512, 2048]` into a zero accumulator, at `(r, d)`, is the
    sum over the block's 256 hidden units. -/
theorem matmulDown_apply (A : FVec Ideal S512x256 .bf16) (B : FVec Ideal S2048x256 .bf16) (r : Fin 512) (d : Fin 2048) :
    matmul dot_S512x256_S2048x256_S512x2048_1_1_0_0_n_n none A B (constant (F := Ideal) S512x2048 .f32 0x00000000#32) (ix2 r d)
      = ∑ h : Fin 256, A (ix2 r h) * B (ix2 d h) := by
  show FloatOps.matmul _ none A B _ (ix2 r d) = _
  rw [Ideal.matmul_constant_zero_apply,
    ← Equiv.sum_comp (contrEquiv1 dot_S512x256_S2048x256_S512x2048_1_1_0_0_n_n 256 rfl rfl).symm]
  refine Finset.sum_congr rfl fun c _ => ?_
  have hc := contrEquiv1_symm_val dot_S512x256_S2048x256_S512x2048_1_1_0_0_n_n 256 rfl rfl c
  have hl : dot_S512x256_S2048x256_S512x2048_1_1_0_0_n_n.lhsIdx (ix2 r d) ((contrEquiv1 _ 256 rfl rfl).symm c) = ix2 r c := by
    funext ax; apply Fin.ext
    match ax with
    | ⟨0, _⟩ => exact lhsDown_0 _ _
    | ⟨1, _⟩ => exact (lhsDown_1 _ _).trans hc
  have hr : dot_S512x256_S2048x256_S512x2048_1_1_0_0_n_n.rhsIdx (ix2 r d) ((contrEquiv1 _ 256 rfl rfl).symm c) = ix2 d c := by
    funext ax; apply Fin.ext
    match ax with
    | ⟨0, _⟩ => exact rhsDown_0 _ _
    | ⟨1, _⟩ => exact (rhsDown_1 _ _).trans hc
  rw [hl, hr]

/-! ## The first two stored values -/

/-- One block of 256 hidden units: its contribution to result entry `(r, d)`. -/
def part (x : Vec Ideal S512x2048 .bf16) (w1b w3b : Vec Ideal S1x256x2048 .bf16) (w2b : Vec Ideal S1x2048x256 .bf16)
    (r : Fin 512) (d : Fin 2048) : EReal :=
  ∑ h : Fin 256, (((∑ j : Fin 2048, (x (ix2 r j) : EReal) * w1b (ix3 0 h j))
      * Ideal.logistic (∑ j : Fin 2048, (x (ix2 r j) : EReal) * w1b (ix3 0 h j)))
      * (∑ j : Fin 2048, (x (ix2 r j) : EReal) * w3b (ix3 0 h j))) * w2b (ix3 0 d h)

/-- The value the accumulator is reset to is the zero block. -/
theorem pay1_apply (i : S512x2048.Idx) : k0_pay1 (F := Ideal) i = (0 : EReal) := by
  unfold k0_pay1
  rw [shapeCast_self]
  exact Ideal.ofBits_zero_f32

/-- An up projection of the block, `x · Wᵀ` with the weight block's unit axis cast away, at `(r, h)`. -/
theorem up_apply (x : Vec Ideal S512x2048 .bf16) (wb : Vec Ideal S1x256x2048 .bf16) (r : Fin 512) (h : Fin 256) :
    matmul dot_S512x2048_S256x2048_S512x256_1_1_0_0_n_n none
        (shapeCast S512x2048 x shapeCasts_S512x2048_S512x2048 : FVec Ideal S512x2048 .bf16)
        (shapeCast S256x2048 wb shapeCasts_S1x256x2048_S256x2048 : FVec Ideal S256x2048 .bf16)
        (constant (F := Ideal) S512x256 .f32 0x00000000#32) (ix2 r h)
      = ∑ j : Fin 2048, (x (ix2 r j) : EReal) * wb (ix3 0 h j) := by
  rw [matmulUp_apply, shapeCast_self]
  exact Finset.sum_congr rfl fun j _ => congrArg (x (ix2 r j) * ·) (shapeCast_1ab_ab_apply wb _ h j)

/-- The accumulator's update: the accumulator plus the block's contribution. -/
theorem pay2_apply (x : Vec Ideal S512x2048 .bf16) (w1b w3b : Vec Ideal S1x256x2048 .bf16) (w2b : Vec Ideal S1x2048x256 .bf16)
    (acc : Vec Ideal S512x2048 .f32) (r : Fin 512) (d : Fin 2048) :
    k0_pay2 (F := Ideal) x w1b w3b w2b acc (ix2 r d) = (acc (ix2 r d) : EReal) + part x w1b w3b w2b r d := by
  unfold k0_pay2
  rw [shapeCast_self]
  refine (addf_apply _ _ _).trans (congrArg ((acc (ix2 r d) : EReal) + ·) ?_)
  refine (matmulDown_apply _ _ r d).trans ?_
  unfold part
  refine Finset.sum_congr rfl fun h _ => ?_
  refine congrArg₂ (· * ·) ?_ (shapeCast_1ab_ab_apply w2b _ d h)
  refine (truncf_apply (φ := .f32) (ψ := .bf16) _ bitsLt_bf16_f32 (ix2 r h)).trans ?_
  refine (mulf_apply _ _ _).trans ?_
  refine congrArg₂ (· * ·) ?_ (up_apply x w3b r h)
  refine (mulf_apply _ _ _).trans ?_
  exact congrArg₂ (· * ·) (up_apply x w1b r h) (congrArg Ideal.logistic (up_apply x w1b r h))

/-! ## The layout operations and reductions of the epilogue, read at an index -/

section Layout
variable {α : Type}

/-- An `[a]` array cast to the column `[a, 1]` reads, at `(i, u)`, the operand at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column at row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Layout

/-- The sum along the lanes of a `[512, 2048]` block, from the zero word, at row `r`: the sum of the row's 2048 entries. -/
theorem rowSum_apply (v : FVec Ideal S512x2048 .f32) (r : Fin 512) :
    multiReduction (F := Ideal) .add [1] S512 v 0x00000000#32 reduces_S512x2048_S512 (.inl rfl) rfl (ix1 r)
      = ∑ k : Fin 2048, v (ix2 r k) := by
  refine (Ideal.multiReduction_add_single v _ reduces_S512x2048_S512 _ _ (ix1 r)).trans ?_
  exact Finset.sum_congr rfl fun k _ => congrArg v (funext fun c => Fin.ext (match c with | ⟨0, _⟩ => rfl | ⟨1, _⟩ => rfl))

/-- The sum down the four rows of a `[4, 2048]` block, from the zero word, at column `d`: the sum of the column's 4 entries. -/
theorem colSum_apply (v : FVec Ideal S4x2048 .f32) (d : Fin 2048) :
    multiReduction (F := Ideal) .add [0] S2048 v 0x00000000#32 reduces_S4x2048_S2048 (.inl rfl) rfl (ix1 d)
      = ∑ k : Fin 4, v (ix2 k d) := by
  refine (Ideal.multiReduction_add_single v _ reduces_S4x2048_S2048 _ _ (ix1 d)).trans ?_
  exact Finset.sum_congr rfl fun k _ => congrArg v (funext fun c => Fin.ext (match c with | ⟨0, _⟩ => rfl | ⟨1, _⟩ => rfl))

/-! ## The one-hot row of expert `e` -/

/-- The bit "row `k` is expert `e`", widened and converted, is `1` on the row of `e` and `0` on the three others. -/
theorem onehot_apply (e : BitVec 32) (he : e.toNat < 4) (k : Fin 4) :
    FloatOps.sitofp (F := Ideal) .f32 ((IntOp.cmpi .eq (BitVec.ofNat 32 k.val) e).setWidth 32)
      = if k.val = e.toNat then (1 : EReal) else 0 := by
  by_cases h : k.val = e.toNat
  · have hk : BitVec.ofNat 32 k.val = e := by apply BitVec.eq_of_toNat_eq; rw [BitVec.toNat_ofNat, h]; exact Nat.mod_eq_of_lt (by omega)
    rw [if_pos h, hk]
    show (((((IntOp.cmpi .eq e e).setWidth 32).toInt : ℤ) : ℝ) : EReal) = 1
    simp [IntOp.cmpi]
  · have hk : ¬ BitVec.ofNat 32 k.val = e := by
      intro hke
      apply h
      have := congrArg BitVec.toNat hke
      rw [BitVec.toNat_ofNat] at this
      have hk4 := k.isLt
      omega
    have hb : (BitVec.ofNat 32 k.val == e) = false := by simpa using hk
    rw [if_neg h]
    show (((((IntOp.cmpi .eq (BitVec.ofNat 32 k.val) e).setWidth 32).toInt : ℤ) : ℝ) : EReal) = 0
    simp [IntOp.cmpi, hb]

/-- The sum over the four experts' gain rows against the one-hot row keeps the row of `e`: the three other terms are a
    gain times `0`, which is `0` for every extended real. -/
theorem gain_apply (e : BitVec 32) (he : e.toNat < 4) (nwb : Vec Ideal S4x2048 .f32) (d : Fin 2048) :
    ∑ k : Fin 4, (nwb (ix2 k d) : EReal) * (if k.val = e.toNat then (1 : EReal) else 0) = nwb (ix2 ⟨e.toNat, he⟩ d) := by
  rw [Finset.sum_eq_single (⟨e.toNat, he⟩ : Fin 4)]
  · rw [if_pos rfl, mul_one]
  · intro k _ hk
    rw [if_neg (fun h => hk (Fin.ext h)), mul_zero]
  · intro h; exact absurd (Finset.mem_univ _) h

/-! ## The third stored value -/

/-- The epilogue: the accumulated row, times the RMS scale of that row, times the gain row of expert `e`. -/
theorem pay3_apply (e : BitVec 32) (he : e.toNat < 4) (y : Vec Ideal S512x2048 .f32) (nwb : Vec Ideal S4x2048 .f32)
    (r : Fin 512) (d : Fin 2048) :
    k0_pay3 (F := Ideal) e y nwb (ix2 r d)
      = ((y (ix2 r d) : EReal) * Cert.Spec.rmsScale (fun d' => y (ix2 r d'))) * nwb (ix2 ⟨e.toNat, he⟩ d) := by
  unfold k0_pay3
  refine (mulf_apply _ _ _).trans (congrArg₂ (· * ·) ?_ ?_)
  · -- the row times its scale: the scale is a column, broadcast along the row
    refine (mulf_apply _ _ _).trans (congrArg ((y (ix2 r d) : EReal) * ·) ?_)
    refine (broadcastTo_a1_ab_apply _ _ r d).trans ?_
    unfold Cert.Spec.rmsScale
    show Ideal.rsqrt (Ideal.div (shapeCast S512x1 (multiReduction (F := Ideal) .add [1] S512 (mulf y y) 0x00000000#32
        reduces_S512x2048_S512 (.inl rfl) rfl) shapeCasts_S512_S512x1 (ix2 r (0 : Fin 1))) (Ideal.ofBits .f32 0x45000000#32)
        + Ideal.ofBits .f32 0x3727C5AC#32) = _
    refine congrArg (fun s => Ideal.rsqrt (Ideal.div s (Ideal.ofBits .f32 0x45000000#32) + Ideal.ofBits .f32 0x3727C5AC#32)) ?_
    refine (shapeCast_a_a1_apply _ _ r 0).trans ?_
    refine (rowSum_apply _ r).trans ?_
    rfl
  · -- the gain: one row, broadcast down the block, the one-hot sum of the four gain rows
    refine (broadcastTo_1b_ab_apply _ _ r d).trans ?_
    refine (shapeCast_a_1a_apply _ _ 0 d).trans ?_
    refine (colSum_apply _ d).trans ?_
    refine Eq.trans (Finset.sum_congr rfl fun k _ => ?_) (gain_apply e he nwb d)
    refine (mulf_apply _ _ _).trans (congrArg ((nwb (ix2 k d) : EReal) * ·) ?_)
    refine Eq.trans ?_ (onehot_apply e he k)
    exact congrArg (fun w => FloatOps.sitofp (F := Ideal) .f32 ((IntOp.cmpi .eq w e).setWidth 32))
      (iota_single_apply .tc S4x2048 32 0 iota_S4x2048_d0_w32 (ix2 k d))

end Cert.KernelIdeal.PayValue

end
-- ==== Proof.KRegionA.lean ====
import proofs.«413600_j1477468749957_2_alg».proof.Proof.KPieces
import proofs.«413600_j1477468749957_2_alg».proof.Proof.PayValue
import proofs.«413600_j1477468749957_2_alg».proof.Proof.Spec
import Idealize.ShloMosaic.Lib.ValueIdx
import Mathlib.Algebra.BigOperators.Fin
import Mathlib.Logic.Equiv.Fin.Basic

/-!
  The accumulator within a tile, at the ideal values, is the specification's hidden sum.

  A tile's 15 points add, one after the other, the contributions of the 15 blocks of 256 hidden units to the zero block:
  after point `k` of a tile the accumulator is the sum of the first `k + 1` contributions (`acc_sum`). A contribution
  whose blocks read the arrays where the windows place them is the slice `256·k ≤ h < 256·(k + 1)` of the
  specification's sum over the 3840 hidden units (`part_eq_slice`), and the 15 slices make up that sum (`sum_slices`).
-/

noncomputable section

open scoped BigOperators
open Idealize.ShloMosaic Idealize.ShloMosaic.TcCoe Idealize.SL.Sem Idealize.ShloMosaic.ValueIdx

namespace Cert.KernelIdeal.KRegionA

open Cert.KernelIdeal Cert.KernelIdeal.Gen Cert.KernelIdeal.GenP Cert.KernelIdeal.KPieces

variable (m : (ℓ : Loc nD τ sig) → Buf (Elt Ideal) ℓ)

/-! ## The specification's hidden sum in 15 slices -/

/-- The 3840 hidden units are 15 blocks of 256. -/
theorem sum_slices (f : Fin 3840 → EReal) :
    ∑ k : Fin 15, ∑ h' : Fin 256, f ⟨256 * k.val + h'.val, by omega⟩ = ∑ h : Fin 3840, f h := by
  rw [← Equiv.sum_comp (finProdFinEquiv : Fin 15 × Fin 256 ≃ Fin (15 * 256)) f, Fintype.sum_prod_type]
  refine Finset.sum_congr rfl fun k _ => Finset.sum_congr rfl fun h' _ => congrArg f (Fin.ext ?_)
  show 256 * k.val + h'.val = h'.val + 256 * k.val
  omega

/-- One block's contribution, its blocks reading the arrays at expert `e`'s rows `256·k + h'`, is slice `k` of the
    specification's hidden sum. -/
theorem part_eq_slice (x : Vec Ideal S512x2048 .bf16) (w1b w3b : Vec Ideal S1x256x2048 .bf16)
    (w2b : Vec Ideal S1x2048x256 .bf16) (xr : Fin 2048 → EReal) (W1 W3 : Spec.SW13.Idx → EReal)
    (W2 : Spec.SW2.Idx → EReal) (e : Fin 4) (k : Fin 15) (r : Fin 512)
    (hx : ∀ j : Fin 2048, (x (ix2 r j) : EReal) = xr j)
    (h1 : ∀ (h : Fin 256) (j : Fin 2048), (w1b (ix3 0 h j) : EReal) = W1 (ix3 e ⟨256 * k.val + h.val, by omega⟩ j))
    (h3 : ∀ (h : Fin 256) (j : Fin 2048), (w3b (ix3 0 h j) : EReal) = W3 (ix3 e ⟨256 * k.val + h.val, by omega⟩ j))
    (h2 : ∀ (d : Fin 2048) (h : Fin 256), (w2b (ix3 0 d h) : EReal) = W2 (ix3 e d ⟨256 * k.val + h.val, by omega⟩))
    (d : Fin 2048) :
    PayValue.part x w1b w3b w2b r d
      = ∑ h' : Fin 256, Spec.act xr W1 W3 e ⟨256 * k.val + h'.val, by omega⟩ * W2 (ix3 e d ⟨256 * k.val + h'.val, by omega⟩) := by
  unfold PayValue.part Spec.act Spec.proj
  refine Finset.sum_congr rfl fun h' _ => ?_
  simp only [hx, h1, h3, h2]

/-! ## The accumulator within a tile -/

theorem acc_congr (hO : Ok m) (c : Dev nD) {n n' : ℕ} (e : n = n') (h : n < (cfgM m hO).N) (h' : n' < (cfgM m hO).N) :
    acc m hO c n h = acc m hO c n' h' := by
  subst e; rfl

/-- The first point of a tile leaves its block's contribution (added to the zero block). -/
theorem acc_first_apply (hO : Ok m) (c : Dev nD) (t : Fin (cfgM m hO).N) (h0 : t.val % 15 = 0) (r : Fin 512) (d : Fin 2048) :
    acc m hO c t.val t.isLt (ix2 r d) = PayValue.part (iblk m hO c 0 t) (iblk m hO c 1 t) (iblk m hO c 2 t) (iblk m hO c 3 t) r d := by
  rw [acc_first m hO c t h0]
  refine (PayValue.pay2_apply (iblk m hO c 0 t) (iblk m hO c 1 t) (iblk m hO c 2 t) (iblk m hO c 3 t) (k0_pay1 (F := Ideal)) r d).trans ?_
  rw [PayValue.pay1_apply, zero_add]

/-- A later point adds its block's contribution to what the point before left. -/
theorem acc_next_apply (hO : Ok m) (c : Dev nD) (t t' : Fin (cfgM m hO).N) (ht : t.val = t'.val + 1)
    (h0 : ¬t.val % 15 = 0) (r : Fin 512) (d : Fin 2048) :
    acc m hO c t.val t.isLt (ix2 r d)
      = acc m hO c t'.val t'.isLt (ix2 r d) + PayValue.part (iblk m hO c 0 t) (iblk m hO c 1 t) (iblk m hO c 2 t) (iblk m hO c 3 t) r d := by
  rw [acc_next m hO c t h0]
  refine (PayValue.pay2_apply (iblk m hO c 0 t) (iblk m hO c 1 t) (iblk m hO c 2 t) (iblk m hO c 3 t) _ r d).trans ?_
  rw [acc_congr m hO c (show t.val - 1 = t'.val by omega) _ t'.isLt]

/-- Point `k` of tile `tile`. -/
noncomputable def pt (hO : Ok m) (tile : Fin 20) (k : Fin 15) : Fin (cfgM m hO).N :=
  ⟨15 * tile.val + k.val, by rw [show (cfgM m hO).N = 300 from N_0]; omega⟩

theorem pt_val (hO : Ok m) (tile : Fin 20) (k : Fin 15) : (pt m hO tile k).val = 15 * tile.val + k.val := rfl

attribute [irreducible] pt

theorem pt_div (hO : Ok m) (tile : Fin 20) (k : Fin 15) : (pt m hO tile k).val / 15 = tile.val := by
  rw [pt_val]; omega
theorem pt_mod (hO : Ok m) (tile : Fin 20) (k : Fin 15) : (pt m hO tile k).val % 15 = k.val := by
  rw [pt_val]; omega

/-- The contribution of hidden block `k` of tile `tile` to result entry `(r, d)`. -/
def partAt (hO : Ok m) (c : Dev nD) (tile : Fin 20) (k : Fin 15) (r : Fin 512) (d : Fin 2048) : EReal :=
  PayValue.part (iblk m hO c 0 (pt m hO tile k)) (iblk m hO c 1 (pt m hO tile k)) (iblk m hO c 2 (pt m hO tile k)) (iblk m hO c 3 (pt m hO tile k)) r d

/-- AFTER POINT `n` OF A TILE the accumulator is the sum of the first `n + 1` contributions. -/
theorem acc_sum (hO : Ok m) (c : Dev nD) (tile : Fin 20) (r : Fin 512) (d : Fin 2048) :
    ∀ (n : ℕ) (hn : n < 15), acc m hO c (pt m hO tile ⟨n, hn⟩).val (pt m hO tile ⟨n, hn⟩).isLt (ix2 r d)
      = ∑ k' : Fin (n + 1), partAt m hO c tile ⟨k'.val, by omega⟩ r d
  | 0, hn => by
    rw [Fin.sum_univ_one]
    exact acc_first_apply m hO c (pt m hO tile ⟨0, hn⟩) (by rw [pt_mod]) r d
  | n + 1, hn => by
    rw [Fin.sum_univ_castSucc,
      acc_next_apply m hO c (pt m hO tile ⟨n + 1, hn⟩) (pt m hO tile ⟨n, by omega⟩) (by rw [pt_val, pt_val]; rfl)
        (by rw [pt_mod]; exact Nat.succ_ne_zero n) r d,
      acc_sum hO c tile r d n (by omega)]
    rfl

/-- After the last point of a tile: the sum of the 15 contributions. -/
theorem acc_last (hO : Ok m) (c : Dev nD) (tile : Fin 20) (r : Fin 512) (d : Fin 2048) :
    acc m hO c (pt m hO tile 14).val (pt m hO tile 14).isLt (ix2 r d) = ∑ k : Fin 15, partAt m hO c tile k r d :=
  acc_sum m hO c tile r d 14 (by omega)

/-! ## The accumulator after a tile's last point is the specification's feed-forward row -/

/-- With the tile's blocks reading the arrays where the windows place them — the activations' row `xr`, expert `e`'s
    rows `256·k + h` of the gate and up matrices and the same columns of the down matrix —, the accumulator after the
    tile's last point is the feed-forward entry. -/
theorem acc_ffn (hO : Ok m) (c : Dev nD) (tile : Fin 20) (r : Fin 512) (e : Fin 4)
    (xr : Fin 2048 → EReal) (W1 W3 : Spec.SW13.Idx → EReal) (W2 : Spec.SW2.Idx → EReal)
    (hx : ∀ (k : Fin 15) (j : Fin 2048), (iblk m hO c 0 (pt m hO tile k) (ix2 r j) : EReal) = xr j)
    (h1 : ∀ (k : Fin 15) (h : Fin 256) (j : Fin 2048),
      (iblk m hO c 1 (pt m hO tile k) (ix3 (0 : Fin 1) h j) : EReal) = W1 (ix3 e ⟨256 * k.val + h.val, by omega⟩ j))
    (h3 : ∀ (k : Fin 15) (h : Fin 256) (j : Fin 2048),
      (iblk m hO c 2 (pt m hO tile k) (ix3 (0 : Fin 1) h j) : EReal) = W3 (ix3 e ⟨256 * k.val + h.val, by omega⟩ j))
    (h2 : ∀ (k : Fin 15) (d : Fin 2048) (h : Fin 256),
      (iblk m hO c 3 (pt m hO tile k) (ix3 (0 : Fin 1) d h) : EReal) = W2 (ix3 e d ⟨256 * k.val + h.val, by omega⟩))
    (d : Fin 2048) :
    acc m hO c (pt m hO tile 14).val (pt m hO tile 14).isLt (ix2 r d) = Spec.ffn xr W1 W3 W2 e d := by
  rw [acc_last]
  unfold Spec.ffn
  rw [← sum_slices (fun h => Spec.act xr W1 W3 e h * W2 (ix3 e d h))]
  refine Finset.sum_congr rfl fun k _ => ?_
  exact part_eq_slice (iblk m hO c 0 (pt m hO tile k)) (iblk m hO c 1 (pt m hO tile k)) (iblk m hO c 2 (pt m hO tile k)) (iblk m hO c 3 (pt m hO tile k)) xr W1 W3 W2 e k r (hx k) (h1 k) (h3 k) (h2 k) d

end Cert.KernelIdeal.KRegionA

end
-- ==== Proof.KBlocks.lean ====
import proofs.«413600_j1477468749957_2_alg».proof.Proof.Gen.KernelIdeal.Frame.Runs
import Idealize.ShloMosaic.Lib.Pipeline.Value
import Idealize.ShloMosaic.Lib.ValueIdx

/-!
  The input windows' blocks read at an index, as entries of the arrays the region finds.

  The grid has 20 tiles × 15 hidden blocks; point `t` has tile `t / 15` and hidden block `t % 15`. Window 0's block
  at `t` is rows `512·tile … 512·tile + 511` of the padded activations; windows 1 and 2 are rows
  `256·k … 256·k + 255` of expert `e`'s gate and up matrices and window 3 the same columns of its down matrix, `e` the
  table's word at the tile; window 4 is the whole table of norm weights. Every fact about the pipeline's index maps is
  proved at arbitrary admissible contents of the table, and read at the contents the region finds last.
-/

noncomputable section

open Idealize.ShloMosaic Idealize.ShloMosaic.TcCoe Idealize.ShloMosaic.ValueIdx

namespace Cert.KernelIdeal.KBlocks

open Cert.KernelIdeal Cert.KernelIdeal.Gen

variable {F : FTy → Type} [FloatOps F]
variable (m : (ℓ : Loc nD τ sig) → Buf (Elt F) ℓ)

set_option maxHeartbeats 50000 in
theorem coords_eq : ∀ t : Fin grid0.N, ((grid0.coords t) 0).val = t.val / 15 ∧ ((grid0.coords t) 1).val = t.val % 15 := by
  decide +kernel

/-- Window `w`'s block at point `t` at ANY admissible contents of the table. -/
def blkAt (a : (pcfg0 (F := F)).Adm) (c : Dev nD) (w : Fin (cfg0 a).W) (t : Fin (cfg0 a).N) :
    (((cfg0 a).win w).xblock ((cfg0 a).grid.coords t)).Idx → Elt F ((cfg0 a).win w).elt :=
  (((cfg0 a).win w).blk t).view.read (Elt F) (V m c (Pipeline.arrRef spec0 w))

theorem iblk_eq_blkAt (hO : Ok m) (c : Dev nD) (w : Fin (cfgM m hO).W) (t : Fin (cfgM m hO).N) :
    iblk m hO c w t = blkAt m (adm m hO) c w t := rfl

theorem win0_index (a : (pcfg0 (F := F)).Adm) (t : Fin (cfg0 a).N) : ((cfg0 a).win 0).index t = cc0_transform_0 (grid0.coords t) := rfl

theorem tr0_eq (i : grid0.Coords) : cc0_transform_0 i = ![(i 0).val % 2 ^ 32, 0] := rfl

set_option maxHeartbeats 50000 in
theorem xblk_at (a : (pcfg0 (F := F)).Adm) (c : Dev nD) (t : Fin (cfg0 a).N) (tile : Fin 20) (htile : t.val / 15 = tile.val) (r : Fin 512) (j : Fin 2048) :
    blkAt m a c 0 t (ix2 r j) = V m c main_v96 (ix2 ⟨512 * tile.val + r.val, by omega⟩ j) := by
  show V m c main_v96 ((((cfg0 a).win 0).blk t).view.emb (ix2 r j)) = _
  refine congrArg (V m c main_v96) ?_
  funext x
  apply Fin.ext
  have hc := coords_eq t
  match x with
  | ⟨0, _⟩ =>
    show ((cfg0 a).win 0).index t (0 : Fin 2) * 512 + 1 * r.val = 512 * tile.val + r.val
    rw [win0_index, tr0_eq]
    show ((grid0.coords t) 0).val % 2 ^ 32 * 512 + 1 * r.val = _
    rw [hc.1, htile]; have := tile.isLt; omega
  | ⟨1, _⟩ =>
    show ((cfg0 a).win 0).index t (1 : Fin 2) * 2048 + 1 * j.val = j.val
    rw [win0_index, tr0_eq]
    show 0 * 2048 + 1 * j.val = _
    omega

set_option maxHeartbeats 50000 in
theorem xblk_apply (hO : Ok m) (c : Dev nD) (t : Fin (cfgM m hO).N) (tile : Fin 20) (htile : t.val / 15 = tile.val) (r : Fin 512) (j : Fin 2048) :
    iblk m hO c 0 t (ix2 r j) = V m c main_v96 (ix2 ⟨512 * tile.val + r.val, by omega⟩ j) :=
  xblk_at m (adm m hO) c t tile htile r j

theorem win4_index (a : (pcfg0 (F := F)).Adm) (t : Fin (cfg0 a).N) : ((cfg0 a).win 4).index t = cc0_transform_4 (grid0.coords t) := rfl

theorem tr4_eq (i : grid0.Coords) : cc0_transform_4 i = ![0, 0] := rfl

set_option maxHeartbeats 400000 in
theorem nwblk_at (a : (pcfg0 (F := F)).Adm) (c : Dev nD) (t : Fin (cfg0 a).N) (e' : Fin 4) (d : Fin 2048) :
    blkAt m a c 4 t (ix2 e' d) = V m c main_arg4 (ix2 e' d) := by
  show V m c main_arg4 ((((cfg0 a).win 4).blk t).view.emb (ix2 e' d)) = _
  refine congrArg (V m c main_arg4) ?_
  funext x
  apply Fin.ext
  match x with
  | ⟨0, _⟩ =>
    show ((cfg0 a).win 4).index t (0 : Fin 2) * 4 + 1 * e'.val = e'.val
    rw [win4_index, tr4_eq]
    show 0 * 4 + 1 * e'.val = _
    omega
  | ⟨1, _⟩ =>
    show ((cfg0 a).win 4).index t (1 : Fin 2) * 2048 + 1 * d.val = d.val
    rw [win4_index, tr4_eq]
    show 0 * 2048 + 1 * d.val = _
    omega

theorem nwblk_apply (hO : Ok m) (c : Dev nD) (t : Fin (cfgM m hO).N) (e' : Fin 4) (d : Fin 2048) :
    iblk m hO c 4 t (ix2 e' d) = V m c main_arg4 (ix2 e' d) :=
  nwblk_at m (adm m hO) c t e' d

/-! ## The windows whose index maps read the table -/

/-- The word an index map loads from the table at offset `n` is the table's entry `n`. -/
theorem at_unit (pf : pre0.Contents (Elt F)) (n : Nat) (hn : n < 20) (inb : ∀ a, (![n] : Fin 1 → Nat) a + S1.size a ≤ S20.size a) (h1 : S1.numel = 1) :
    pf.at 0 (Rect.unit (s := S20) ![n] S1.size inb) h1 = pf 0 (ix1 (⟨n, hn⟩ : Fin 20)) := by
  refine congrArg (pf 0) ?_
  funext x
  apply Fin.ext
  match x with
  | ⟨0, _⟩ =>
    show n + 1 * (Shape.Idx.first (s := S1) _ (0 : Fin 1)).val = n
    have := (Shape.Idx.first (s := S1) (h1.symm ▸ Nat.one_pos) (0 : Fin 1)).isLt
    have e : S1.size (0 : Fin 1) = 1 := rfl
    omega

/-- A grid coordinate (below 20) survives the round trip through a 32-bit word. -/
theorem ofNat_toNat (n : Nat) (hn : n < 20) : (BitVec.ofNat 32 n).toNat = n := by
  rw [BitVec.toNat_ofNat]; omega

theorem win1_index (a : (pcfg0 (F := F)).Adm) (t : Fin (cfg0 a).N) :
    ((cfg0 a).win 1).index t = cc0_transform_1 k0_off1_inb numel1_S1 a.1 (grid0.coords t) := rfl

/-- Window 1's index map: the expert axis is the table's word at the tile, the hidden axis the hidden block. -/
theorem tr1_0 (pf : pre0.Contents (Elt F)) (i : grid0.Coords) (tile : Fin 20) (hi : (i 0).val = tile.val) :
    cc0_transform_1 k0_off1_inb numel1_S1 pf i (0 : Fin 3) = BitVec.toNat (w := 32) (pf 0 (ix1 tile)) := by
  have hn : (BitVec.ofNat 32 (i 0).val).toNat = tile.val := by rw [hi]; exact ofNat_toNat _ tile.isLt
  show BitVec.toNat (w := 32) (pf.at 0 (Rect.unit (s := S20) ![(BitVec.ofNat 32 (i 0).val).toNat] S1.size (k0_off1_inb i)) numel1_S1) = _
  have h1 := at_unit pf (BitVec.ofNat 32 (i 0).val).toNat (by rw [hn]; exact tile.isLt) (k0_off1_inb i) numel1_S1
  exact (congrArg (BitVec.toNat (w := 32)) h1).trans
    (congrArg (fun z : Fin 20 => BitVec.toNat (w := 32) (pf 0 (ix1 z))) (Fin.ext hn))

theorem tr1_1 (pf : pre0.Contents (Elt F)) (i : grid0.Coords) :
    cc0_transform_1 k0_off1_inb numel1_S1 pf i (1 : Fin 3) = (BitVec.ofNat 32 (i 1).val).toNat := rfl

theorem tr1_2 (pf : pre0.Contents (Elt F)) (i : grid0.Coords) :
    cc0_transform_1 k0_off1_inb numel1_S1 pf i (2 : Fin 3) = 0 := rfl

set_option maxHeartbeats 400000 in
theorem w1blk_at (a : (pcfg0 (F := F)).Adm) (pf : pre0.Contents (Elt F)) (hpf : a.1 = pf) (c : Dev nD) (t : Fin (cfg0 a).N)
    (tile : Fin 20) (k : Fin 15) (htile : t.val / 15 = tile.val) (hk : t.val % 15 = k.val)
    (e : Fin 4) (he : BitVec.toNat (w := 32) (pf 0 (ix1 tile)) = e.val) (h : Fin 256) (j : Fin 2048) :
    blkAt m a c 1 t (ix3 (0 : Fin 1) h j) = V m c main_v97 (ix3 e ⟨256 * k.val + h.val, by omega⟩ j) := by
  subst hpf
  show V m c main_v97 ((((cfg0 a).win 1).blk t).view.emb (ix3 (0 : Fin 1) h j)) = _
  refine congrArg (V m c main_v97) ?_
  funext x
  apply Fin.ext
  have hc := coords_eq t
  match x with
  | ⟨0, _⟩ =>
    show ((cfg0 a).win 1).index t (0 : Fin 3) * 1 + 1 * 0 = e.val
    rw [win1_index, tr1_0 a.1 _ tile (by rw [hc.1, htile]), he]; omega
  | ⟨1, _⟩ =>
    show ((cfg0 a).win 1).index t (1 : Fin 3) * 256 + 1 * h.val = 256 * k.val + h.val
    rw [win1_index, tr1_1, hc.2, hk, ofNat_toNat k.val (by omega)]; omega
  | ⟨2, _⟩ =>
    show ((cfg0 a).win 1).index t (2 : Fin 3) * 2048 + 1 * j.val = j.val
    rw [win1_index, tr1_2]; omega

theorem win2_index (a : (pcfg0 (F := F)).Adm) (t : Fin (cfg0 a).N) :
    ((cfg0 a).win 2).index t = cc0_transform_2 k0_off1_inb numel1_S1 a.1 (grid0.coords t) := rfl

/-- Window 2's index map is window 1's. -/
theorem tr2_eq (pf : pre0.Contents (Elt F)) (i : grid0.Coords) :
    cc0_transform_2 k0_off1_inb numel1_S1 pf i = cc0_transform_1 k0_off1_inb numel1_S1 pf i := rfl

set_option maxHeartbeats 400000 in
theorem w3blk_at (a : (pcfg0 (F := F)).Adm) (pf : pre0.Contents (Elt F)) (hpf : a.1 = pf) (c : Dev nD) (t : Fin (cfg0 a).N)
    (tile : Fin 20) (k : Fin 15) (htile : t.val / 15 = tile.val) (hk : t.val % 15 = k.val)
    (e : Fin 4) (he : BitVec.toNat (w := 32) (pf 0 (ix1 tile)) = e.val) (h : Fin 256) (j : Fin 2048) :
    blkAt m a c 2 t (ix3 (0 : Fin 1) h j) = V m c main_v98 (ix3 e ⟨256 * k.val + h.val, by omega⟩ j) := by
  subst hpf
  show V m c main_v98 ((((cfg0 a).win 2).blk t).view.emb (ix3 (0 : Fin 1) h j)) = _
  refine congrArg (V m c main_v98) ?_
  funext x
  apply Fin.ext
  have hc := coords_eq t
  match x with
  | ⟨0, _⟩ =>
    show ((cfg0 a).win 2).index t (0 : Fin 3) * 1 + 1 * 0 = e.val
    rw [win2_index, tr2_eq, tr1_0 a.1 _ tile (by rw [hc.1, htile]), he]; omega
  | ⟨1, _⟩ =>
    show ((cfg0 a).win 2).index t (1 : Fin 3) * 256 + 1 * h.val = 256 * k.val + h.val
    rw [win2_index, tr2_eq, tr1_1, hc.2, hk, ofNat_toNat k.val (by omega)]; omega
  | ⟨2, _⟩ =>
    show ((cfg0 a).win 2).index t (2 : Fin 3) * 2048 + 1 * j.val = j.val
    rw [win2_index, tr2_eq, tr1_2]; omega

theorem win3_index (a : (pcfg0 (F := F)).Adm) (t : Fin (cfg0 a).N) :
    ((cfg0 a).win 3).index t = cc0_transform_3 k0_off1_inb numel1_S1 a.1 (grid0.coords t) := rfl

/-- Window 3's index map: the expert axis as window 1's, the hidden block on the LAST axis. -/
theorem tr3_0 (pf : pre0.Contents (Elt F)) (i : grid0.Coords) :
    cc0_transform_3 k0_off1_inb numel1_S1 pf i (0 : Fin 3) = cc0_transform_1 k0_off1_inb numel1_S1 pf i (0 : Fin 3) := rfl

theorem tr3_1 (pf : pre0.Contents (Elt F)) (i : grid0.Coords) :
    cc0_transform_3 k0_off1_inb numel1_S1 pf i (1 : Fin 3) = 0 := rfl

theorem tr3_2 (pf : pre0.Contents (Elt F)) (i : grid0.Coords) :
    cc0_transform_3 k0_off1_inb numel1_S1 pf i (2 : Fin 3) = (BitVec.ofNat 32 (i 1).val).toNat := rfl

set_option maxHeartbeats 400000 in
theorem w2blk_at (a : (pcfg0 (F := F)).Adm) (pf : pre0.Contents (Elt F)) (hpf : a.1 = pf) (c : Dev nD) (t : Fin (cfg0 a).N)
    (tile : Fin 20) (k : Fin 15) (htile : t.val / 15 = tile.val) (hk : t.val % 15 = k.val)
    (e : Fin 4) (he : BitVec.toNat (w := 32) (pf 0 (ix1 tile)) = e.val) (d : Fin 2048) (h : Fin 256) :
    blkAt m a c 3 t (ix3 (0 : Fin 1) d h) = V m c main_v99 (ix3 e d ⟨256 * k.val + h.val, by omega⟩) := by
  subst hpf
  show V m c main_v99 ((((cfg0 a).win 3).blk t).view.emb (ix3 (0 : Fin 1) d h)) = _
  refine congrArg (V m c main_v99) ?_
  funext x
  apply Fin.ext
  have hc := coords_eq t
  match x with
  | ⟨0, _⟩ =>
    show ((cfg0 a).win 3).index t (0 : Fin 3) * 1 + 1 * 0 = e.val
    rw [win3_index, tr3_0, tr1_0 a.1 _ tile (by rw [hc.1, htile]), he]; omega
  | ⟨1, _⟩ =>
    show ((cfg0 a).win 3).index t (1 : Fin 3) * 2048 + 1 * d.val = d.val
    rw [win3_index, tr3_1]; omega
  | ⟨2, _⟩ =>
    show ((cfg0 a).win 3).index t (2 : Fin 3) * 256 + 1 * h.val = 256 * k.val + h.val
    rw [win3_index, tr3_2, hc.2, hk, ofNat_toNat k.val (by omega)]; omega

/-! ## At the contents the region finds -/

theorem w1blk_apply (hO : Ok m) (c : Dev nD) (t : Fin (cfgM m hO).N) (tile : Fin 20) (k : Fin 15)
    (htile : t.val / 15 = tile.val) (hk : t.val % 15 = k.val)
    (e : Fin 4) (he : BitVec.toNat (w := 32) (tbl m 0 (ix1 tile)) = e.val) (h : Fin 256) (j : Fin 2048) :
    iblk m hO c 1 t (ix3 (0 : Fin 1) h j) = V m c main_v97 (ix3 e ⟨256 * k.val + h.val, by omega⟩ j) :=
  w1blk_at m (adm m hO) (tbl m) rfl c t tile k htile hk e he h j

theorem w3blk_apply (hO : Ok m) (c : Dev nD) (t : Fin (cfgM m hO).N) (tile : Fin 20) (k : Fin 15)
    (htile : t.val / 15 = tile.val) (hk : t.val % 15 = k.val)
    (e : Fin 4) (he : BitVec.toNat (w := 32) (tbl m 0 (ix1 tile)) = e.val) (h : Fin 256) (j : Fin 2048) :
    iblk m hO c 2 t (ix3 (0 : Fin 1) h j) = V m c main_v98 (ix3 e ⟨256 * k.val + h.val, by omega⟩ j) :=
  w3blk_at m (adm m hO) (tbl m) rfl c t tile k htile hk e he h j

theorem w2blk_apply (hO : Ok m) (c : Dev nD) (t : Fin (cfgM m hO).N) (tile : Fin 20) (k : Fin 15)
    (htile : t.val / 15 = tile.val) (hk : t.val % 15 = k.val)
    (e : Fin 4) (he : BitVec.toNat (w := 32) (tbl m 0 (ix1 tile)) = e.val) (d : Fin 2048) (h : Fin 256) :
    iblk m hO c 3 t (ix3 (0 : Fin 1) d h) = V m c main_v99 (ix3 e d ⟨256 * k.val + h.val, by omega⟩) :=
  w2blk_at m (adm m hO) (tbl m) rfl c t tile k htile hk e he d h

end Cert.KernelIdeal.KBlocks

end
-- ==== Proof.KRegion.lean ====
import proofs.«413600_j1477468749957_2_alg».proof.Proof.KRegionA
import proofs.«413600_j1477468749957_2_alg».proof.Proof.KBlocks
import proofs.«413600_j1477468749957_2_alg».proof.Proof.Gen.KernelIdeal.Points
import Idealize.ShloMosaic.Lib.Pipeline.Value
import Idealize.ShloMosaic.Lib.ValueIdx

/-!
  The output array after the region, row by row, is the specification's row function.

  A tile's last point writes back rows `512·tile … 512·tile + 511` of the output: each row is the accumulated
  feed-forward row, times its RMS scale, times the gain row of the tile's expert (the table's word at the tile). The
  20 write-backs cover the 10240 rows, so the array ends holding the row function `G` of the arrays the region finds.
-/

-- the arrays' types are entries of a signature of some 170 buffers: reading one recurses once per entry before it
set_option maxRecDepth 16384

noncomputable section

open scoped BigOperators
open Idealize.ShloMosaic Idealize.ShloMosaic.TcCoe Idealize.SL.Sem Idealize.ShloMosaic.ValueIdx

namespace Cert.KernelIdeal.KRegion

open Cert.KernelIdeal Cert.KernelIdeal.Gen Cert.KernelIdeal.GenP Cert.KernelIdeal.KPieces Cert.KernelIdeal.KRegionA

section Table
variable {F : FTy → Type} [FloatOps F]

/-- Under the pipeline's side condition every word of the table is an expert: below 4 (window 1's block, whose first
    block index is the word, is inside its array of 4 experts). -/
theorem word_lt (pf : pre0.Contents (Elt F)) (hok : ok0 pf) (tile : Fin 20) : (pf 0 (ix1 tile)).toNat < 4 := by
  have hN : 15 * tile.val < grid0.N := by rw [N_0]; omega
  obtain ⟨h, -⟩ := hok.1 (grid0.coords ⟨15 * tile.val, hN⟩)
  have h0 := h 0
  have hc : ((grid0.coords ⟨15 * tile.val, hN⟩) 0).val = tile.val := by
    rw [(coords_tile ⟨15 * tile.val, hN⟩).1]; show 15 * tile.val / 15 = tile.val; omega
  have e : cc0_transform_1 k0_off1_inb numel1_S1 pf (grid0.coords ⟨15 * tile.val, hN⟩) 0 = (pf 0 (ix1 tile)).toNat := by
    show (pf 0 ((Rect.unit (s := S20) (k0_off1 (grid0.coords ⟨15 * tile.val, hN⟩)) S1.size (k0_off1_inb _)).emb
      (Shape.Idx.first (numel1_S1.symm ▸ Nat.one_pos)))).toNat = _
    refine congrArg (fun j => (pf 0 j).toNat) ?_
    funext a
    apply Fin.ext
    match a with
    | ⟨0, _⟩ =>
      show k0_off1 (grid0.coords ⟨15 * tile.val, hN⟩) 0 + 1 * 0 = tile.val
      rw [k0_off1_eq]
      show ((grid0.coords ⟨15 * tile.val, hN⟩) 0).val + 1 * 0 = tile.val
      omega
  rw [e] at h0
  have h0' : ((pf 0 (ix1 tile)).toNat + 1) * 1 ≤ 4 := h0
  omega

end Table

variable (m : (ℓ : Loc nD τ sig) → Buf (Elt Ideal) ℓ)

/-! ## The experts of the tiles and the row function -/

/-- The table's words are experts. -/
theorem tbl_lt (hO : Ok m) (tile : Fin 20) : (tbl m 0 (ix1 tile)).toNat < 4 := word_lt (tbl m) hO tile

/-- The expert of a tile: the table's word there. -/
def eidOf (hO : Ok m) (tile : Fin 20) : Fin 4 := ⟨(tbl m 0 (ix1 tile)).toNat, tbl_lt m hO tile⟩

/-- Its value is the word. -/
theorem eidOf_val (hO : Ok m) (tile : Fin 20) : (tbl m 0 (ix1 tile)).toNat = (eidOf m hO tile).val := by
  unfold eidOf; rfl

theorem row_tile (p : Fin 10240) : p.val / 512 < 20 := by omega

/-- THE ROW FUNCTION: output row `p` is the specification's row of activation row `p` through the expert of `p`'s
    tile, over the arrays the region finds. -/
def G (hO : Ok m) (c : Dev nD) : S10240x2048.Idx → EReal := fun i =>
  Spec.rowOut (fun j => V m c main_v96 (ix2 (i 0) j)) (V m c main_v97) (V m c main_v98) (V m c main_v99) (V m c main_arg4)
    (eidOf m hO ⟨(i 0).val / 512, row_tile (i 0)⟩) (i 1)

theorem G_apply (hO : Ok m) (c : Dev nD) (p : Fin 10240) (d : Fin 2048) :
    G m hO c (ix2 p d) = Spec.rowOut (fun j => V m c main_v96 (ix2 p j)) (V m c main_v97) (V m c main_v98) (V m c main_v99) (V m c main_arg4) (eidOf m hO ⟨p.val / 512, row_tile p⟩) d := rfl

/-! ## Output window 5's blocks -/

section Index
variable {F : FTy → Type} [FloatOps F]

theorem win5_index (a : (pcfg0 (F := F)).Adm) (t : Fin (cfg0 a).N) :
    ((cfg0 a).win 5).index t = cc0_transform_5 (grid0.coords t) := rfl

theorem tr5_eq (i : grid0.Coords) : cc0_transform_5 i = ![(i 0).val % 2 ^ 32, 0] := rfl

/-- Entry `(r, d)` of the block of a point of tile `tile` is entry `(512·tile + r, d)` of the array. -/
theorem oblk_emb (a : (pcfg0 (F := F)).Adm) (t : Fin (cfg0 a).N) (tile : Fin 20) (htile : t.val / 15 = tile.val)
    (r : Fin 512) (d : Fin 2048) :
    (((cfg0 a).win 5).blk t).view.emb (ix2 r d) = (ix2 (⟨512 * tile.val + r.val, by omega⟩ : Fin 10240) d : S10240x2048.Idx) := by
  funext x
  apply Fin.ext
  have hc := coords_tile t
  match x with
  | ⟨0, _⟩ =>
    show ((cfg0 a).win 5).index t (0 : Fin 2) * 512 + 1 * r.val = 512 * tile.val + r.val
    rw [win5_index, tr5_eq]
    show ((grid0.coords t) 0).val % 2 ^ 32 * 512 + 1 * r.val = _
    rw [hc.1, htile]; have := tile.isLt; omega
  | ⟨1, _⟩ =>
    show ((cfg0 a).win 5).index t (1 : Fin 2) * 2048 + 1 * d.val = d.val
    rw [win5_index, tr5_eq]
    show 0 * 2048 + 1 * d.val = _
    omega

/-- Row `p` of the array is in the block of the last point of `p`'s tile. -/
theorem mem_oblk (a : (pcfg0 (F := F)).Adm) (t : Fin (cfg0 a).N) (i : S10240x2048.Idx) (htile : t.val / 15 = (i 0).val / 512) :
    i ∈ (((cfg0 a).win 5).blk t).view.set := by
  have hc := coords_tile t
  have hi0 : (i 0).val < 10240 := (i 0).isLt
  have hi1 : (i 1).val < 2048 := (i 1).isLt
  have hr : i ∈ (((cfg0 a).win 5).rect t).set := by
    refine Rect.mem_set_unit.mpr fun x => ?_
    match x with
    | ⟨0, _⟩ =>
      show ((cfg0 a).win 5).index t (0 : Fin 2) * 512 ≤ (i 0).val ∧ (i 0).val < ((cfg0 a).win 5).index t (0 : Fin 2) * 512 + 512
      rw [win5_index, tr5_eq]
      show ((grid0.coords t) 0).val % 2 ^ 32 * 512 ≤ (i 0).val ∧ (i 0).val < ((grid0.coords t) 0).val % 2 ^ 32 * 512 + 512
      rw [hc.1, htile]; omega
    | ⟨1, _⟩ =>
      show ((cfg0 a).win 5).index t (1 : Fin 2) * 2048 ≤ (i 1).val ∧ (i 1).val < ((cfg0 a).win 5).index t (1 : Fin 2) * 2048 + 2048
      rw [win5_index, tr5_eq]
      show 0 * 2048 ≤ (i 1).val ∧ (i 1).val < 0 * 2048 + 2048
      omega
  exact Eq.mpr (congrArg (fun s => i ∈ s) (View.set_slice_whole main_v100 (((cfg0 a).win 5).rect t))) hr

end Index

/-! ## What a tile's last point writes back -/

/-- The accumulator after a tile's last point, at row `r` of the block: the feed-forward row of activation row
    `512·tile + r` through the tile's expert. -/
theorem acc_row (hO : Ok m) (c : Dev nD) (tile : Fin 20) (r : Fin 512) (d : Fin 2048) :
    acc m hO c (pt m hO tile 14).val (pt m hO tile 14).isLt (ix2 r d)
      = Spec.ffn (fun j => V m c main_v96 (ix2 (⟨512 * tile.val + r.val, by omega⟩ : Fin 10240) j)) (V m c main_v97)
          (V m c main_v98) (V m c main_v99) (eidOf m hO tile) d :=
  acc_ffn m hO c tile r (eidOf m hO tile) (fun j => V m c main_v96 (ix2 (⟨512 * tile.val + r.val, by omega⟩ : Fin 10240) j))
    (V m c main_v97) (V m c main_v98) (V m c main_v99)
    (fun k j => KBlocks.xblk_apply m hO c (pt m hO tile k) tile (pt_div m hO tile k) r j)
    (fun k h j => KBlocks.w1blk_apply m hO c (pt m hO tile k) tile k (pt_div m hO tile k) (pt_mod m hO tile k) (eidOf m hO tile) (eidOf_val m hO tile) h j)
    (fun k h j => KBlocks.w3blk_apply m hO c (pt m hO tile k) tile k (pt_div m hO tile k) (pt_mod m hO tile k) (eidOf m hO tile) (eidOf_val m hO tile) h j)
    (fun k d' h => KBlocks.w2blk_apply m hO c (pt m hO tile k) tile k (pt_div m hO tile k) (pt_mod m hO tile k) (eidOf m hO tile) (eidOf_val m hO tile) d' h)
    d

/-- Entry `(r, d)` of what the last point of tile `tile` leaves in output 5's staging buffer is the row function at
    row `512·tile + r`. -/
theorem out_apply (hO : Ok m) (c : Dev nD) (tile : Fin 20) (r : Fin 512) (d : Fin 2048) :
    k0_pay3 (F := Ideal) (tbl m 0 (ix1 tile)) (acc m hO c (pt m hO tile 14).val (pt m hO tile 14).isLt)
        (iblk m hO c 4 (pt m hO tile 14)) (ix2 r d)
      = G m hO c (ix2 (⟨512 * tile.val + r.val, by omega⟩ : Fin 10240) d) := by
  refine (PayValue.pay3_apply (tbl m 0 (ix1 tile)) (tbl_lt m hO tile) (acc m hO c (pt m hO tile 14).val (pt m hO tile 14).isLt)
    (iblk m hO c 4 (pt m hO tile 14)) r d).trans ?_
  rw [G_apply]
  have htl : (⟨(⟨512 * tile.val + r.val, by omega⟩ : Fin 10240).val / 512, row_tile _⟩ : Fin 20) = tile :=
    Fin.ext (by show (512 * tile.val + r.val) / 512 = tile.val; omega)
  rw [htl]
  unfold Spec.rowOut
  have hacc : ∀ d' : Fin 2048, (acc m hO c (pt m hO tile 14).val (pt m hO tile 14).isLt (ix2 r d') : EReal)
      = Spec.ffn (fun j => V m c main_v96 (ix2 (⟨512 * tile.val + r.val, by omega⟩ : Fin 10240) j)) (V m c main_v97)
          (V m c main_v98) (V m c main_v99) (eidOf m hO tile) d' := fun d' => acc_row m hO c tile r d'
  exact congrArg₂ (· * ·) (congrArg₂ (· * ·) (hacc d) (congrArg Spec.rmsScale (funext hacc)))
    (KBlocks.nwblk_apply m hO c (pt m hO tile 14) (eidOf m hO tile) d)

/-- A flushing point is the last point of its tile. -/
theorem eq_pt (hO : Ok m) (t : Fin (cfgM m hO).N) (h14 : t.val % 15 = 14) :
    t = pt m hO ⟨t.val / 15, tile_lt m hO t⟩ 14 :=
  Fin.ext (by rw [pt_val]; show t.val = 15 * (t.val / 15) + 14; omega)

/-- WHAT POINT `t` WRITES BACK is block `t` of the row function. -/
theorem flushed_eq (hO : Ok m) (c : Dev nD) (t : Fin (cfgM m hO).N) (hf : ((cfgM m hO).win 5).flush t = true) :
    (dats m hO 0 c).flushed 5 t = (((cfgM m hO).win 5).blk t).view.read (Elt Ideal) (G m hO c) := by
  have h14 : t.val % 15 = 14 := (flush0_5 (adm m hO) t).mp hf
  show ((cfgM m hO).win 5).cut (grid0.coords t) ((dats m hO 0 c).after 5 t) = _
  rw [after0_5, out_eq m hO c t h14, word_point m hO c t h14]
  funext y
  obtain ⟨r, d, rfl⟩ : ∃ (r : Fin 512) (d : Fin 2048), y = ix2 r d := ⟨_, _, @eq_ix2 512 2048 y⟩
  show k0_pay3 (F := Ideal) (tbl m 0 (ix1 ⟨t.val / 15, tile_lt m hO t⟩)) (acc m hO c t.val t.isLt) (iblk m hO c 4 t) (ix2 r d)
    = G m hO c ((((cfgM m hO).win 5).blk t).view.emb (ix2 r d))
  rw [oblk_emb (adm m hO) t ⟨t.val / 15, tile_lt m hO t⟩ rfl r d]
  have e := eq_pt m hO t h14
  generalize (⟨t.val / 15, tile_lt m hO t⟩ : Fin 20) = tile at e ⊢
  subst e
  exact out_apply m hO c tile r d

/-! ## The array after the region -/

/-- Every row is written back: row `p` by the last point of tile `p / 512`. -/
theorem cover (hO : Ok m) (c : Dev nD) (i : S10240x2048.Idx) :
    ∃ t : Fin (cfgM m hO).N, ((cfgM m hO).win 5).flush t = true ∧ i ∈ (((cfgM m hO).win 5).blk t).view.set :=
  ⟨pt m hO ⟨(i 0).val / 512, row_tile (i 0)⟩ 14,
    (flush0_5 (adm m hO) _).mpr (pt_mod m hO ⟨(i 0).val / 512, row_tile (i 0)⟩ 14),
    mem_oblk (adm m hO) _ i (pt_div m hO ⟨(i 0).val / 512, row_tile (i 0)⟩ 14)⟩

/-- THE OUTPUT ARRAY AFTER THE REGION is the row function of the arrays the region finds. -/
theorem out_rows (hO : Ok m) (c : Dev nD) : (dats m hO 0 c).arrAt 5 (cfgM m hO).N = G m hO c :=
  (dats m hO 0 c).arrAt_eq_of_cover 5 (G m hO c) (fun t hf => flushed_eq m hO c t hf) (cover m hO c)

end Cert.KernelIdeal.KRegion

end
-- ==== Proof.HostSteps1.lean ====
/-
  The host program's values on entry to the kernel, stage by stage (part 1): each is the stage function of
  Proof/HostStages.lean applied to the earlier values. Every equation is read off the program's operation list: the
  contents after the list at a value's own buffer are the operation's function of the contents at its operand buffers.
-/
import proofs.«413600_j1477468749957_2_alg».proof.Proof.HostRead
import proofs.«413600_j1477468749957_2_alg».proof.Proof.HostStages

-- the operation list is a literal of some 340 entries: its elaboration recurses once per entry
set_option maxRecDepth 8192

noncomputable section

namespace Cert.KernelIdeal.HostSteps

open Idealize.ShloMosaic Idealize.ShloMosaic.TcCoe Idealize.SL.Sem Idealize.ShloMosaic.StableHlo
open Cert.KernelIdeal Cert.KernelIdeal.Gen Cert.KernelIdeal.Stages

variable {F : FTy → Type} [FloatOps F]
variable (m : (ℓ : Loc nD τ sig) → Buf (Elt F) ℓ)

set_option maxHeartbeats 8000000 in
/-- The clipped modality words. -/
theorem v1_eq (c : Dev nD) : V m c main_v1 = clipS (V m c main_arg5) := by
  host_read <;> rfl

set_option maxHeartbeats 8000000 in
/-- The per-expert token counts. -/
theorem v9_eq (c : Dev nD) : V m c main_v9 = cntS (V m c main_v1) := by
  host_read <;> rfl

set_option maxHeartbeats 8000000 in
/-- The padded counts. -/
theorem v16_eq (c : Dev nD) : V m c main_v16 = pcntS (V m c main_v9) := by
  host_read <;> rfl

set_option maxHeartbeats 8000000 in
/-- x as 8192 token rows. -/
theorem v0_eq (c : Dev nD) : V m c main_v0 = shapeCast S8192x2048 (m ((c : Thread nD τ).loc main_arg0)) shapeCasts_S4x2048x2048_S8192x2048 := by
  host_read <;> rfl

end Cert.KernelIdeal.HostSteps

end
-- ==== Proof.HostSteps2.lean ====
/-
  The host program's values on entry to the kernel, stage by stage (part 2): each is the stage function of
  Proof/HostStages.lean applied to the earlier values. Every equation is read off the program's operation list: the
  contents after the list at a value's own buffer are the operation's function of the contents at its operand buffers.
-/
import proofs.«413600_j1477468749957_2_alg».proof.Proof.HostRead
import proofs.«413600_j1477468749957_2_alg».proof.Proof.HostStages

-- the operation list is a literal of some 340 entries: its elaboration recurses once per entry
set_option maxRecDepth 8192

noncomputable section

namespace Cert.KernelIdeal.HostSteps

open Idealize.ShloMosaic Idealize.ShloMosaic.TcCoe Idealize.SL.Sem Idealize.ShloMosaic.StableHlo
open Cert.KernelIdeal Cert.KernelIdeal.Gen Cert.KernelIdeal.Stages

variable {F : FTy → Type} [FloatOps F]
variable (m : (ℓ : Loc nD τ sig) → Buf (Elt F) ℓ)

set_option maxHeartbeats 8000000 in
/-- Where each expert's padded group ends. -/
theorem v77_eq (c : Dev nD) : V m c main_v77 = cumsumS (V m c main_v16) := by
  host_read <;> rfl

set_option maxHeartbeats 8000000 in
/-- The token numbers in sorted order. -/
theorem v25_eq (c : Dev nD) : V m c main_v25 = sortIdxS (V m c main_v1) := by
  host_read <;> rfl

set_option maxHeartbeats 8000000 in
/-- The first up-projection's weights, cast. -/
theorem v97_eq (c : Dev nD) : V m c main_v97 = truncf .bf16 (V m c main_arg1) bitsLt_bf16_f32 := by
  host_read <;> rfl

set_option maxHeartbeats 8000000 in
/-- The second up-projection's weights, cast. -/
theorem v98_eq (c : Dev nD) : V m c main_v98 = truncf .bf16 (V m c main_arg3) bitsLt_bf16_f32 := by
  host_read <;> rfl

set_option maxHeartbeats 8000000 in
/-- The down-projection's weights, cast. -/
theorem v99_eq (c : Dev nD) : V m c main_v99 = truncf .bf16 (V m c main_arg2) bitsLt_bf16_f32 := by
  host_read <;> rfl

end Cert.KernelIdeal.HostSteps

end
-- ==== Proof.HostSteps3.lean ====
/-
  The host program's values on entry to the kernel, stage by stage (part 3): each is the stage function of
  Proof/HostStages.lean applied to the earlier values. Every equation is read off the program's operation list: the
  contents after the list at a value's own buffer are the operation's function of the contents at its operand buffers.
-/
import proofs.«413600_j1477468749957_2_alg».proof.Proof.HostRead
import proofs.«413600_j1477468749957_2_alg».proof.Proof.HostStages

-- the operation list is a literal of some 340 entries: its elaboration recurses once per entry
set_option maxRecDepth 8192

noncomputable section

namespace Cert.KernelIdeal.HostSteps

open Idealize.ShloMosaic Idealize.ShloMosaic.TcCoe Idealize.SL.Sem Idealize.ShloMosaic.StableHlo
open Cert.KernelIdeal Cert.KernelIdeal.Gen Cert.KernelIdeal.Stages

variable {F : FTy → Type} [FloatOps F]
variable (m : (ℓ : Loc nD τ sig) → Buf (Elt F) ℓ)

set_option maxHeartbeats 8000000 in
/-- The sorted tokens' experts. -/
theorem v32_eq (c : Dev nD) : V m c main_v32 = sortedModS (V m c main_v1) (V m c main_v25) := by
  host_read <;> rfl

set_option maxHeartbeats 8000000 in
/-- The sorted tokens' padded places. -/
theorem v49_eq (c : Dev nD) : V m c main_v49 = destS (V m c main_v20) (V m c main_v24) (V m c main_v32) := by
  host_read <;> rfl

end Cert.KernelIdeal.HostSteps

end
-- ==== Proof.HostSteps4.lean ====
/-
  The host program's values on entry to the kernel, stage by stage (part 4): each is the stage function of
  Proof/HostStages.lean applied to the earlier values. Every equation is read off the program's operation list: the
  contents after the list at a value's own buffer are the operation's function of the contents at its operand buffers.
-/
import proofs.«413600_j1477468749957_2_alg».proof.Proof.HostRead
import proofs.«413600_j1477468749957_2_alg».proof.Proof.HostStages

-- the operation list is a literal of some 340 entries: its elaboration recurses once per entry
set_option maxRecDepth 8192

noncomputable section

namespace Cert.KernelIdeal.HostSteps

open Idealize.ShloMosaic Idealize.ShloMosaic.TcCoe Idealize.SL.Sem Idealize.ShloMosaic.StableHlo
open Cert.KernelIdeal Cert.KernelIdeal.Gen Cert.KernelIdeal.Stages

variable {F : FTy → Type} [FloatOps F]
variable (m : (ℓ : Loc nD τ sig) → Buf (Elt F) ℓ)

set_option maxHeartbeats 8000000 in
/-- Each token's padded place. -/
theorem v65_eq (c : Dev nD) : V m c main_v65 = o2pS (V m c main_v25) (V m c main_v49) := by
  host_read <;> rfl

set_option maxHeartbeats 8000000 in
/-- Each padded place's token. -/
theorem v73_eq (c : Dev nD) : V m c main_v73 = psrcS (V m c main_v25) (V m c main_v49) := by
  host_read <;> rfl

set_option maxHeartbeats 8000000 in
/-- The padded rows of x. -/
theorem v96_eq (c : Dev nD) : V m c main_v96 = xpadS (V m c main_v0) (V m c main_v73) := by
  host_read <;> rfl

end Cert.KernelIdeal.HostSteps

end
-- ==== Proof.HostSteps5.lean ====
/-
  The host program's values on entry to the kernel, stage by stage (part 5): each is the stage function of
  Proof/HostStages.lean applied to the earlier values. Every equation is read off the program's operation list: the
  contents after the list at a value's own buffer are the operation's function of the contents at its operand buffers.
-/
import proofs.«413600_j1477468749957_2_alg».proof.Proof.HostRead
import proofs.«413600_j1477468749957_2_alg».proof.Proof.HostStages

-- the operation list is a literal of some 340 entries: its elaboration recurses once per entry
set_option maxRecDepth 8192

noncomputable section

namespace Cert.KernelIdeal.HostSteps

open Idealize.ShloMosaic Idealize.ShloMosaic.TcCoe Idealize.SL.Sem Idealize.ShloMosaic.StableHlo
open Cert.KernelIdeal Cert.KernelIdeal.Gen Cert.KernelIdeal.Stages

variable {F : FTy → Type} [FloatOps F]
variable (m : (ℓ : Loc nD τ sig) → Buf (Elt F) ℓ)

/-- Two concatenations of two pieces with equal pieces are equal (the side condition on the pieces' shapes is a proof:
    any two agree). -/
theorem concat2_congr {α : Type} (t : Shape) (a : Fin t.rank) (s1 s2 : Shape) (x x' : s1.Idx → α) (y y' : s2.Idx → α)
    (h : Shape.Concatenates ([(⟨s1, x⟩ : (s : Shape) × (s.Idx → α)), ⟨s2, y⟩].map (·.1)) t a)
    (h' : Shape.Concatenates ([(⟨s1, x'⟩ : (s : Shape) × (s.Idx → α)), ⟨s2, y'⟩].map (·.1)) t a)
    (hx : x = x') (hy : y = y') :
    concatenate t a [⟨s1, x⟩, ⟨s2, y⟩] h = concatenate t a [⟨s1, x'⟩, ⟨s2, y'⟩] h' := by
  subst hx hy
  rfl

/-- Read the contents at one buffer inside a piece of a concatenation. -/
macro "piece_read" : tactic =>
  `(tactic| (after_results_simp
             try simp only [TRef.ofBuf, TRef.toBuf, cast_eq]))

set_option maxHeartbeats 16000000 in
/-- Where each expert's group starts in the sorted order. -/
theorem v20_eq (c : Dev nD) : V m c main_v20 = shiftS (cumsumS (V m c main_v9)) := by
  host_read
  unfold shiftS cumsumS
  refine concat2_congr S4 0 S1 S3 _ _ _ _ _ _ ?_ ?_
  · piece_read <;> rfl
  · piece_read <;> rfl

set_option maxHeartbeats 16000000 in
/-- Where each expert's group starts in the padded layout. -/
theorem v24_eq (c : Dev nD) : V m c main_v24 = shiftS (cumsumS (V m c main_v16)) := by
  host_read
  unfold shiftS cumsumS
  refine concat2_congr S4 0 S1 S3 _ _ _ _ _ _ ?_ ?_
  · piece_read <;> rfl
  · piece_read <;> rfl

end Cert.KernelIdeal.HostSteps

end
-- ==== Proof.RouteMath.lean ====
import Mathlib.Data.Fintype.Card
import Mathlib.Algebra.BigOperators.Fin
import Mathlib.Algebra.BigOperators.Group.Finset.Basic
import Mathlib.Algebra.Order.BigOperators.Group.Finset
import Mathlib.Order.Interval.Finset.Fin
import Mathlib.Tactic.FinCases

/-!
Routing combinatorics: 8192 tokens, each with an expert in Fin 4, sorted by expert; every expert's
group is laid out in a padded array made of tiles of 512 rows.  Everything here is over ℕ and Fin.
-/

namespace Cert.RouteMath

/-- A down-closed subset of Fin n is the initial segment of its own cardinality. -/
theorem mem_iff_lt_card_of_downClosed {n : ℕ} (S : Finset (Fin n))
    (hS : ∀ i j : Fin n, i ≤ j → j ∈ S → i ∈ S) (j : Fin n) :
    j ∈ S ↔ j.val < S.card := by
  constructor
  · intro hj
    have hsub : Finset.Iic j ⊆ S := by
      intro i hi
      exact hS i j (Finset.mem_Iic.mp hi) hj
    have := Finset.card_le_card hsub
    rw [Fin.card_Iic] at this
    omega
  · intro hlt
    by_contra hj
    have hsub : S ⊆ Finset.Iio j := by
      intro i hi
      rw [Finset.mem_Iio]
      by_contra hni
      exact hj (hS j i (not_lt.mp hni) hi)
    have := Finset.card_le_card hsub
    rw [Fin.card_Iio] at this
    omega

variable (ids : Fin 8192 → Fin 4) (σ : Fin 8192 → Fin 8192)

/-- number of tokens of expert e -/
def cnt (e : Fin 4) : ℕ := (Finset.univ.filter fun t : Fin 8192 => ids t = e).card
/-- the count rounded up to a multiple of 512 -/
def pcnt (e : Fin 4) : ℕ := (cnt ids e + 511) / 512 * 512
/-- first sorted position of expert e -/
def ustart (e : Fin 4) : ℕ := ∑ e' : Fin 4, if e' < e then cnt ids e' else 0
/-- first padded row of expert e -/
def pstart (e : Fin 4) : ℕ := ∑ e' : Fin 4, if e' < e then pcnt ids e' else 0
/-- one past the last padded row of expert e -/
def pend (e : Fin 4) : ℕ := ∑ e' : Fin 4, if e' ≤ e then pcnt ids e' else 0
/-- padded row of the token at sorted position j -/
def dest (j : Fin 8192) : ℕ := pstart ids (ids (σ j)) + (j.val - ustart ids (ids (σ j)))
/-- expert served by a tile: the number of groups that end at or before the tile, capped at 3 -/
def tileExpert (tile : ℕ) : ℕ :=
  min ((Finset.univ.filter fun e : Fin 4 => pend ids e ≤ tile * 512).card) 3

/-- what a sort gives -/
structure Sorts : Prop where
  bij : Function.Bijective σ
  mono : ∀ i j : Fin 8192, i ≤ j → ids (σ i) ≤ ids (σ j)

/-- Counting the tokens whose expert satisfies P, expert by expert. -/
theorem card_filter_ids (P : Fin 4 → Prop) [DecidablePred P] :
    (Finset.univ.filter fun t : Fin 8192 => P (ids t)).card
      = ∑ e : Fin 4, if P e then cnt ids e else 0 := by
  rw [Finset.card_eq_sum_card_fiberwise (f := ids) (t := Finset.univ)
    (fun _ _ => Finset.mem_coe.mpr (Finset.mem_univ _))]
  refine Finset.sum_congr rfl fun e _ => ?_
  rw [Finset.filter_filter]
  split_ifs with he
  · unfold cnt
    congr 1
    ext t
    simp only [Finset.mem_filter, Finset.mem_univ, true_and]
    constructor
    · exact fun h => h.2
    · exact fun h => ⟨h ▸ he, h⟩
  · rw [Finset.card_eq_zero, Finset.filter_eq_empty_iff]
    intro t _ h
    exact he (h.2 ▸ h.1)

/-- The same count taken along a bijective enumeration of the tokens. -/
theorem card_filter_sorted (hb : Function.Bijective σ) (P : Fin 4 → Prop) [DecidablePred P] :
    (Finset.univ.filter fun j : Fin 8192 => P (ids (σ j))).card
      = ∑ e : Fin 4, if P e then cnt ids e else 0 := by
  rw [← card_filter_ids, Finset.card_filter, Finset.card_filter]
  exact hb.sum_comp (fun t => if P (ids t) then 1 else 0)

theorem cnt_le (e : Fin 4) : cnt ids e ≤ 8192 := by
  unfold cnt
  exact (Finset.card_filter_le _ _).trans (by simp)

theorem cnt_sum : ∑ e : Fin 4, cnt ids e = 8192 := by
  have h := card_filter_ids ids (fun _ => True)
  simpa using h.symm

/-- The positions whose expert satisfies a down-closed predicate form an initial segment. -/
theorem pos_mem_iff (h : Sorts ids σ) (P : Fin 4 → Prop) [DecidablePred P]
    (hP : ∀ a b : Fin 4, a ≤ b → P b → P a) (j : Fin 8192) :
    P (ids (σ j)) ↔ j.val < ∑ e : Fin 4, if P e then cnt ids e else 0 := by
  rw [← card_filter_sorted ids σ h.bij P]
  have hS : ∀ i k : Fin 8192, i ≤ k →
      k ∈ (Finset.univ.filter fun j' : Fin 8192 => P (ids (σ j'))) →
      i ∈ (Finset.univ.filter fun j' : Fin 8192 => P (ids (σ j'))) := by
    intro i k hik hk
    simp only [Finset.mem_filter, Finset.mem_univ, true_and] at hk ⊢
    exact hP _ _ (h.mono i k hik) hk
  rw [← mem_iff_lt_card_of_downClosed _ hS j]
  simp only [Finset.mem_filter, Finset.mem_univ, true_and]

/-- The tokens of experts up to and including e: those before e, then those of e. -/
theorem uend_eq (e : Fin 4) :
    (∑ e' : Fin 4, if e' ≤ e then cnt ids e' else 0) = ustart ids e + cnt ids e := by
  unfold ustart
  fin_cases e <;> simp [Fin.sum_univ_four]

theorem ustart_le_pos (h : Sorts ids σ) (j : Fin 8192) : ustart ids (ids (σ j)) ≤ j.val := by
  have key := pos_mem_iff ids σ h (fun a => a < ids (σ j))
    (fun a b hab hb => lt_of_le_of_lt hab hb) j
  have hn : ¬ (ids (σ j) < ids (σ j)) := lt_irrefl _
  have := key.not.mp hn
  unfold ustart
  omega

theorem pos_lt_uend (h : Sorts ids σ) (j : Fin 8192) :
    j.val < ustart ids (ids (σ j)) + cnt ids (ids (σ j)) := by
  have key := pos_mem_iff ids σ h (fun a => a ≤ ids (σ j))
    (fun a b hab hb => le_trans hab hb) j
  rw [← uend_eq]
  exact key.mp (le_refl _)

theorem cnt_le_pcnt (e : Fin 4) : cnt ids e ≤ pcnt ids e := by
  unfold pcnt
  omega

theorem pcnt_le (e : Fin 4) : pcnt ids e ≤ 8704 := by
  have := cnt_le ids e
  unfold pcnt
  omega

theorem dvd_pcnt (e : Fin 4) : 512 ∣ pcnt ids e := Dvd.intro_left _ rfl

theorem dvd_pstart (e : Fin 4) : 512 ∣ pstart ids e := by
  unfold pstart
  refine Finset.dvd_sum fun e' _ => ?_
  split_ifs
  · exact dvd_pcnt ids e'
  · exact dvd_zero _

theorem dvd_pend (e : Fin 4) : 512 ∣ pend ids e := by
  unfold pend
  refine Finset.dvd_sum fun e' _ => ?_
  split_ifs
  · exact dvd_pcnt ids e'
  · exact dvd_zero _

/-- A group ends where it starts plus its padded size. -/
theorem pend_eq (e : Fin 4) : pend ids e = pstart ids e + pcnt ids e := by
  unfold pend pstart
  fin_cases e <;> simp [Fin.sum_univ_four]

/-- Groups of smaller experts end before a group starts. -/
theorem pend_le_pstart {e' e : Fin 4} (h : e' < e) : pend ids e' ≤ pstart ids e := by
  unfold pend pstart
  refine Finset.sum_le_sum fun x _ => ?_
  split_ifs with h1 h2
  · exact le_refl _
  · exact absurd (lt_of_le_of_lt h1 h) h2
  · exact Nat.zero_le _
  · exact le_refl _

theorem pend_mono {e e' : Fin 4} (h : e ≤ e') : pend ids e ≤ pend ids e' := by
  unfold pend
  refine Finset.sum_le_sum fun x _ => ?_
  split_ifs with h1 h2
  · exact le_refl _
  · exact absurd (le_trans h1 h) h2
  · exact Nat.zero_le _
  · exact le_refl _

theorem pend_le (e : Fin 4) : pend ids e ≤ 10240 := by
  have h3 : pend ids e ≤ pend ids 3 := pend_mono ids (Fin.le_last e)
  have hs := cnt_sum ids
  have e3 : pend ids 3 = pcnt ids 0 + pcnt ids 1 + pcnt ids 2 + pcnt ids 3 := by
    unfold pend
    simp [Fin.sum_univ_four]
  rw [Fin.sum_univ_four] at hs
  unfold pcnt at e3
  omega

theorem pstart_le (e : Fin 4) : pstart ids e ≤ 10240 := by
  have := pend_eq ids e
  have := pend_le ids e
  omega

/-- The padded row of a sorted position lies inside its expert's group. -/
theorem dest_mem (h : Sorts ids σ) (j : Fin 8192) :
    pstart ids (ids (σ j)) ≤ dest ids σ j ∧ dest ids σ j < pend ids (ids (σ j)) := by
  have h1 := ustart_le_pos ids σ h j
  have h2 := pos_lt_uend ids σ h j
  have h3 := cnt_le_pcnt ids (ids (σ j))
  have h4 := pend_eq ids (ids (σ j))
  unfold dest
  omega

theorem dest_lt (h : Sorts ids σ) (j : Fin 8192) : dest ids σ j < 10240 := by
  have := (dest_mem ids σ h j).2
  have := pend_le ids (ids (σ j))
  omega

theorem dest_inj (h : Sorts ids σ) : Function.Injective (dest ids σ) := by
  intro j j' hjj
  have m := dest_mem ids σ h j
  have m' := dest_mem ids σ h j'
  rcases lt_trichotomy (ids (σ j)) (ids (σ j')) with hlt | heq | hgt
  · have := pend_le_pstart ids hlt
    omega
  · have h1 := ustart_le_pos ids σ h j
    have h1' := ustart_le_pos ids σ h j'
    unfold dest at hjj
    rw [heq] at hjj h1
    apply Fin.ext
    omega
  · have := pend_le_pstart ids hgt
    omega

theorem tileExpert_lt (tile : ℕ) : tileExpert ids tile < 4 := by
  unfold tileExpert
  omega

theorem tileExpert_dest (h : Sorts ids σ) (j : Fin 8192) :
    tileExpert ids (dest ids σ j / 512) = (ids (σ j)).val := by
  have m := dest_mem ids σ h j
  have hset : (Finset.univ.filter fun e : Fin 4 => pend ids e ≤ dest ids σ j / 512 * 512)
      = Finset.Iio (ids (σ j)) := by
    ext e'
    simp only [Finset.mem_filter, Finset.mem_univ, true_and, Finset.mem_Iio]
    constructor
    · intro hle
      by_contra hn
      have := pend_mono ids (not_lt.mp hn)
      omega
    · intro hlt
      have := pend_le_pstart ids hlt
      obtain ⟨k, hk⟩ := dvd_pend ids e'
      omega
  unfold tileExpert
  rw [hset, Fin.card_Iio]
  omega

end Cert.RouteMath
-- ==== Proof.DecodeTables.lean ====
/-
  Decoding the four-entry tables and the tile table of the host program's routing stages: each stage, applied to word
  tables that spell given natural numbers, is the word table that spells the numbers the routing arithmetic names.
  A word table `tab` spells `f` when `tab (ix1 k) = BitVec.ofNat 32 (f k)`. Every natural number here is at most
  10240, far below 2³¹, so the signed and unsigned readings of the words agree and no sum or product wraps.

  * `clipS_id`: words already in [0, 3] are their own clip;
  * `cntS_spells`: the column sums of the [8192, 4] table of `v1 t == e` spell the per-expert counts;
  * `pcntS_spells`: `floor_divide (c + 511) 512 * 512` spells the count rounded up to a multiple of 512;
  * `cumsumS_spells` / `shiftS_spells`: the window sum spells the inclusive running sum, the shift by one place the
    exclusive one; `ustartS_spells`, `pstartS_spells`, `pendS_spells` name them in the routing vocabulary;
  * `eidS_spells`: the row sums of the [20, 4] table of `512 · tile ≥ pend e` (`eidMask`, with the bound `eidS_lt`, in
    EidBound.lean), capped at 3, spell each tile's expert.
-/
import proofs.«413600_j1477468749957_2_alg».proof.Proof.HostStages
import proofs.«413600_j1477468749957_2_alg».proof.Proof.RouteMath
import proofs.«413600_j1477468749957_2_alg».proof.Proof.EidBound
import Mathlib.Algebra.BigOperators.Fin
import Idealize.ShloMosaic.Lib.StableHlo.Predicate
import Idealize.ShloMosaic.Lib.WordArith
import Idealize.ShloMosaic.Lib.ValueIdx
import Idealize.ShloMosaic.Lib.Pipeline.Value

namespace Cert.KernelIdeal.Decode
open Idealize.ShloMosaic Idealize.ShloMosaic.ValueIdx Cert.KernelIdeal Cert.KernelIdeal.Gen Cert.KernelIdeal.Stages Cert.RouteMath

/-- The rank-1 index of a coordinate, in the two spellings the library uses. -/
theorem ofFin_eq_ix1 {n : Nat} (p : Fin n) : (Shape.Idx.ofFin p : (⟨1, ![n]⟩ : Shape).Idx) = ix1 p := by
  funext d; match d with | ⟨0, _⟩ => rfl

/-- Two naturals below 2³² spell the same word only when they are equal. -/
theorem ofNat_inj_of_lt {a b : ℕ} (ha : a < 2 ^ 32) (hb : b < 2 ^ 32) (h : BitVec.ofNat 32 a = BitVec.ofNat 32 b) : a = b := by
  have := congrArg BitVec.toNat h
  simp only [BitVec.toNat_ofNat] at this
  omega

/-- A word is the spelling of its own value. -/
theorem eq_ofNat_of_toNat {w : BitVec 32} {n : ℕ} (h : w.toNat = n) : w = BitVec.ofNat 32 n := by
  apply BitVec.eq_of_toNat_eq
  rw [BitVec.toNat_ofNat, h]
  exact (Nat.mod_eq_of_lt (h ▸ w.isLt)).symm

/-! ## The clip -/

/-- A word in [0, 3] is its own clip to [0, 3]: the signed maximum with 0 and the signed minimum with 3 leave it alone. -/
theorem clipS_id (a5 : IVec S8192 32) (h : ∀ t : Fin 8192, (a5 (ix1 t)).toNat < 4) : clipS a5 = a5 := by
  funext i
  rw [eq_ix1 i]
  have ht := h (i 0)
  show IntOp.minsi 3#32 (IntOp.maxsi 0#32 (a5 (ix1 (i 0)))) = a5 (ix1 (i 0))
  generalize a5 (ix1 (i 0)) = w at ht ⊢
  have hti : w.toInt = (w.toNat : ℤ) := StableHlo.Predicate.toInt_eq_toNat_of_lt (by omega)
  have h0 : (0#32 : BitVec 32).toInt = 0 := by decide
  have h3 : (3#32 : BitVec 32).toInt = 3 := by decide
  have hmax : IntOp.maxsi 0#32 w = w := by
    unfold IntOp.maxsi
    rw [if_neg]
    simp only [BitVec.slt, hti, h0, decide_eq_true_eq]
    omega
  rw [hmax]
  unfold IntOp.minsi
  rw [if_neg]
  simp only [BitVec.slt, hti, h3, decide_eq_true_eq]
  omega

/-! ## The counts -/

section Counts
variable (ids : Fin 8192 → Fin 4)

/-- The bit of the [8192, 4] table at (t, e) is set exactly when token t's expert is e. -/
theorem cnt_mask_iff (v1 : IVec S8192 32) (h1 : ∀ t, v1 (ix1 t) = BitVec.ofNat 32 (ids t).val) (t : Fin 8192) (e : Fin 4) :
    cmpi .eq (broadcastInDim S8192x4 ![0, 1] bcast_S8192x1_S8192x4_0_1 (broadcastInDim S8192x1 ![0] bcast_S8192_S8192x1_0 v1))
      (broadcastInDim S8192x4 ![0, 1] bcast_S1x4_S8192x4_0_1 (broadcastInDim S1x4 ![1] bcast_S4_S1x4_1 (iotaInDim S4 32 0)))
      (StableHlo.Predicate.ij t e) = 1#1 ↔ ids t = e := by
  show IntOp.cmpi .eq
      (broadcastInDim S8192x4 ![0, 1] bcast_S8192x1_S8192x4_0_1 (broadcastInDim S8192x1 ![0] bcast_S8192_S8192x1_0 v1) (StableHlo.Predicate.ij t e))
      (broadcastInDim S8192x4 ![0, 1] bcast_S1x4_S8192x4_0_1 (broadcastInDim S1x4 ![1] bcast_S4_S1x4_1 (iotaInDim S4 32 0)) (StableHlo.Predicate.ij t e))
      = 1#1 ↔ ids t = e
  rw [StableHlo.Predicate.bcast_rows, StableHlo.Predicate.bcast_cols, StableHlo.Predicate.cmpi_eq_iff, ofFin_eq_ix1, h1,
    StableHlo.Predicate.iota_apply]
  have := (ids t).isLt
  have := e.isLt
  constructor
  · intro h
    exact Fin.ext (ofNat_inj_of_lt (by omega) (by omega) h)
  · intro h
    rw [h]

/-- The column sums of the table of `v1 t == e` are the numbers of tokens of each expert. -/
theorem cntS_spells (v1 : IVec S8192 32) (h1 : ∀ t, v1 (ix1 t) = BitVec.ofNat 32 (ids t).val) (e : Fin 4) :
    cntS v1 (ix1 e) = BitVec.ofNat 32 (cnt ids e) := by
  apply eq_ofNat_of_toNat
  unfold cntS
  rw [StableHlo.Predicate.toNat_reduce_count_rows (by norm_num)]
  unfold cnt
  exact congrArg Finset.card (Finset.filter_congr fun t _ => cnt_mask_iff ids v1 h1 t e)

end Counts

/-! ## The padded counts -/

/-- Signed division of a word below 2³¹ by 512 meets no corner and is the quotient of the values. -/
theorem divsi512_toNat (w : BitVec 32) (hw : w.toNat < 2 ^ 31) : (IntOp.divsi .host w 512#32).toNat = w.toNat / 512 := by
  have hcorner : ¬ IntOp.SDivCorner w 512#32 := by
    intro hc; rcases hc with hc | ⟨_, hc⟩ <;> exact absurd hc (by decide)
  have hm : w.msb = false := BitVec.msb_eq_false_iff_two_mul_lt.mpr (by omega)
  simp only [IntOp.divsi, if_neg hcorner, BitVec.sdiv_eq, hm, show (512#32 : BitVec 32).msb = false from by decide, BitVec.udiv_eq,
    BitVec.toNat_udiv, BitVec.toNat_ofNat]

/-- jnp's floor division by 512 of a positive word below 2³¹: its sign is that of 512, so the select takes the plain
    quotient. -/
theorem floordivS_apply (v13 : IVec S4 32) (e : Fin 4) (n : ℕ) (hn : v13 (ix1 e) = BitVec.ofNat 32 n) (hpos : 0 < n)
    (hlt : n < 2 ^ 31) : floordivS v13 (ix1 e) = BitVec.ofNat 32 (n / 512) := by
  have hval : (BitVec.ofNat 32 n).toNat = n := by rw [BitVec.toNat_ofNat]; exact Nat.mod_eq_of_lt (by omega)
  have hsgn : signi v13 (ix1 e) = 1#32 := by
    show (if v13 (ix1 e) = 0 then 0 else if (v13 (ix1 e)).msb then -1 else 1) = 1#32
    have hne : ¬ BitVec.ofNat 32 n = 0 := by
      intro h
      have := congrArg BitVec.toNat h
      rw [hval] at this
      have h0 : n = 0 := this
      omega
    have hmsb : ¬ (BitVec.ofNat 32 n).msb = true := by
      rw [BitVec.msb_eq_false_iff_two_mul_lt.mpr (by rw [hval]; omega)]
      exact Bool.false_ne_true
    rw [hn, if_neg hne, if_neg hmsb]
    rfl
  have hsgn' : broadcastInDim S4 ![] bcast_S_S4 (signi (id (constantI S_ 32 512#32))) (ix1 e) = 1#32 := by
    show (if (512#32 : BitVec 32) = 0 then 0 else if (512#32 : BitVec 32).msb then -1 else 1) = 1#32
    decide
  show Scalar.select
      (IntOp.andi (IntOp.cmpi .ne (signi v13 (ix1 e)) (broadcastInDim S4 ![] bcast_S_S4 (signi (id (constantI S_ 32 512#32))) (ix1 e)))
        (IntOp.cmpi .ne (IntOp.remsi .host (v13 (ix1 e)) 512#32) 0#32))
      (IntOp.subi (IntOp.divsi .host (v13 (ix1 e)) 512#32) 1#32) (IntOp.divsi .host (v13 (ix1 e)) 512#32) = _
  rw [hsgn, hsgn']
  have hz : IntOp.cmpi .ne (1#32 : BitVec 32) 1#32 = 0#1 := by decide
  have ha : ∀ c : BitVec 1, IntOp.andi 0#1 c = 0#1 := fun c => by unfold IntOp.andi; exact BitVec.zero_and
  rw [hz, ha, select_zero]
  apply eq_ofNat_of_toNat
  rw [divsi512_toNat _ (by rw [hn, hval]; exact hlt), hn, hval]

section Padded
variable (ids : Fin 8192 → Fin 4)

/-- `floor_divide (c + 512 - 1) 512 * 512` on the counts spells the counts rounded up to a multiple of 512. -/
theorem pcntS_spells (v9 : IVec S4 32) (h9 : ∀ e, v9 (ix1 e) = BitVec.ofNat 32 (cnt ids e)) (e : Fin 4) :
    pcntS v9 (ix1 e) = BitVec.ofNat 32 (pcnt ids e) := by
  have hc := cnt_le ids e
  have h511 : cnt511S v9 (ix1 e) = BitVec.ofNat 32 (cnt ids e + 511) := by
    show IntOp.subi (IntOp.addi (v9 (ix1 e)) 512#32) 1#32 = _
    rw [h9]
    apply BitVec.eq_of_toNat_eq
    simp only [IntOp.subi, IntOp.addi, BitVec.toNat_sub, BitVec.toNat_add, BitVec.toNat_ofNat]
    omega
  show IntOp.muli (floordivS (cnt511S v9) (ix1 e)) 512#32 = _
  rw [floordivS_apply _ e _ h511 (by omega) (by omega)]
  unfold pcnt
  apply BitVec.eq_of_toNat_eq
  simp only [IntOp.muli, BitVec.toNat_mul, BitVec.toNat_ofNat]
  omega

end Padded

/-! ## The running sums -/

/-- A fold over the positions below `m` is the fold over the positions below an equal `m'`. -/
theorem foldl_finRange_cast {β : Type} {m m' : Nat} (h : m = m') (f : β → Fin m → β) (v : β) :
    (List.finRange m).foldl f v = (List.finRange m').foldl (fun r k => f r (k.cast h.symm)) v := by
  subst h; rfl

/-- The row-major position of a rank-1 index is its coordinate. -/
theorem rowMajor_symm_val1 {d : Fin 1 → Nat} (n : Fin (⟨1, d⟩ : Shape).numel) (a : Fin 1) :
    ((⟨1, d⟩ : Shape).rowMajor.symm n a).val = n.val := by
  obtain rfl : a = 0 := Subsingleton.elim _ _
  have := Shape.rowMajor_val_one ((⟨1, d⟩ : Shape).rowMajor.symm n)
  rw [Equiv.apply_symm_apply] at this
  exact this.symm

/-- The window of 4 padded 3 low, at entry e: the fold over the window's four positions k of the entry `e + k - 3`
    where that is not padding. -/
theorem cumsumS_apply (x : IVec S4 32) (e : Fin 4) :
    cumsumS x (ix1 e) = (List.finRange 4).foldl (fun r (k : Fin 4) =>
      IntOp.addi r (if h : 3 ≤ e.val + k.val then x (ix1 ⟨e.val + k.val - 3, by omega⟩) else 0#32)) 0#32 := by
  unfold cumsumS Host.reduceWindow
  simp only []
  rw [foldl_finRange_cast (Shape.numel_rank1 ![4] : (⟨1, ![4]⟩ : Shape).numel = 4)]
  show List.foldl _ 0#32 _ = _
  congr 1
  funext r k
  congr 1
  have hk4 : k.val < 4 := k.isLt
  have he4 : e.val < 4 := e.isLt
  split
  · next hall =>
    have h0 := hall 0
    rw [rowMajor_symm_val1] at h0
    have h0' : 3 ≤ e.val * 1 + k.val ∧ e.val * 1 + k.val - 3 < 4 := h0
    rw [dif_pos (by omega)]
    congr 1
    funext a
    obtain rfl : a = 0 := Subsingleton.elim _ _
    apply Fin.ext
    show e.val * 1 + ((⟨1, ![4]⟩ : Shape).rowMajor.symm (Fin.cast _ k) 0).val - 3 = e.val + k.val - 3
    rw [rowMajor_symm_val1, Fin.coe_cast, Nat.mul_one]
  · next hall =>
    rw [dif_neg]
    · rfl
    · intro hc
      apply hall
      intro a
      obtain rfl : a = 0 := Subsingleton.elim _ _
      rw [rowMajor_symm_val1]
      show 3 ≤ e.val * 1 + k.val ∧ e.val * 1 + k.val - 3 < 4
      omega

/-- jnp's cumsum over four entries spells the inclusive running sum of what the entries spell. -/
theorem cumsumS_spells (x : IVec S4 32) (f : Fin 4 → ℕ) (hx : ∀ e, x (ix1 e) = BitVec.ofNat 32 (f e)) (hf : ∀ e, f e ≤ 10240)
    (e : Fin 4) : cumsumS x (ix1 e) = BitVec.ofNat 32 (∑ e' : Fin 4, if e' ≤ e then f e' else 0) := by
  have _ := hf
  rw [cumsumS_apply, Fin.sum_univ_four]
  fin_cases e
  · show IntOp.addi (IntOp.addi (IntOp.addi (IntOp.addi 0#32 0#32) 0#32) 0#32) (x (ix1 0)) = BitVec.ofNat 32 (f 0 + 0 + 0 + 0)
    rw [hx]
    apply BitVec.eq_of_toNat_eq
    simp only [IntOp.addi, BitVec.toNat_add, BitVec.toNat_ofNat]
    omega
  · show IntOp.addi (IntOp.addi (IntOp.addi (IntOp.addi 0#32 0#32) 0#32) (x (ix1 0))) (x (ix1 1))
      = BitVec.ofNat 32 (f 0 + f 1 + 0 + 0)
    rw [hx, hx]
    apply BitVec.eq_of_toNat_eq
    simp only [IntOp.addi, BitVec.toNat_add, BitVec.toNat_ofNat]
    omega
  · show IntOp.addi (IntOp.addi (IntOp.addi (IntOp.addi 0#32 0#32) (x (ix1 0))) (x (ix1 1))) (x (ix1 2))
      = BitVec.ofNat 32 (f 0 + f 1 + f 2 + 0)
    rw [hx, hx, hx]
    apply BitVec.eq_of_toNat_eq
    simp only [IntOp.addi, BitVec.toNat_add, BitVec.toNat_ofNat]
    omega
  · show IntOp.addi (IntOp.addi (IntOp.addi (IntOp.addi 0#32 (x (ix1 0))) (x (ix1 1))) (x (ix1 2))) (x (ix1 3))
      = BitVec.ofNat 32 (f 0 + f 1 + f 2 + f 3)
    rw [hx, hx, hx, hx]
    apply BitVec.eq_of_toNat_eq
    simp only [IntOp.addi, BitVec.toNat_add, BitVec.toNat_ofNat]
    omega

/-- A zero in front of the first three entries spells the running sum moved one place on: zero at the first entry, the
    entry before elsewhere. -/
theorem shiftS_spells (cs : IVec S4 32) (g : Fin 4 → ℕ) (hcs : ∀ e, cs (ix1 e) = BitVec.ofNat 32 (g e)) (e : Fin 4) :
    shiftS cs (ix1 e) = BitVec.ofNat 32 (if h : e.val = 0 then 0 else g ⟨e.val - 1, by omega⟩) := by
  have he4 : e.val < 4 := e.isLt
  unfold shiftS
  by_cases h : e.val = 0
  · rw [dif_pos h]
    exact concatenate_pair_apply_left (t := S4) (s₁ := S1) (s₂ := S3) (0 : Fin 1)
      (broadcastInDim S1 ![] bcast_S_S1 (constantI S_ 32 0#32)) (extractStridedSlice S3 ![0] cs slices_S4_S3_0)
      concatenates_S1_S3_S4_d0 (ix1 e) rfl (ix1 (0 : Fin 1))
      (fun b => by obtain rfl : b = 0 := Subsingleton.elim _ _; exact h.symm)
  · rw [dif_neg h]
    have hs : extractStridedSlice S3 ![0] cs slices_S4_S3_0 (ix1 (⟨e.val - 1, by omega⟩ : Fin 3))
        = cs (ix1 (⟨e.val - 1, by omega⟩ : Fin 4)) :=
      extractStridedSlice_apply (s := S4) (t := S3) ![0] cs slices_S4_S3_0 _ _
        (fun a => by obtain rfl : a = 0 := Subsingleton.elim _ _; exact (Nat.zero_add _).symm)
    rw [← hcs, ← hs]
    exact concatenate_pair_apply_right (t := S4) (s₁ := S1) (s₂ := S3) (0 : Fin 1)
      (broadcastInDim S1 ![] bcast_S_S1 (constantI S_ 32 0#32)) (extractStridedSlice S3 ![0] cs slices_S4_S3_0)
      concatenates_S1_S3_S4_d0 (ix1 e) rfl rfl
      (ix1 (⟨e.val - 1, by omega⟩ : Fin 3))
      (fun b hb => absurd (Subsingleton.elim _ _) hb)
      (show e.val - 1 + 1 = e.val by omega)

/-- The inclusive running sum read one place back, with zero at the first entry, is the exclusive running sum. -/
theorem shift_sum (f : Fin 4 → ℕ) (e : Fin 4) :
    (if h : e.val = 0 then 0 else ∑ e' : Fin 4, if e' ≤ (⟨e.val - 1, by omega⟩ : Fin 4) then f e' else 0)
      = ∑ e' : Fin 4, if e' < e then f e' else 0 := by
  fin_cases e <;> simp only [Fin.sum_univ_four] <;> rfl

section Route
variable (ids : Fin 8192 → Fin 4)

/-- The shifted running sum of the counts spells each expert's first sorted position. -/
theorem ustartS_spells (v9 : IVec S4 32) (h9 : ∀ e, v9 (ix1 e) = BitVec.ofNat 32 (cnt ids e)) (e : Fin 4) :
    shiftS (cumsumS v9) (ix1 e) = BitVec.ofNat 32 (ustart ids e) := by
  rw [shiftS_spells (cumsumS v9) (fun e => ∑ e' : Fin 4, if e' ≤ e then cnt ids e' else 0)
    (cumsumS_spells v9 (cnt ids) h9 fun e => (cnt_le ids e).trans (by norm_num)) e, shift_sum]
  rfl

/-- The shifted running sum of the padded counts spells each expert's first padded row. -/
theorem pstartS_spells (v9 : IVec S4 32) (h9 : ∀ e, v9 (ix1 e) = BitVec.ofNat 32 (cnt ids e)) (e : Fin 4) :
    shiftS (cumsumS (pcntS v9)) (ix1 e) = BitVec.ofNat 32 (pstart ids e) := by
  rw [shiftS_spells (cumsumS (pcntS v9)) (fun e => ∑ e' : Fin 4, if e' ≤ e then pcnt ids e' else 0)
    (cumsumS_spells (pcntS v9) (pcnt ids) (pcntS_spells ids v9 h9) fun e => (pcnt_le ids e).trans (by norm_num)) e, shift_sum]
  rfl

/-- The running sum of the padded counts spells one past each expert's last padded row. -/
theorem pendS_spells (v9 : IVec S4 32) (h9 : ∀ e, v9 (ix1 e) = BitVec.ofNat 32 (cnt ids e)) (e : Fin 4) :
    cumsumS (pcntS v9) (ix1 e) = BitVec.ofNat 32 (pend ids e) :=
  cumsumS_spells (pcntS v9) (pcnt ids) (pcntS_spells ids v9 h9) (fun e => (pcnt_le ids e).trans (by norm_num)) e

end Route

/-! ## The tiles' experts -/

section Tiles
variable (ids : Fin 8192 → Fin 4)

/-- The bit at (tile, e) is set exactly when expert e's padded group ends at or before row `512 · tile`: both words are
    below 2³¹, so the signed comparison is the comparison of the values, and `512 · tile` does not wrap. -/
theorem eid_mask_iff (v77 : IVec S4 32) (h77 : ∀ e, v77 (ix1 e) = BitVec.ofNat 32 (pend ids e)) (tile : Fin 20) (e : Fin 4) :
    eidMask v77 (StableHlo.Predicate.ij tile e) = 1#1 ↔ pend ids e ≤ tile.val * 512 := by
  have ht := tile.isLt
  have hp := pend_le ids e
  have hm : muli (iotaInDim S20 32 0) (broadcastInDim S20 ![] bcast_S_S20 (constantI S_ 32 512#32)) (Shape.Idx.ofFin tile)
      = BitVec.ofNat 32 (tile.val * 512) := by
    show IntOp.muli (BitVec.ofNat 32 tile.val) 512#32 = _
    apply BitVec.eq_of_toNat_eq
    simp only [IntOp.muli, BitVec.toNat_mul, BitVec.toNat_ofNat]
    omega
  show IntOp.cmpi .sge
      (broadcastInDim S20x4 ![0, 1] bcast_S20x1_S20x4_0_1 (broadcastInDim S20x1 ![0] bcast_S20_S20x1_0
        (muli (iotaInDim S20 32 0) (broadcastInDim S20 ![] bcast_S_S20 (constantI S_ 32 512#32)))) (StableHlo.Predicate.ij tile e))
      (broadcastInDim S20x4 ![0, 1] bcast_S1x4_S20x4_0_1 (broadcastInDim S1x4 ![1] bcast_S4_S1x4_1 v77) (StableHlo.Predicate.ij tile e))
      = 1#1 ↔ _
  rw [StableHlo.Predicate.bcast_rows, StableHlo.Predicate.bcast_cols, hm, ofFin_eq_ix1 e, h77]
  have h1 : (BitVec.ofNat 32 (tile.val * 512)).toNat = tile.val * 512 := by
    rw [BitVec.toNat_ofNat]; exact Nat.mod_eq_of_lt (by omega)
  have h2 : (BitVec.ofNat 32 (pend ids e)).toNat = pend ids e := by
    rw [BitVec.toNat_ofNat]; exact Nat.mod_eq_of_lt (by omega)
  rw [StableHlo.Predicate.sge_iff_toNat (by rw [h1]; omega) (by rw [h2]; omega), h1, h2]

/-- The row sums of that table, capped at 3, spell each tile's expert. -/
theorem eidS_spells (v77 : IVec S4 32) (h77 : ∀ e, v77 (ix1 e) = BitVec.ofNat 32 (pend ids e)) (tile : Fin 20) :
    eidS v77 (ix1 tile) = BitVec.ofNat 32 (tileExpert ids tile.val) := by
  apply eq_ofNat_of_toNat
  rw [eidS_eq]
  have hcount : (Host.reduce IntOp.addi (extui 32 (eidMask v77) natLt_1_32) (constantI S_ 32 0#32) reducesTo_S20x4_S20_d1 h_S_
      (ix1 tile)).toNat = (Finset.univ.filter fun e : Fin 4 => pend ids e ≤ tile.val * 512).card := by
    rw [StableHlo.Predicate.toNat_reduce_count_cols (by norm_num)]
    exact congrArg Finset.card (Finset.filter_congr fun e _ => eid_mask_iff ids v77 h77 tile e)
  have hle : (Finset.univ.filter fun e : Fin 4 => pend ids e ≤ tile.val * 512).card ≤ 4 :=
    (Finset.card_filter_le _ _).trans (le_of_eq (by rw [Finset.card_univ, Fintype.card_fin]))
  rw [WordArith.toNat_minsi_of_lt _ _ (by rw [hcount]; omega) (by decide), hcount]
  rfl

end Tiles

end Cert.KernelIdeal.Decode
-- ==== Proof.LibArgsort.lean ====
/-
  Facts about an argsort: a rank-1 stable sort of two operands — the keys and a payload (an iota, as jax's
  argsort writes it) — by signed less-than on the keys. The sort reads both operands through ONE self-map of the
  positions, "perm keys", a function of the keys alone: a bijection, along which the keys are non-decreasing
  as signed integers, and which keeps the operand's order between equal keys.
-/
import Idealize.ShloMosaic.PureOps
import Idealize.ShloMosaic.Lib.SortFacts
import Idealize.ShloMosaic.Lib.ValueIdx

namespace Idealize.ShloMosaic.Argsort

open Idealize.ShloMosaic

/-- The two spellings of the rank-1 index at position k agree. -/
theorem ofFin_eq_ix1 {n : ℕ} (k : Fin n) : Shape.Idx.ofFin k = ValueIdx.ix1 k := by
  funext d; match d with | ⟨0, _⟩ => exact Fin.ext rfl

/-- "Position k's key sorts strictly before position k''s": signed less-than on the keys. -/
def before {n : ℕ} (keys : IVec ⟨1, ![n]⟩ 32) (k k' : Fin n) : Bool :=
  IntOp.cmpi .slt (keys (Shape.Idx.ofFin k)) (keys (Shape.Idx.ofFin k')) == 1#1

/-- The sorting permutation of the keys: perm keys j is the SOURCE position of sorted position j under the
    stable sort by signed less-than. -/
def perm {n : ℕ} (keys : IVec ⟨1, ![n]⟩ 32) : Fin n → Fin n := sortedFrom (before keys)

/-- The comparison bit is set exactly when the left word is below the right one as signed integers. -/
theorem before_iff {n : ℕ} (keys : IVec ⟨1, ![n]⟩ 32) (k k' : Fin n) :
    before keys k k' = true ↔ (keys (Shape.Idx.ofFin k)).toInt < (keys (Shape.Idx.ofFin k')).toInt := by
  unfold before IntOp.cmpi
  simp only [beq_iff_eq]
  cases h : (keys (Shape.Idx.ofFin k)).slt (keys (Shape.Idx.ofFin k'))
  · simp [BitVec.slt_iff_toInt_lt.not.mp (by simpa using h)]
  · simp [BitVec.slt_iff_toInt_lt.mp h]

/-- No two sorted positions share a source. -/
theorem perm_injective {n : ℕ} (keys : IVec ⟨1, ![n]⟩ 32) : Function.Injective (perm keys) :=
  sortedFrom_injective _

/-- Every position is some sorted position's source. -/
theorem perm_surjective {n : ℕ} (keys : IVec ⟨1, ![n]⟩ 32) : Function.Surjective (perm keys) :=
  sortedFrom_surjective _

/-- The sorting permutation is a bijection of the positions. -/
theorem perm_bijective {n : ℕ} (keys : IVec ⟨1, ![n]⟩ 32) : Function.Bijective (perm keys) :=
  ⟨perm_injective keys, perm_surjective keys⟩

/-- The comparison bit is clear exactly when the right word is at most the left one as signed integers. -/
theorem before_eq_false_iff {n : ℕ} (keys : IVec ⟨1, ![n]⟩ 32) (k k' : Fin n) :
    before keys k k' = false ↔ (keys (Shape.Idx.ofFin k')).toInt ≤ (keys (Shape.Idx.ofFin k)).toInt := by
  rw [← not_lt, ← before_iff, Bool.not_eq_true]

/-- Along the sorting permutation the keys are non-decreasing as signed integers. -/
theorem perm_sorted {n : ℕ} (keys : IVec ⟨1, ![n]⟩ 32) (i j : Fin n) (hij : i ≤ j) :
    (keys (Shape.Idx.ofFin (perm keys i))).toInt ≤ (keys (Shape.Idx.ofFin (perm keys j))).toInt := by
  rcases eq_or_lt_of_le hij with rfl | hlt
  · exact le_refl _
  · refine (before_eq_false_iff keys _ _).mp
      (sortedFrom_noInversion (before keys) (before keys) ?_ (fun _ _ h => h) ?_ i j hlt)
    · -- signed less-than is asymmetric
      intro a b hab
      rw [before_iff] at hab
      rw [before_eq_false_iff]
      exact le_of_lt hab
    · -- "not below" is transitive
      intro a b c hab hbc
      rw [before_eq_false_iff] at hab hbc ⊢
      exact le_trans hbc hab

/-- The printed two-operand sort, read at any index: both results read their operand at the source position
    the keys' permutation names; the comparator sees the pairs and reads only the keys. -/
theorem sort2_apply {n : ℕ} {β : Type} (cmp : BitVec 32 × β → BitVec 32 × β → BitVec 1)
    (hcmp : ∀ l r, cmp l r = IntOp.cmpi .slt l.1 r.1) (keys : IVec ⟨1, ![n]⟩ 32) (y : (⟨1, ![n]⟩ : Shape).Idx → β)
    (j : (⟨1, ![n]⟩ : Shape).Idx) :
    (Host.sort2 ⟨1, ![n]⟩ 0 cmp keys y).1 j = keys (Shape.Idx.ofFin (perm keys (j 0)))
      ∧ (Host.sort2 ⟨1, ![n]⟩ 0 cmp keys y).2 j = y (Shape.Idx.ofFin (perm keys (j 0))) := by
  unfold Host.sort2
  simp only [hcmp]
  simp only [Order.lt_one_iff, ↓reduceDIte, Fin.zero_eta, Fin.isValue, Matrix.cons_val_zero,
    Shape.Idx.along_rank1]
  unfold perm before
  exact ⟨rfl, rfl⟩

/-- The sorted keys: sorted position j holds the key of source position perm keys j. -/
theorem sort2_fst {n : ℕ} {β : Type} (cmp : BitVec 32 × β → BitVec 32 × β → BitVec 1)
    (hcmp : ∀ l r, cmp l r = IntOp.cmpi .slt l.1 r.1) (keys : IVec ⟨1, ![n]⟩ 32) (y : (⟨1, ![n]⟩ : Shape).Idx → β)
    (j : Fin n) :
    (Host.sort2 ⟨1, ![n]⟩ 0 cmp keys y).1 (Shape.Idx.ofFin j) = keys (Shape.Idx.ofFin (perm keys j)) :=
  (sort2_apply cmp hcmp keys y (Shape.Idx.ofFin j)).1

/-- The carried operand, whatever it is: sorted position j holds its entry at source position perm keys j. -/
theorem sort2_snd {n : ℕ} {β : Type} (cmp : BitVec 32 × β → BitVec 32 × β → BitVec 1)
    (hcmp : ∀ l r, cmp l r = IntOp.cmpi .slt l.1 r.1) (keys : IVec ⟨1, ![n]⟩ 32) (y : (⟨1, ![n]⟩ : Shape).Idx → β)
    (j : Fin n) :
    (Host.sort2 ⟨1, ![n]⟩ 0 cmp keys y).2 (Shape.Idx.ofFin j) = y (Shape.Idx.ofFin (perm keys j)) :=
  (sort2_apply cmp hcmp keys y (Shape.Idx.ofFin j)).2

/-- The sorted keys as a function of the index. -/
theorem sort2_fst_eq {n : ℕ} {β : Type} (cmp : BitVec 32 × β → BitVec 32 × β → BitVec 1)
    (hcmp : ∀ l r, cmp l r = IntOp.cmpi .slt l.1 r.1) (keys : IVec ⟨1, ![n]⟩ 32) (y : (⟨1, ![n]⟩ : Shape).Idx → β) :
    (Host.sort2 ⟨1, ![n]⟩ 0 cmp keys y).1 = fun j => keys (Shape.Idx.ofFin (perm keys (j 0))) :=
  funext fun j => (sort2_apply cmp hcmp keys y j).1

/-- The carried operand after the sort as a function of the index. -/
theorem sort2_snd_eq {n : ℕ} {β : Type} (cmp : BitVec 32 × β → BitVec 32 × β → BitVec 1)
    (hcmp : ∀ l r, cmp l r = IntOp.cmpi .slt l.1 r.1) (keys : IVec ⟨1, ![n]⟩ 32) (y : (⟨1, ![n]⟩ : Shape).Idx → β) :
    (Host.sort2 ⟨1, ![n]⟩ 0 cmp keys y).2 = fun j => y (Shape.Idx.ofFin (perm keys (j 0))) :=
  funext fun j => (sort2_apply cmp hcmp keys y j).2

/-- The argsort proper: with an iota carried, sorted position j holds the word of its source position. -/
theorem sort2_snd_iota {n : ℕ} (cmp : BitVec 32 × BitVec 32 → BitVec 32 × BitVec 32 → BitVec 1)
    (hcmp : ∀ l r, cmp l r = IntOp.cmpi .slt l.1 r.1) (keys : IVec ⟨1, ![n]⟩ 32) (j : Fin n) :
    (Host.sort2 ⟨1, ![n]⟩ 0 cmp keys (iotaInDim ⟨1, ![n]⟩ 32 0)).2 (Shape.Idx.ofFin j)
      = BitVec.ofNat 32 (perm keys j).val := by
  rw [sort2_snd cmp hcmp]
  rfl

/-! ## Stability

The insertion sort places an element, which precedes in the operand every element already placed, before the
first placed element that does not sort strictly before it: so of two elements the FIRST of which the comparator
does not put strictly before the second, the first in the result is the earlier in the operand. No property of the
relation is used. -/

/-- Inserting an element that precedes every placed one keeps: a result pair the relation does not put strictly
    in result order is in the operand's order. -/
theorem pairwise_insertBefore_stable {ι : Type} (R : ι → ι → Bool) (lt : ι → ι → Prop) (a : ι) (l : List ι)
    (ha : ∀ c ∈ l, lt a c) (hl : l.Pairwise fun x y => R x y = false → lt x y) :
    (insertBefore R a l).Pairwise fun x y => R x y = false → lt x y := by
  induction l with
  | nil => exact List.pairwise_singleton _ _
  | cons b l ih =>
    rw [List.pairwise_cons] at hl
    unfold insertBefore
    split
    · rename_i h
      refine List.pairwise_cons.mpr
        ⟨fun c hc => ?_, ih (fun c hc => ha c (List.mem_cons_of_mem b hc)) hl.2⟩
      rcases List.mem_cons.mp ((perm_insertBefore R a l).mem_iff.mp hc) with rfl | hc'
      · intro hf
        rw [h] at hf
        exact absurd hf (by decide)
      · exact hl.1 c hc'
    · exact List.pairwise_cons.mpr ⟨fun c hc _ => ha c hc, List.pairwise_cons.mpr hl⟩

/-- The insertion sort of a list in order: a result pair the relation does not put strictly in result order is
    in the list's order. -/
theorem pairwise_stableSort_stable {ι : Type} (R : ι → ι → Bool) (lt : ι → ι → Prop) (l : List ι)
    (hl : l.Pairwise lt) : (stableSort R l).Pairwise fun x y => R x y = false → lt x y := by
  induction l with
  | nil => exact List.Pairwise.nil
  | cons a l ih =>
    rw [List.pairwise_cons] at hl
    unfold stableSort
    exact pairwise_insertBefore_stable R lt a _
      (fun c hc => hl.1 c ((perm_stableSort R l).mem_iff.mp hc)) (ih hl.2)

/-- Two sorted positions in order, the first of whose sources the relation does not put strictly before the
    second's, have their sources in order: the stable sort keeps the operand's order where it can. -/
theorem sortedFrom_stable {n : ℕ} (R : Fin n → Fin n → Bool) (i j : Fin n) (hij : i < j)
    (h : R (sortedFrom R i) (sortedFrom R j) = false) : sortedFrom R i < sortedFrom R j := by
  have hp : ∀ a b : Fin (sortPositions n R).length, a < b →
      R ((sortPositions n R).get a) ((sortPositions n R).get b) = false →
        (sortPositions n R).get a < (sortPositions n R).get b :=
    List.pairwise_iff_get.mp
      (pairwise_stableSort_stable R (· < ·) (List.finRange n) (List.sortedLT_finRange n).pairwise)
  unfold sortedFrom at h ⊢
  exact hp _ _ (by simp only [Fin.lt_def, Fin.val_cast]; exact hij) h

/-- The argsort is stable: of two sorted positions in order whose keys do not strictly increase (hence are
    equal, by perm_sorted), the source positions are in order. -/
theorem perm_stable {n : ℕ} (keys : IVec ⟨1, ![n]⟩ 32) (i j : Fin n) (hij : i < j)
    (h : (keys (Shape.Idx.ofFin (perm keys j))).toInt ≤ (keys (Shape.Idx.ofFin (perm keys i))).toInt) :
    perm keys i < perm keys j :=
  sortedFrom_stable (before keys) i j hij ((before_eq_false_iff keys _ _).mpr h)

/-- Along the sorting permutation the pair (key, source position) increases strictly in the lexicographic
    order: what determines the permutation. -/
theorem perm_lex {n : ℕ} (keys : IVec ⟨1, ![n]⟩ 32) (i j : Fin n) (hij : i < j) :
    (keys (Shape.Idx.ofFin (perm keys i))).toInt < (keys (Shape.Idx.ofFin (perm keys j))).toInt
      ∨ ((keys (Shape.Idx.ofFin (perm keys i))).toInt = (keys (Shape.Idx.ofFin (perm keys j))).toInt
          ∧ perm keys i < perm keys j) := by
  rcases lt_or_eq_of_le (perm_sorted keys i j (le_of_lt hij)) with hlt | heq
  · exact Or.inl hlt
  · exact Or.inr ⟨heq, perm_stable keys i j hij (le_of_eq heq.symm)⟩

/-! ## The same reads, at the index spelled by its coordinate -/

/-- The sorted keys at the index of coordinate j. -/
theorem sort2_fst_ix1 {n : ℕ} {β : Type} (cmp : BitVec 32 × β → BitVec 32 × β → BitVec 1)
    (hcmp : ∀ l r, cmp l r = IntOp.cmpi .slt l.1 r.1) (keys : IVec ⟨1, ![n]⟩ 32) (y : (⟨1, ![n]⟩ : Shape).Idx → β)
    (j : Fin n) :
    (Host.sort2 ⟨1, ![n]⟩ 0 cmp keys y).1 (ValueIdx.ix1 j) = keys (ValueIdx.ix1 (perm keys j)) := by
  rw [← ofFin_eq_ix1, ← ofFin_eq_ix1]
  exact sort2_fst cmp hcmp keys y j

/-- The carried operand after the sort at the index of coordinate j. -/
theorem sort2_snd_ix1 {n : ℕ} {β : Type} (cmp : BitVec 32 × β → BitVec 32 × β → BitVec 1)
    (hcmp : ∀ l r, cmp l r = IntOp.cmpi .slt l.1 r.1) (keys : IVec ⟨1, ![n]⟩ 32) (y : (⟨1, ![n]⟩ : Shape).Idx → β)
    (j : Fin n) :
    (Host.sort2 ⟨1, ![n]⟩ 0 cmp keys y).2 (ValueIdx.ix1 j) = y (ValueIdx.ix1 (perm keys j)) := by
  rw [← ofFin_eq_ix1, ← ofFin_eq_ix1]
  exact sort2_snd cmp hcmp keys y j

end Idealize.ShloMosaic.Argsort
-- ==== Proof.DecodeSort.lean ====
/-
  The sorted order and the padded places, decoded: the stable sort of the expert words is a sorting of the tokens
  by expert, the carried numbers spell the sorting permutation, a table read through small non-negative words is
  the table at those numbers, and the place of each sorted token spells its padded row.
-/
import proofs.«413600_j1477468749957_2_alg».proof.Proof.HostStages
import proofs.«413600_j1477468749957_2_alg».proof.Proof.RouteMath
import proofs.«413600_j1477468749957_2_alg».proof.Proof.LibArgsort
import Idealize.ShloMosaic.Lib.StableHlo.Predicate
import Idealize.ShloMosaic.Lib.ValueIdx

namespace Cert.KernelIdeal.Decode

open Idealize.ShloMosaic Idealize.ShloMosaic.ValueIdx Cert.KernelIdeal Cert.KernelIdeal.Gen Cert.KernelIdeal.Stages Cert.RouteMath

/-! ## Words -/

/-- A difference of small words that does not go below zero is the word of the difference. -/
theorem ofNat_sub_ofNat (a b : ℕ) (hba : b ≤ a) (ha : a < 2 ^ 32) :
    BitVec.ofNat 32 a - BitVec.ofNat 32 b = BitVec.ofNat 32 (a - b) := by
  apply BitVec.eq_of_toNat_eq
  simp only [BitVec.toNat_sub, BitVec.toNat_ofNat]
  omega

/-- A sum of words is the word of the sum. -/
theorem ofNat_add_ofNat (a b : ℕ) : BitVec.ofNat 32 a + BitVec.ofNat 32 b = BitVec.ofNat 32 (a + b) := by
  apply BitVec.eq_of_toNat_eq
  simp only [BitVec.toNat_add, BitVec.toNat_ofNat]
  omega

/-- A word below 2³¹ is not below zero as a signed integer. -/
theorem slt_zero_ofNat_small (a : ℕ) (ha : a < 2 ^ 31) : IntOp.cmpi .slt (BitVec.ofNat 32 a) 0#32 = 0#1 := by
  apply eq_zero_of_ne_one
  intro h
  have h' := (StableHlo.Predicate.slt_iff_toNat (a := BitVec.ofNat 32 a) (b := 0#32)
    (by rw [BitVec.toNat_ofNat]; omega) (by decide)).mp h
  have h0 : (0#32 : BitVec 32).toNat = 0 := rfl
  omega

/-! ## The sort -/

section
variable (ids : Fin 8192 → Fin 4)

/-- The stable sort's permutation of words that spell the experts sorts the tokens by expert. -/
theorem sorts (v1 : IVec S8192 32) (h1 : ∀ t, v1 (ix1 t) = BitVec.ofNat 32 (ids t).val) :
    Cert.RouteMath.Sorts ids (Idealize.ShloMosaic.Argsort.perm v1) := by
  refine ⟨Argsort.perm_bijective v1, fun i j hij => ?_⟩
  have h := Argsort.perm_sorted v1 i j hij
  rw [Argsort.ofFin_eq_ix1, Argsort.ofFin_eq_ix1, h1, h1,
    StableHlo.Predicate.toInt_ofNat_small _ (lt_trans (ids _).isLt (by norm_num)),
    StableHlo.Predicate.toInt_ofNat_small _ (lt_trans (ids _).isLt (by norm_num))] at h
  exact Fin.le_def.mpr (by exact_mod_cast h)

end

/-- The carried numbers after the sort spell the sorting permutation. -/
theorem sortIdxS_spells (v1 : IVec S8192 32) (j : Fin 8192) :
    sortIdxS v1 (ix1 j) = BitVec.ofNat 32 (Idealize.ShloMosaic.Argsort.perm v1 j).val := by
  unfold sortIdxS
  rw [← Argsort.ofFin_eq_ix1]
  exact Argsort.sort2_snd_iota Cert.KernelIdeal.comparator_i32_i32_d0 (fun _ _ => rfl) v1 j

/-! ## Index normalisation -/

/-- A small non-negative word is not below zero: the normalisation keeps it. -/
theorem normS_small (n : BitVec 32) (x : IVec S8192 32) (f : Fin 8192 → ℕ) (hx : ∀ k, x (ix1 k) = BitVec.ofNat 32 (f k))
    (hf : ∀ k, f k < 2 ^ 31) (k : Fin 8192) : normS n x (ix1 k) = BitVec.ofNat 32 (f k) := by
  unfold normS
  rw [select_apply]
  have hc : cmpi .slt x (splat8192 0#32) (ix1 k) = 0#1 := by
    show IntOp.cmpi .slt (x (ix1 k)) 0#32 = 0#1
    rw [hx]
    exact slt_zero_ofNat_small _ (hf k)
  rw [hc, select_zero, hx]

/-! ## Reads of a table through small non-negative words -/

/-- jnp's table[idx] over a rank-1 table, the indices normalised and laid as a column: where the index words spell
    positions inside the table, the read is the table at those positions (the clamp does nothing). -/
theorem take_read {α : Type} {N : ℕ} (d : GatherDims ⟨1, ![N]⟩ S8192x1 S8192)
    (hcoll : d.collapsedSliceDims = [0]) (hob : d.operandBatchingDims = [])
    (hsim : d.startIndexMap = [0]) (hivd : d.indexVectorDim = 1)
    (tab : (⟨1, ![N]⟩ : Shape).Idx → α) (n : BitVec 32) (x : IVec S8192 32) (p : Fin 8192 → Fin N)
    (hx : ∀ j, x (ix1 j) = BitVec.ofNat 32 (p j).val) (hN : N < 2 ^ 31) (j : Fin 8192) :
    Host.gather d tab (broadcastInDim S8192x1 ![0] bcast_S8192_S8192x1_0 (normS n x)) (ix1 j) = tab (ix1 (p j)) := by
  have hp : ∀ k, (p k).val < 2 ^ 31 := fun k => lt_trans (p k).isLt hN
  have e := StableHlo.Predicate.gather_take d hcoll hob hsim hivd tab
    (broadcastInDim S8192x1 ![0] bcast_S8192_S8192x1_0 (normS n x)) j (Nat.lt_of_le_of_lt (Nat.zero_le _) (p j).isLt)
  rw [Argsort.ofFin_eq_ix1, Argsort.ofFin_eq_ix1] at e
  rw [e]
  congr 2
  apply Fin.ext
  show min ((broadcastInDim S8192x1 ![0] bcast_S8192_S8192x1_0 (normS n x)) (StableHlo.Predicate.ixP j)).toInt.toNat (N - 1) = (p j).val
  rw [StableHlo.Predicate.bcast_col1, Argsort.ofFin_eq_ix1, normS_small n x (fun k => (p k).val) hx hp j,
    StableHlo.Predicate.toInt_ofNat_small _ (hp j), Int.toNat_natCast]
  have := (p j).isLt
  omega

section
variable (ids : Fin 8192 → Fin 4)

/-- The expert of each sorted token: the expert words read through the sorting permutation. -/
theorem sortedModS_spells (v1 : IVec S8192 32) (h1 : ∀ t, v1 (ix1 t) = BitVec.ofNat 32 (ids t).val) (v25 : IVec S8192 32)
    (h25 : ∀ j, v25 (ix1 j) = BitVec.ofNat 32 (Idealize.ShloMosaic.Argsort.perm v1 j).val) (j : Fin 8192) :
    sortedModS v1 v25 (ix1 j) = BitVec.ofNat 32 (ids (Idealize.ShloMosaic.Argsort.perm v1 j)).val := by
  unfold sortedModS
  rw [take_read gather_S8192_S8192x1_S8192_n_0_n_n_0_1_1 rfl rfl rfl rfl v1 8192#32 v25
    (Idealize.ShloMosaic.Argsort.perm v1) h25 (by norm_num) j, h1]

end

/-- A four-entry table read at each sorted token's expert. -/
theorem takeS_spells (tab : IVec S4 32) (g : Fin 4 → ℕ) (htab : ∀ e, tab (ix1 e) = BitVec.ofNat 32 (g e)) (v32 : IVec S8192 32)
    (es : Fin 8192 → Fin 4) (h32 : ∀ j, v32 (ix1 j) = BitVec.ofNat 32 (es j).val) (j : Fin 8192) :
    takeS tab v32 (ix1 j) = BitVec.ofNat 32 (g (es j)) := by
  unfold takeS
  rw [take_read gather_S4_S8192x1_S8192_n_0_n_n_0_1_1 rfl rfl rfl rfl tab 4#32 v32 es h32 (by norm_num) j, htab]

/-! ## The padded place of a sorted token -/

section
variable (ids : Fin 8192 → Fin 4)

/-- The place of sorted token j spells its padded row: its group's padded start plus its rank in the group. The
    rank does not go below zero (the group starts at or before j), so the difference of the words is the word of
    the difference; a sum of words is always the word of the sum. -/
theorem destS_spells (v20 v24 : IVec S4 32) (h20 : ∀ e, v20 (ix1 e) = BitVec.ofNat 32 (ustart ids e))
    (h24 : ∀ e, v24 (ix1 e) = BitVec.ofNat 32 (pstart ids e)) (v32 : IVec S8192 32) (σ : Fin 8192 → Fin 8192)
    (hs : Cert.RouteMath.Sorts ids σ) (h32 : ∀ j, v32 (ix1 j) = BitVec.ofNat 32 (ids (σ j)).val) (j : Fin 8192) :
    destS v20 v24 v32 (ix1 j) = BitVec.ofNat 32 (dest ids σ j) := by
  unfold destS
  show IntOp.addi (takeS v24 v32 (ix1 j)) (IntOp.subi (iotaInDim S8192 32 0 (ix1 j)) (takeS v20 v32 (ix1 j))) = _
  rw [takeS_spells v24 (pstart ids) h24 v32 (fun k => ids (σ k)) h32 j,
    takeS_spells v20 (ustart ids) h20 v32 (fun k => ids (σ k)) h32 j]
  show BitVec.ofNat 32 (pstart ids (ids (σ j))) + (BitVec.ofNat 32 j.val - BitVec.ofNat 32 (ustart ids (ids (σ j)))) = _
  rw [ofNat_sub_ofNat _ _ (ustart_le_pos ids σ hs j) (lt_trans j.isLt (by norm_num)), ofNat_add_ofNat]
  rfl

end

end Cert.KernelIdeal.Decode
-- ==== Proof.LibScatterSet.lean ====
/-
  THE SET-SCATTER READ AT AN ELEMENT. `stablehlo.scatter` whose body returns the update (jax's `x.at[idx].set(v)`)
  writes each update at the operand index its start index names, in the row-major order of the updates, and drops an
  update whose target leaves the operand. When the in-range targets are pairwise distinct, the result at an operand
  index that some update targets is that update, and at an index no update targets it is the operand. Stated first at
  any shapes and dimension numbers, then for the rank-1 instance that `x.at[idx].set(v)` of flat arrays lowers to
  (operand [N], scatter indices [n × 1], updates [n]; the operand's one axis inserted and start-indexed, the index
  vector on axis 1), where an update's target is its start index read signed, kept when it is inside the operand.
-/
import Idealize.ShloMosaic.PureOps
import Idealize.ShloMosaic.Lib.ValueIdx
import Idealize.ShloMosaic.Lib.SortFacts
import Idealize.ShloMosaic.Lib.StableHlo.Predicate

namespace Idealize.ShloMosaic.ScatterSet

open Idealize.ShloMosaic
open Idealize.ShloMosaic.ValueIdx

/-! ## The fold of writes, read at one operand index -/

section General

variable {s si u : Shape} {α : Type} {w : Nat}

/-- One write of the set-scatter: the update at row-major position `k` goes to its target, when it has one. -/
private abbrev step (d : ScatterDims s si u) (idx : IVec si w) (upd : u.Idx → α) (r : s.Idx → α) (k : Fin u.numel) :
    s.Idx → α :=
  match d.resultIdx? (u.rowMajor.symm k) idx with
  | some i => fun i' => if i' = i then (fun (_ b : α) => b) (r i) (upd (u.rowMajor.symm k)) else r i'
  | none => r

/-- A write whose target is not `i` leaves the value at `i`. -/
private theorem step_of_ne (d : ScatterDims s si u) (idx : IVec si w) (upd : u.Idx → α) (r : s.Idx → α)
    (k : Fin u.numel) (i : s.Idx) (h : d.resultIdx? (u.rowMajor.symm k) idx ≠ some i) :
    step d idx upd r k i = r i := by
  unfold step
  generalize d.resultIdx? (u.rowMajor.symm k) idx = o at h ⊢
  cases o with
  | none => rfl
  | some j =>
    have hne : i ≠ j := fun e => h (by rw [e])
    show (if i = j then _ else r i) = r i
    rw [if_neg hne]

/-- A write whose target is `i` puts its update at `i`. -/
private theorem step_of_eq (d : ScatterDims s si u) (idx : IVec si w) (upd : u.Idx → α) (r : s.Idx → α)
    (k : Fin u.numel) (i : s.Idx) (h : d.resultIdx? (u.rowMajor.symm k) idx = some i) :
    step d idx upd r k i = upd (u.rowMajor.symm k) := by
  unfold step
  rw [h]
  show (if i = i then upd (u.rowMajor.symm k) else r i) = upd (u.rowMajor.symm k)
  rw [if_pos rfl]

/-- Folding writes none of which targets `i` leaves the value at `i`. -/
theorem foldl_miss (d : ScatterDims s si u) (idx : IVec si w) (upd : u.Idx → α) (i : s.Idx) :
    ∀ (l : List (Fin u.numel)) (r : s.Idx → α),
      (∀ k ∈ l, d.resultIdx? (u.rowMajor.symm k) idx ≠ some i) →
      l.foldl (fun r n =>
          match d.resultIdx? (u.rowMajor.symm n) idx with
          | some i => fun i' => if i' = i then (fun (_ b : α) => b) (r i) (upd (u.rowMajor.symm n)) else r i'
          | none => r) r i = r i := by
  intro l
  induction l with
  | nil => intro r _; rfl
  | cons a t ih =>
    intro r h
    rw [List.foldl_cons, ih _ (fun k hk => h k (List.mem_cons_of_mem _ hk))]
    exact step_of_ne d idx upd r a i (h a List.mem_cons_self)

/-- Folding writes of which exactly the position `k` (present in the list) targets `i` leaves `k`'s update at `i`. -/
theorem foldl_hit (d : ScatterDims s si u) (idx : IVec si w) (upd : u.Idx → α) (i : s.Idx) (k : Fin u.numel)
    (hk : d.resultIdx? (u.rowMajor.symm k) idx = some i) :
    ∀ (l : List (Fin u.numel)) (r : s.Idx → α), k ∈ l →
      (∀ k' ∈ l, d.resultIdx? (u.rowMajor.symm k') idx = some i → k' = k) →
      l.foldl (fun r n =>
          match d.resultIdx? (u.rowMajor.symm n) idx with
          | some i => fun i' => if i' = i then (fun (_ b : α) => b) (r i) (upd (u.rowMajor.symm n)) else r i'
          | none => r) r i = upd (u.rowMajor.symm k) := by
  intro l
  induction l with
  | nil => intro r hmem _; exact absurd hmem (by simp)
  | cons a t ih =>
    intro r hmem huniq
    rw [List.foldl_cons]
    by_cases hkt : k ∈ t
    · exact ih _ hkt (fun k' hk' => huniq k' (List.mem_cons_of_mem _ hk'))
    · have hak : a = k := by
        rcases List.mem_cons.1 hmem with e | e
        · exact e.symm
        · exact absurd e hkt
      subst hak
      rw [foldl_miss d idx upd i t _ (fun k' hk' e => hkt (huniq k' (List.mem_cons_of_mem _ hk') e ▸ hk'))]
      exact step_of_eq d idx upd r a i hk

/-- THE SET-SCATTER AT AN INDEX NO UPDATE TARGETS is the operand there. -/
theorem scatter_set_miss (d : ScatterDims s si u) (x : s.Idx → α) (idx : IVec si w) (upd : u.Idx → α) (i : s.Idx)
    (h : ∀ n : u.Idx, d.resultIdx? n idx ≠ some i) :
    Host.scatter d (fun _ b => b) x idx upd i = x i :=
  foldl_miss d idx upd i _ x (fun k _ => h _)

/-- THE SET-SCATTER AT AN INDEX AN UPDATE TARGETS, when the in-range targets are pairwise distinct (`hinj`), is that
    update. -/
theorem scatter_set_hit (d : ScatterDims s si u) (x : s.Idx → α) (idx : IVec si w) (upd : u.Idx → α)
    (hinj : ∀ (n n' : u.Idx) (i : s.Idx), d.resultIdx? n idx = some i → d.resultIdx? n' idx = some i → n = n')
    (n : u.Idx) (i : s.Idx) (h : d.resultIdx? n idx = some i) :
    Host.scatter d (fun _ b => b) x idx upd i = upd n := by
  have hk : d.resultIdx? (u.rowMajor.symm (u.rowMajor n)) idx = some i := by rw [Equiv.symm_apply_apply]; exact h
  have := foldl_hit d idx upd i (u.rowMajor n) hk (List.finRange u.numel) x (List.mem_finRange _)
    (fun k' _ hk' => by
      have e := hinj _ _ i hk' h
      rw [← e, Equiv.apply_symm_apply])
  rw [Equiv.symm_apply_apply] at this
  exact this

end General

/-! ## The rank-1 instance: `x.at[idx].set(v)` of flat arrays -/

section Take

variable {α : Type} {N n : Nat}

/-- In the rank-1 instance the start index of update `k` is read at row `k` of the [n × 1] column of scatter
    indices. -/
private theorem siIdx_take (d : ScatterDims ⟨1, ![N]⟩ ⟨2, ![n, 1]⟩ ⟨1, ![n]⟩)
    (hsd : d.scatterDimsToOperandDims = [0]) (hivd : d.indexVectorDim = 1)
    (k : Fin n) (c : Fin d.scatterDimsToOperandDims.length) :
    d.siIdx (ix1 k) c = ix2 k (0 : Fin 1) := by
  funext b
  match b with
  | ⟨0, _⟩ =>
    unfold ScatterDims.siIdx
    rw [dif_neg (by rw [hivd]; simp)]
    unfold ScatterDims.siCoord
    apply Fin.ext
    simp only [Fin.val_cast]
    have e : ∀ X : Fin 1, ((ix1 k : (⟨1, ![n]⟩ : Shape).Idx) X).val = k.val := fun X => by
      have hX : X = 0 := Subsingleton.elim _ _
      subst hX; rfl
    exact e _
  | ⟨1, _⟩ =>
    unfold ScatterDims.siIdx
    rw [dif_pos (by rw [hivd])]
    apply Fin.ext
    have hl : d.scatterDimsToOperandDims.length = 1 := by rw [hsd]; rfl
    have hc : c.val < 1 := by have := c.isLt; omega
    show c.val = 0
    omega

/-- THE TARGET OF AN UPDATE in the rank-1 instance (operand [N], scatter indices the [n × 1] column, updates [n]; the
    operand's one axis inserted and start-indexed, the index vector on axis 1 — `huw` … `hivd`: the printed dimension
    numbers, each by `rfl`): update `k` lands at its start index read SIGNED and not clamped, when that is inside the
    operand; otherwise it is dropped. -/
theorem resultIdx_take (d : ScatterDims ⟨1, ![N]⟩ ⟨2, ![n, 1]⟩ ⟨1, ![n]⟩)
    (huw : d.updateWindowDims = []) (hiw : d.insertedWindowDims = [0])
    (hsd : d.scatterDimsToOperandDims = [0]) (hivd : d.indexVectorDim = 1)
    (idx : IVec ⟨2, ![n, 1]⟩ 32) (k : Fin n) :
    d.resultIdx? (ix1 k) idx
      = if h : 0 ≤ (idx (ix2 k (0 : Fin 1))).toInt ∧ (idx (ix2 k (0 : Fin 1))).toInt < N then
          some (ix1 ⟨(idx (ix2 k (0 : Fin 1))).toInt.toNat, by omega⟩)
        else none := by
  have hm : (0 : Fin 1) ∈ d.scatterDimsToOperandDims := by rw [hsd]; exact List.mem_singleton.mpr rfl
  have hk : (0 : Fin 1) ∉ d.sKept := by
    simp [ScatterDims.sKept, Shape.kept, hiw]
  have hstart : ∀ a : Fin 1, d.start (ix1 k) idx a = (idx (ix2 k (0 : Fin 1))).toInt := by
    intro a
    have ha : a = 0 := Subsingleton.elim _ _
    subst ha
    unfold ScatterDims.start
    rw [dif_pos hm, siIdx_take d hsd hivd]
  have hwin : ∀ a : Fin 1, d.window (ix1 k) a = 0 := by
    intro a
    have ha : a = 0 := Subsingleton.elim _ _
    subst ha
    unfold ScatterDims.window
    rw [dif_neg hk]
  have hsz : ∀ a : Fin 1, ((⟨1, ![N]⟩ : Shape).size a : Int) = N := by
    intro a
    have ha : a = 0 := Subsingleton.elim _ _
    subst ha
    rfl
  unfold ScatterDims.resultIdx?
  by_cases h : 0 ≤ (idx (ix2 k (0 : Fin 1))).toInt ∧ (idx (ix2 k (0 : Fin 1))).toInt < N
  · rw [dif_pos h, dif_pos (by intro a; rw [hstart, hwin, hsz]; simpa using h)]
    congr 1
    funext a
    have ha : a = 0 := Subsingleton.elim _ _
    subst ha
    apply Fin.ext
    show (d.start (ix1 k) idx 0 + (d.window (ix1 k) 0 : Int)).toNat = (idx (ix2 k (0 : Fin 1))).toInt.toNat
    rw [hstart, hwin]
    simp
  · rw [dif_neg h, dif_neg (fun hall => h (by have := hall 0; rw [hstart, hwin, hsz] at this; simpa using this))]

end Take

/-! ## A table of small naturals as the scatter indices -/

section TakeTable

variable {α : Type} {N n : Nat}

/-- When row `k` of the scatter indices is the word of a natural `f k` below `N < 2³¹`, update `k`'s target is
    position `f k` of the operand. -/
theorem resultIdx_take_ofNat (d : ScatterDims ⟨1, ![N]⟩ ⟨2, ![n, 1]⟩ ⟨1, ![n]⟩)
    (huw : d.updateWindowDims = []) (hiw : d.insertedWindowDims = [0])
    (hsd : d.scatterDimsToOperandDims = [0]) (hivd : d.indexVectorDim = 1)
    (idx : IVec ⟨2, ![n, 1]⟩ 32) (f : Fin n → ℕ)
    (hidx : ∀ k, idx (ix2 k (0 : Fin 1)) = BitVec.ofNat 32 (f k)) (hf : ∀ k, f k < N) (hN : N < 2 ^ 31) (k : Fin n) :
    d.resultIdx? (ix1 k) idx = some (ix1 ⟨f k, hf k⟩) := by
  have ht : (idx (ix2 k (0 : Fin 1))).toInt = (f k : Int) := by
    rw [hidx, StableHlo.Predicate.toInt_ofNat_small _ (by have := hf k; omega)]
  rw [resultIdx_take d huw hiw hsd hivd idx k, dif_pos ⟨by rw [ht]; omega, by rw [ht]; exact_mod_cast hf k⟩]
  refine congrArg some (congrArg ix1 (Fin.ext ?_))
  show (idx (ix2 k (0 : Fin 1))).toInt.toNat = f k
  rw [ht]
  exact Int.toNat_natCast _

/-- THE SET-SCATTER OF A FLAT ARRAY AT A POSITION THE TABLE NAMES: when the scatter indices are the words of an
    injective table `f` of positions below `N < 2³¹`, the result at position `f k` is update `k`. -/
theorem scatter_take_hit (d : ScatterDims ⟨1, ![N]⟩ ⟨2, ![n, 1]⟩ ⟨1, ![n]⟩)
    (huw : d.updateWindowDims = []) (hiw : d.insertedWindowDims = [0])
    (hsd : d.scatterDimsToOperandDims = [0]) (hivd : d.indexVectorDim = 1)
    (x : (⟨1, ![N]⟩ : Shape).Idx → α) (idx : IVec ⟨2, ![n, 1]⟩ 32) (upd : (⟨1, ![n]⟩ : Shape).Idx → α) (f : Fin n → ℕ)
    (hidx : ∀ k, idx (ix2 k (0 : Fin 1)) = BitVec.ofNat 32 (f k)) (hf : ∀ k, f k < N) (hN : N < 2 ^ 31)
    (hfinj : Function.Injective f) (k : Fin n) :
    Host.scatter d (fun _ b => b) x idx upd (ix1 ⟨f k, hf k⟩) = upd (ix1 k) := by
  refine scatter_set_hit d x idx upd ?_ (ix1 k) _ (resultIdx_take_ofNat d huw hiw hsd hivd idx f hidx hf hN k)
  intro m m' i h h'
  obtain ⟨a, rfl⟩ : ∃ a, m = ix1 a := ⟨m 0, eq_ix1 m⟩
  obtain ⟨b, rfl⟩ : ∃ b, m' = ix1 b := ⟨m' 0, eq_ix1 m'⟩
  rw [resultIdx_take_ofNat d huw hiw hsd hivd idx f hidx hf hN] at h h'
  have e : (ix1 ⟨f a, hf a⟩ : (⟨1, ![N]⟩ : Shape).Idx) = ix1 ⟨f b, hf b⟩ := Option.some.inj (h.trans h'.symm)
  have e0 : (⟨f a, hf a⟩ : Fin N) = ⟨f b, hf b⟩ := congrFun e 0
  rw [hfinj (Fin.mk.inj e0)]

/-- THE SET-SCATTER OF A FLAT ARRAY AT A POSITION THE TABLE DOES NOT NAME: when the scatter indices are the words of a
    table `f` of positions below `N < 2³¹`, the result at a position that is no `f k` is the operand there. -/
theorem scatter_take_miss (d : ScatterDims ⟨1, ![N]⟩ ⟨2, ![n, 1]⟩ ⟨1, ![n]⟩)
    (huw : d.updateWindowDims = []) (hiw : d.insertedWindowDims = [0])
    (hsd : d.scatterDimsToOperandDims = [0]) (hivd : d.indexVectorDim = 1)
    (x : (⟨1, ![N]⟩ : Shape).Idx → α) (idx : IVec ⟨2, ![n, 1]⟩ 32) (upd : (⟨1, ![n]⟩ : Shape).Idx → α) (f : Fin n → ℕ)
    (hidx : ∀ k, idx (ix2 k (0 : Fin 1)) = BitVec.ofNat 32 (f k)) (hf : ∀ k, f k < N) (hN : N < 2 ^ 31)
    (i : Fin N) (h : ∀ k, f k ≠ i.val) :
    Host.scatter d (fun _ b => b) x idx upd (ix1 i) = x (ix1 i) := by
  refine scatter_set_miss d x idx upd (ix1 i) ?_
  intro m
  obtain ⟨a, rfl⟩ : ∃ a, m = ix1 a := ⟨m 0, eq_ix1 m⟩
  rw [resultIdx_take_ofNat d huw hiw hsd hivd idx f hidx hf hN]
  intro e
  have e0 : (⟨f a, hf a⟩ : Fin N) = i := congrFun (Option.some.inj e) 0
  exact h a (congrArg Fin.val e0)

end TakeTable

end Idealize.ShloMosaic.ScatterSet
-- ==== Proof.DecodeScatter.lean ====
/-
  The two scatters and the row gather of the routing, read at an element. The sorted order σ lists the tokens by
  expert; sorted position j is placed at padded row dest j. Scattering the places to the tokens' own numbers gives a
  table that at token σ j holds dest j; scattering the tokens' numbers to their places, over a fill, gives a table
  that at row dest j holds σ j; gathering the rows of x (cast to bf16, a zero row appended) through the second table
  reads, at a padded row that holds token t, row t of x cast to bf16.
-/
import proofs.«413600_j1477468749957_2_alg».proof.Proof.HostStages
import proofs.«413600_j1477468749957_2_alg».proof.Proof.RouteMath
import proofs.«413600_j1477468749957_2_alg».proof.Proof.LibScatterSet
import Idealize.ShloMosaic.Lib.ValueIdx
import Idealize.ShloMosaic.Lib.StableHlo.Predicate
import Idealize.ShloMosaic.Lib.Pipeline.Value
import Mathlib.Logic.Equiv.Defs
import Mathlib.Logic.Function.Basic

noncomputable section

namespace Cert.KernelIdeal.Decode

open Idealize.ShloMosaic Idealize.ShloMosaic.ValueIdx Cert.KernelIdeal Cert.KernelIdeal.Gen Cert.KernelIdeal.Stages Cert.RouteMath

/-! ## Words -/

/-- jnp's index normalisation leaves a small non-negative word alone: it is not below zero. -/
theorem norm_word (w n : BitVec 32) (a : ℕ) (hw : w = BitVec.ofNat 32 a) (ha : a < 2 ^ 31) :
    Scalar.select (IntOp.cmpi .slt w 0#32) (IntOp.addi w n) w = w := by
  have hc : IntOp.cmpi .slt w 0#32 = 0#1 := by
    apply eq_zero_of_ne_one
    intro h
    have hlt := (StableHlo.Predicate.slt_iff_toNat (a := w) (b := 0#32)
      (by rw [hw, BitVec.toNat_ofNat]; omega) (by decide)).mp h
    exact absurd hlt (by simp)
  rw [hc, select_zero]

/-- The normalised table of a table of small naturals is the table. -/
theorem normS_small' (n : BitVec 32) (x : IVec S8192 32) (f : Fin 8192 → ℕ)
    (hx : ∀ k, x (ix1 k) = BitVec.ofNat 32 (f k)) (hf : ∀ k, f k < 2 ^ 31) (k : Fin 8192) :
    normS n x (ix1 k) = BitVec.ofNat 32 (f k) := by
  show Scalar.select (IntOp.cmpi .slt (x (ix1 k)) 0#32) (IntOp.addi (x (ix1 k)) n) (x (ix1 k)) = _
  rw [norm_word _ n (f k) (hx k) (hf k), hx k]

/-- A vector kept as an [n × 1] column reads, at (p, 0), the vector at p. -/
theorem bcast_col_ix {α : Type} {n : ℕ} (h₁ : (⟨1, ![n]⟩ : Shape).BroadcastsInDim ⟨2, ![n, 1]⟩ ![0])
    (v : (⟨1, ![n]⟩ : Shape).Idx → α) (p : Fin n) :
    broadcastInDim ⟨2, ![n, 1]⟩ ![0] h₁ v (ix2 p (0 : Fin 1)) = v (ix1 p) := by
  simp only [broadcastInDim]
  congr 1
  funext a
  have ha : a = 0 := Subsingleton.elim _ _
  subst ha
  apply Fin.ext
  have hp := p.isLt
  split
  · next h1 => change n = 1 at h1; show (0 : Nat) = p.val; omega
  · rfl

/-! ## The two scatters -/

section Scatters

variable (ids : Fin 8192 → Fin 4) (σ : Fin 8192 → Fin 8192) (hs : Sorts ids σ)
  (v25 v49 : IVec S8192 32)
  (h25 : ∀ j, v25 (ix1 j) = BitVec.ofNat 32 (σ j).val)
  (h49 : ∀ j, v49 (ix1 j) = BitVec.ofNat 32 (dest ids σ j))

include hs h25 h49

/-- Each token's padded place: at token σ j the table holds dest j. -/
theorem o2pS_spells (j : Fin 8192) : o2pS v25 v49 (ix1 (σ j)) = BitVec.ofNat 32 (dest ids σ j) := by
  have hinj : Function.Injective (fun k : Fin 8192 => (σ k).val) := fun a b e => hs.bij.1 (Fin.ext e)
  have key := ScatterSet.scatter_take_hit scatter_S8192_S8192x1_S8192_n_0_0_1 rfl rfl rfl rfl (splat8192 0#32)
    (broadcastInDim S8192x1 ![0] bcast_S8192_S8192x1_0 (normS 8192#32 v25)) v49 (fun k : Fin 8192 => (σ k).val)
    ?_ (fun k => (σ k).isLt) (by norm_num) hinj j
  · exact key.trans (h49 j)
  · intro k
    rw [bcast_col_ix]
    exact normS_small' 8192#32 v25 (fun k => (σ k).val) h25 (fun k => by have := (σ k).isLt; omega) k

/-- Each padded place's token: at row dest j the table holds σ j. -/
theorem psrcS_spells (j : Fin 8192) :
    psrcS v25 v49 (ix1 ⟨dest ids σ j, dest_lt ids σ hs j⟩) = BitVec.ofNat 32 (σ j).val := by
  have key := ScatterSet.scatter_take_hit scatter_S10240_S8192x1_S8192_n_0_0_1 rfl rfl rfl rfl
    (broadcastInDim S10240 ![] bcast_S_S10240 (constantI S_ 32 8192#32))
    (broadcastInDim S8192x1 ![0] bcast_S8192_S8192x1_0 (normS 10240#32 v49)) v25 (dest ids σ)
    ?_ (dest_lt ids σ hs) (by norm_num) (dest_inj ids σ hs) j
  · exact key.trans (h25 j)
  · intro k
    rw [bcast_col_ix]
    exact normS_small' 10240#32 v49 (dest ids σ) h49 (fun k => by have := dest_lt ids σ hs k; omega) k

/-- Every token is some sorted position's: at token t the table holds the place of the position that lists t. -/
theorem o2pS_at (t : Fin 8192) :
    o2pS v25 v49 (ix1 t) = BitVec.ofNat 32 (dest ids σ ((Equiv.ofBijective σ hs.bij).symm t)) := by
  have e : σ ((Equiv.ofBijective σ hs.bij).symm t) = t := (Equiv.ofBijective σ hs.bij).apply_symm_apply t
  have key := o2pS_spells ids σ hs v25 v49 h25 h49 ((Equiv.ofBijective σ hs.bij).symm t)
  rw [e] at key
  exact key

end Scatters

/-! ## The row gather -/

/-- THE ROW TAKE. jnp's `table[idx]` over a rank-2 table of rows prints as a gather whose start indices are the
    [n × 1] column of row numbers, whose row axis is collapsed and start-indexed, whose column axis is the one offset
    axis of the result, with no batching axes and the index vector on axis 1. Result element (p, q) reads the table at
    column q of the row p's start index names, read signed and clamped into the table. -/
theorem gather_rows {α : Type} {N K n w : ℕ} (d : GatherDims ⟨2, ![N, K]⟩ ⟨2, ![n, 1]⟩ ⟨2, ![n, K]⟩)
    (hoff : d.offsetDims = [1]) (hcoll : d.collapsedSliceDims = [0]) (hob : d.operandBatchingDims = [])
    (hsim : d.startIndexMap = [0]) (hivd : d.indexVectorDim = 1)
    (x : (⟨2, ![N, K]⟩ : Shape).Idx → α) (idx : IVec ⟨2, ![n, 1]⟩ w) (p : Fin n) (q : Fin K) (hN : 0 < N) :
    Host.gather d x idx (ix2 p q)
      = x (ix2 ⟨min (idx (ix2 p (0 : Fin 1))).toInt.toNat (N - 1), by omega⟩ q) := by
  unfold Host.gather
  congr 1
  have hb : ∀ a : Fin 2, a ∉ d.operandBatchingDims := fun a => by rw [hob]; exact List.not_mem_nil
  -- the result's batch axes are its row axis alone; its offset axes its column axis alone
  have hbatch : ∀ X : Fin 2, X ∈ d.batchDims → X = 0 := by
    intro X hX
    have : X ∉ d.offsetDims := by
      have := hX
      simp only [GatherDims.batchDims, Shape.kept, List.mem_filter, List.mem_finRange, true_and, decide_eq_true_eq] at this
      exact this
    rw [hoff] at this
    have h1 : X ≠ 1 := fun e => this (List.mem_singleton.mpr e)
    apply Fin.ext
    have := X.isLt
    have h1' : X.val ≠ 1 := fun e => h1 (Fin.ext e)
    show X.val = 0
    omega
  have hoffm : ∀ X : Fin 2, X ∈ d.offsetDims → X = 1 := by
    intro X hX
    rw [hoff] at hX
    exact List.mem_singleton.mp hX
  funext a
  match a with
  | ⟨0, _⟩ =>
    apply Fin.ext
    have hk : (0 : Fin 2) ∉ d.sKept := by rw [GatherDims.mem_sKept, hcoll]; simp
    have hm : (0 : Fin 2) ∈ d.startIndexMap := by rw [hsim]; exact List.mem_singleton.mpr rfl
    have hsl : d.sliceSizes 0 = 1 := d.slice_collapsed 0 (by rw [hcoll]; exact List.mem_singleton.mpr rfl)
    show d.start (ix2 p q) idx 0 + d.batchCoord (ix2 p q) 0 + d.offCoord (ix2 p q) 0 = _
    rw [GatherDims.batchCoord_eq_zero _ _ _ (hb 0), GatherDims.offCoord_eq_zero _ _ _ hk]
    simp only [Nat.add_zero]
    unfold GatherDims.start
    rw [dif_pos hm]
    show min (idx _).toInt.toNat (N - d.sliceSizes 0) = min (idx (ix2 p (0 : Fin 1))).toInt.toNat (N - 1)
    rw [hsl]
    congr 3
    congr 1
    funext b
    match b with
    | ⟨0, _⟩ =>
      unfold GatherDims.siIdx
      rw [dif_neg (by rw [hivd]; simp)]
      unfold GatherDims.siCoord
      apply Fin.ext
      simp only [Fin.val_cast]
      have e : ∀ X : Fin 2, X ∈ d.batchDims → ((ix2 p q : (⟨2, ![n, K]⟩ : Shape).Idx) X).val = p.val := fun X hX => by
        rw [hbatch X hX]
      exact e _ (List.getElem_mem _)
    | ⟨1, _⟩ =>
      unfold GatherDims.siIdx
      rw [dif_pos (by rw [hivd])]
      apply Fin.ext
      show List.idxOf (0 : Fin 2) d.startIndexMap = 0
      rw [hsim]; simp
  | ⟨1, _⟩ =>
    apply Fin.ext
    have hk : (1 : Fin 2) ∈ d.sKept := by rw [GatherDims.mem_sKept, hcoll, hob]; simp
    have hm : (1 : Fin 2) ∉ d.startIndexMap := by rw [hsim]; simp
    show d.start (ix2 p q) idx 1 + d.batchCoord (ix2 p q) 1 + d.offCoord (ix2 p q) 1 = q.val
    rw [GatherDims.batchCoord_eq_zero _ _ _ (hb 1)]
    unfold GatherDims.start GatherDims.offCoord
    rw [dif_neg hm, dif_pos hk]
    simp only [Nat.add_zero, Nat.zero_add]
    have e : ∀ X : Fin 2, X ∈ d.offsetDims → ((ix2 p q : (⟨2, ![n, K]⟩ : Shape).Idx) X).val = q.val := fun X hX => by
      rw [hoffm X hX]
    exact e _ (List.getElem_mem _)

/-- The row take at a row whose start index is the word of a natural r inside the table: row r. -/
theorem gather_rows_ofNat {α : Type} {N K n : ℕ} (d : GatherDims ⟨2, ![N, K]⟩ ⟨2, ![n, 1]⟩ ⟨2, ![n, K]⟩)
    (hoff : d.offsetDims = [1]) (hcoll : d.collapsedSliceDims = [0]) (hob : d.operandBatchingDims = [])
    (hsim : d.startIndexMap = [0]) (hivd : d.indexVectorDim = 1)
    (x : (⟨2, ![N, K]⟩ : Shape).Idx → α) (idx : IVec ⟨2, ![n, 1]⟩ 32) (p : Fin n) (q : Fin K)
    (r : ℕ) (hr : r < N) (hN : N < 2 ^ 31) (hidx : idx (ix2 p (0 : Fin 1)) = BitVec.ofNat 32 r) :
    Host.gather d x idx (ix2 p q) = x (ix2 ⟨r, hr⟩ q) := by
  rw [gather_rows d hoff hcoll hob hsim hivd x idx p q (by omega)]
  congr 2
  apply Fin.ext
  show min (idx (ix2 p (0 : Fin 1))).toInt.toNat (N - 1) = r
  rw [hidx, StableHlo.Predicate.toInt_ofNat_small r (by omega), Int.toNat_natCast]
  exact Nat.min_eq_left (by omega)

/-- The padded rows of x: a padded row that holds token t reads row t of x cast to bf16. -/
theorem xpadS_row {F : FTy → Type} [FloatOps F] (v0 : FVec F S8192x2048 .f32) (v73 : IVec S10240 32)
    (p : Fin 10240) (t : Fin 8192) (hp : v73 (ix1 p) = BitVec.ofNat 32 t.val) (d : Fin 2048) :
    xpadS v0 v73 (ix2 p d) = truncf .bf16 v0 bitsLt_bf16_f32 (ix2 t d) := by
  have ht : t.val < 8193 := by have := t.isLt; omega
  have key := gather_rows_ofNat gather_S8193x2048_S10240x1_S10240x2048_1_0_n_n_0_1_12048 rfl rfl rfl rfl rfl
    (concatenate S8193x2048 0 [⟨S8192x2048, truncf .bf16 v0 bitsLt_bf16_f32⟩,
      ⟨S1x2048, broadcastInDim S1x2048 ![] bcast_S_S1x2048 (constant S_ .bf16 0x0000#16)⟩] concatenates_S8192x2048_S1x2048_S8193x2048_d0)
    (broadcastInDim S10240x1 ![0] bcast_S10240_S10240x1_0
      (select (cmpi .slt v73 (broadcastInDim S10240 ![] bcast_S_S10240 (constantI S_ 32 0#32)))
        (addi v73 (broadcastInDim S10240 ![] bcast_S_S10240 (constantI S_ 32 8193#32))) v73))
    p d t.val ht (by norm_num) ?_
  · refine key.trans ?_
    exact concatenate_pair_apply_left (t := S8193x2048) (s₁ := S8192x2048) (s₂ := S1x2048) (0 : Fin 2)
      (truncf .bf16 v0 bitsLt_bf16_f32) (broadcastInDim S1x2048 ![] bcast_S_S1x2048 (constant S_ .bf16 0x0000#16))
      concatenates_S8192x2048_S1x2048_S8193x2048_d0
      (ix2 ⟨t.val, ht⟩ d) rfl (ix2 t d) (fun b => by
        match b with
        | ⟨0, _⟩ => rfl
        | ⟨1, _⟩ => rfl)
  · rw [bcast_col_ix]
    show Scalar.select (IntOp.cmpi .slt (v73 (ix1 p)) 0#32) (IntOp.addi (v73 (ix1 p)) 8193#32) (v73 (ix1 p)) = _
    rw [norm_word _ 8193#32 t.val hp (by have := t.isLt; omega), hp]

end Cert.KernelIdeal.Decode

end
-- ==== Proof.Route.lean ====
/-
  The routing of the kernel's host program, read as mathematics. With every modality word in [0, 3]: the program's
  tables spell the counts, the padded counts and their running sums; the sort is a permutation σ of the tokens that
  orders them by expert; sorted token j is placed at padded row `dest j`; the scatter gives every token t its padded
  row `o2p t`; the row of x at that padded row is token t's row; and the tile that holds that row is served by token
  t's expert. (The combinatorics is Proof/RouteMath.lean; the program's operations are decoded in the Decode modules.)
-/
import proofs.«413600_j1477468749957_2_alg».proof.Proof.HostSteps1
import proofs.«413600_j1477468749957_2_alg».proof.Proof.HostSteps2
import proofs.«413600_j1477468749957_2_alg».proof.Proof.HostSteps3
import proofs.«413600_j1477468749957_2_alg».proof.Proof.HostSteps4
import proofs.«413600_j1477468749957_2_alg».proof.Proof.HostSteps5
import proofs.«413600_j1477468749957_2_alg».proof.Proof.DecodeTables
import proofs.«413600_j1477468749957_2_alg».proof.Proof.DecodeSort
import proofs.«413600_j1477468749957_2_alg».proof.Proof.DecodeScatter
import proofs.«413600_j1477468749957_2_alg».proof.Proof.TableBound
import proofs.«413600_j1477468749957_2_alg».proof.Proof.Spec

noncomputable section

namespace Cert.KernelIdeal.Route

open Idealize.ShloMosaic Idealize.ShloMosaic.TcCoe Idealize.SL.Sem Idealize.ShloMosaic.ValueIdx
open Cert.KernelIdeal Cert.KernelIdeal.Gen Cert.KernelIdeal.Stages Cert.KernelIdeal.HostSteps Cert.KernelIdeal.Decode Cert.KernelIdeal.TableBound Cert.RouteMath

variable {F : FTy → Type} [FloatOps F]
variable (m : (ℓ : Loc nD τ sig) → Buf (Elt F) ℓ) (c : Dev nD)

/-- The modality words on entry to the kernel are the launch's. -/
abbrev a5 : IVec S8192 32 := V m c main_arg5

variable (hids : Cert.Spec.IdsInRange (a5 m c))

/-- Each token's expert. -/
abbrev ids : Fin 8192 → Fin 4 := Cert.Spec.idsOf (a5 m c) hids

/-- The sorting permutation: sorted position j holds token `sg j`. -/
def sg : Fin 8192 → Fin 8192 := Idealize.ShloMosaic.Argsort.perm (V m c main_v1 : IVec S8192 32)

theorem v1_spells (t : Fin 8192) : (V m c main_v1 : IVec S8192 32) (ix1 t) = BitVec.ofNat 32 (ids m c hids t).val := by
  rw [v1_eq, clipS_id _ hids]
  have h4 := hids t
  apply BitVec.eq_of_toNat_eq
  rw [BitVec.toNat_ofNat]
  show (a5 m c (ix1 t)).toNat = (a5 m c (ix1 t)).toNat % 2 ^ 32
  omega

theorem sorts : Sorts (ids m c hids) (sg m c) := Decode.sorts (ids m c hids) _ (v1_spells m c hids)

theorem v9_spells (e : Fin 4) : (V m c main_v9 : IVec S4 32) (ix1 e) = BitVec.ofNat 32 (cnt (ids m c hids) e) := by
  rw [v9_eq]; exact cntS_spells (ids m c hids) _ (v1_spells m c hids) e

theorem v16_spells (e : Fin 4) : (V m c main_v16 : IVec S4 32) (ix1 e) = BitVec.ofNat 32 (pcnt (ids m c hids) e) := by
  rw [v16_eq]; exact pcntS_spells (ids m c hids) _ (v9_spells m c hids) e

theorem v20_spells (e : Fin 4) : (V m c main_v20 : IVec S4 32) (ix1 e) = BitVec.ofNat 32 (ustart (ids m c hids) e) := by
  rw [v20_eq]; exact ustartS_spells (ids m c hids) _ (v9_spells m c hids) e

theorem v24_spells (e : Fin 4) : (V m c main_v24 : IVec S4 32) (ix1 e) = BitVec.ofNat 32 (pstart (ids m c hids) e) := by
  rw [v24_eq, v16_eq]; exact pstartS_spells (ids m c hids) _ (v9_spells m c hids) e

theorem v77_spells (e : Fin 4) : (V m c main_v77 : IVec S4 32) (ix1 e) = BitVec.ofNat 32 (pend (ids m c hids) e) := by
  rw [v77_eq, v16_eq]; exact pendS_spells (ids m c hids) _ (v9_spells m c hids) e

theorem v86_spells (tile : Fin 20) : (V m c main_v86 : IVec S20 32) (ix1 tile) = BitVec.ofNat 32 (tileExpert (ids m c hids) tile.val) := by
  rw [v86_eq]; exact eidS_spells (ids m c hids) _ (v77_spells m c hids) tile

theorem v25_spells (j : Fin 8192) : (V m c main_v25 : IVec S8192 32) (ix1 j) = BitVec.ofNat 32 (sg m c j).val := by
  rw [v25_eq]; exact sortIdxS_spells _ j

theorem v32_spells (j : Fin 8192) : (V m c main_v32 : IVec S8192 32) (ix1 j) = BitVec.ofNat 32 (ids m c hids (sg m c j)).val := by
  rw [v32_eq]; exact sortedModS_spells (ids m c hids) _ (v1_spells m c hids) _ (v25_spells m c) j

theorem v49_spells (j : Fin 8192) : (V m c main_v49 : IVec S8192 32) (ix1 j) = BitVec.ofNat 32 (dest (ids m c hids) (sg m c) j) := by
  rw [v49_eq]
  exact destS_spells (ids m c hids) _ _ (v20_spells m c hids) (v24_spells m c hids) _ (sg m c) (sorts m c hids) (v32_spells m c hids) j

attribute [irreducible] sg

/-- The inverse of the sorting permutation: the sorted position of token t. -/
def sgInv : Fin 8192 → Fin 8192 := (Equiv.ofBijective (sg m c) (sorts m c hids).bij).symm

omit [FloatOps F] in
/-- A bijection after its inverse is the identity. -/
theorem apply_symm_of_bijective {σ : Fin 8192 → Fin 8192} (h : Function.Bijective σ) (t : Fin 8192) :
    σ ((Equiv.ofBijective σ h).symm t) = t := (Equiv.ofBijective σ h).apply_symm_apply t

theorem sg_sgInv (t : Fin 8192) : sg m c (sgInv m c hids t) = t := by
  unfold sgInv
  exact apply_symm_of_bijective (sorts m c hids).bij t

/-- Each token's padded row. -/
def o2p (t : Fin 8192) : Fin 10240 :=
  ⟨dest (ids m c hids) (sg m c) (sgInv m c hids t), dest_lt (ids m c hids) (sg m c) (sorts m c hids) _⟩

/-- The scatter's result spells each token's padded row. -/
theorem v65_word (t : Fin 8192) : (V m c main_v65 : IVec S8192 32) (ix1 t) = BitVec.ofNat 32 (o2p m c hids t).val := by
  rw [v65_eq]
  exact o2pS_at (ids m c hids) (sg m c) (sorts m c hids) _ _ (v25_spells m c) (v49_spells m c hids) t

/-- The other scatter's result spells, at sorted token j's padded row, that token's number. -/
theorem v73_word (j : Fin 8192) :
    (V m c main_v73 : IVec S10240 32) (ix1 ⟨dest (ids m c hids) (sg m c) j, dest_lt (ids m c hids) (sg m c) (sorts m c hids) j⟩)
      = BitVec.ofNat 32 (sg m c j).val := by
  rw [v73_eq]
  exact psrcS_spells (ids m c hids) (sg m c) (sorts m c hids) _ _ (v25_spells m c) (v49_spells m c hids) j

/-- The padded row of token t holds token t's row of x (cast to bf16). -/
theorem xpad_row (t : Fin 8192) (d : Fin 2048) :
    (V m c main_v96 : FVec F S10240x2048 .bf16) (ix2 (o2p m c hids t) d)
      = truncf .bf16 (V m c main_v0 : FVec F S8192x2048 .f32) bitsLt_bf16_f32 (ix2 t d) := by
  rw [v96_eq]
  refine xpadS_row _ _ (o2p m c hids t) t ?_ d
  have h := v73_word m c hids (sgInv m c hids t)
  rw [sg_sgInv m c hids t] at h
  exact h

/-- The tile that holds token t's padded row is served by token t's expert. -/
theorem tile_expert (t : Fin 8192) :
    ((V m c main_v86 : IVec S20 32) (ix1 ⟨(o2p m c hids t).val / 512, by have := (o2p m c hids t).isLt; omega⟩)).toNat
      = (ids m c hids t).val := by
  rw [v86_spells m c hids]
  have h := tileExpert_dest (ids m c hids) (sg m c) (sorts m c hids) (sgInv m c hids t)
  rw [sg_sgInv m c hids t] at h
  have hlt := tileExpert_lt (ids m c hids) ((o2p m c hids t).val / 512)
  show (BitVec.ofNat 32 (tileExpert (ids m c hids) ((o2p m c hids t).val / 512))).toNat = _
  rw [BitVec.toNat_ofNat, Nat.mod_eq_of_lt (by omega)]
  exact h

end Cert.KernelIdeal.Route

end
-- ==== Proof.SpecOut.lean ====
/-
  The statement's result as one term of the argument arrays: the token rows of Proof/Spec.lean, with x read as 8192
  rows and the rows reshaped back to [4, 2048, 2048]; equal arguments give equal results.
-/
import proofs.«413600_j1477468749957_2_alg».proof.Proof.Spec

noncomputable section

namespace Cert.Spec

open Idealize.ShloMosaic Idealize.ShloMosaic.ValueIdx

theorem casts_rows : SX.ShapeCasts SROWS := by decide
theorem casts_back : SROWS.ShapeCasts SX := by decide

/-- The result array of the statement, from the six argument arrays (the modality words in range). -/
def out (a0 : SX.Idx → EReal) (a1 a3 : SW13.Idx → EReal) (a2 : SW2.Idx → EReal) (a4 : SNW.Idx → EReal)
    (a5 : IVec SIDS 32) (h : IdsInRange a5) : SX.Idx → EReal :=
  shapeCast SX (rowsOut (shapeCast SROWS a0 casts_rows) a1 a3 a2 a4 (idsOf a5 h)) casts_back

/-- Equal arguments, equal results (the range fact is a proof: any two agree). -/
theorem out_congr {a0 a0' : SX.Idx → EReal} {a1 a1' a3 a3' : SW13.Idx → EReal} {a2 a2' : SW2.Idx → EReal}
    {a4 a4' : SNW.Idx → EReal} {a5 a5' : IVec SIDS 32} (h0 : a0' = a0) (h1 : a1' = a1) (h2 : a2' = a2) (h3 : a3' = a3)
    (h4 : a4' = a4) (h5 : a5' = a5) (hr' : IdsInRange a5') (hr : IdsInRange a5) :
    out a0' a1' a3' a2' a4' a5' hr' = out a0 a1 a3 a2 a4 a5 hr := by
  subst h0 h1 h2 h3 h4 h5
  rfl

end Cert.Spec

end
-- ==== Proof.KResult.lean ====
/-
  The kernel side's result is the statement's result: the rows the kernel leaves, gathered through each token's
  padded row and reshaped, are the token rows of Proof/Spec.lean.

  Token t sits at padded row p t. The gather after the kernel reads row p t of the kernel's output (the row number is a
  small non-negative word: the index normalisation and the clamp leave it alone). That row is the specification's row
  of the padded activations' row p t, which is token t's row of x (a change of float format is the identity on the
  extended reals), through the matrices the host casts from the arguments (again the identity) and through the expert
  of the tile that holds row p t, which is token t's expert.
-/
import proofs.«413600_j1477468749957_2_alg».proof.Proof.KTail
import proofs.«413600_j1477468749957_2_alg».proof.Proof.KRegion
import proofs.«413600_j1477468749957_2_alg».proof.Proof.Route
import proofs.«413600_j1477468749957_2_alg».proof.Proof.HostSteps1
import proofs.«413600_j1477468749957_2_alg».proof.Proof.HostSteps2
import proofs.«413600_j1477468749957_2_alg».proof.Proof.DecodeScatter
import proofs.«413600_j1477468749957_2_alg».proof.Proof.Spec
import proofs.«413600_j1477468749957_2_alg».proof.Proof.SpecOut
import Idealize.ShloMosaic.Lib.ValueIdx

noncomputable section

namespace Cert.KernelIdeal.KResult

open Idealize.ShloMosaic Idealize.ShloMosaic.TcCoe Idealize.SL.Sem Idealize.ShloMosaic.ValueIdx
open Cert.KernelIdeal Cert.KernelIdeal.Gen Cert.KernelIdeal.GenP Cert.KernelIdeal.Stages

/-! ## The gather after the kernel -/

/-- The gather of rows through a column of small row numbers: where row `t`'s word spells the row `p t`, result row `t`
    is row `p t` (the clamp does nothing). -/
theorem tail_rows_v {α : Type} (out : S10240x2048.Idx → α) (idx : IVec S8192x1 32) (p : Fin 8192 → Fin 10240)
    (hidx : ∀ t, idx (ix2 t (0 : Fin 1)) = BitVec.ofNat 32 (p t).val) (t : Fin 8192) (d : Fin 2048) :
    Host.gather gather_S10240x2048_S8192x1_S8192x2048_1_0_n_n_0_1_12048 out idx (ix2 t d) = out (ix2 (p t) d) :=
  Decode.gather_rows_ofNat gather_S10240x2048_S8192x1_S8192x2048_1_0_n_n_0_1_12048 rfl rfl rfl rfl rfl out idx t d
    (p t).val (p t).isLt (by norm_num) (hidx t)

/-- The column of row numbers the gather reads: the normalised table of the tokens' padded rows, which are small
    non-negative words (the index normalisation does nothing). -/
theorem tail_idx (v65 : IVec S8192 32) (p : Fin 8192 → Fin 10240)
    (h65 : ∀ t, v65 (ix1 t) = BitVec.ofNat 32 (p t).val) (t : Fin 8192) :
    broadcastInDim S8192x1 ![0] bcast_S8192_S8192x1_0 (normS 10240#32 v65) (ix2 t (0 : Fin 1))
      = BitVec.ofNat 32 (p t).val := by
  rw [Decode.bcast_col_ix]
  exact Decode.normS_small' 10240#32 v65 (fun k => (p k).val) h65 (fun k => lt_trans (p k).isLt (by norm_num)) t

/-- The gather after the kernel: where token `t`'s word spells the row `p t`, result row `t` is row `p t`. -/
theorem tail_rows {α : Type} (out : S10240x2048.Idx → α) (v65 : IVec S8192 32) (p : Fin 8192 → Fin 10240)
    (h65 : ∀ t, v65 (ix1 t) = BitVec.ofNat 32 (p t).val) (t : Fin 8192) (d : Fin 2048) :
    Host.gather gather_S10240x2048_S8192x1_S8192x2048_1_0_n_n_0_1_12048 out
        (broadcastInDim S8192x1 ![0] bcast_S8192_S8192x1_0 (normS 10240#32 v65)) (ix2 t d)
      = out (ix2 (p t) d) :=
  tail_rows_v out _ p (tail_idx v65 p h65) t d

/-! ## The specification's row, from equal arguments -/

/-- Equal rows, matrices, gains and experts give equal results. -/
theorem rowOut_congr {xr xr' : Fin 2048 → EReal} {w1 w1' w3 w3' : Cert.Spec.SW13.Idx → EReal}
    {w2 w2' : Cert.Spec.SW2.Idx → EReal} {nw nw' : Cert.Spec.SNW.Idx → EReal} {e e' : Fin 4} (d : Fin 2048)
    (hx : xr = xr') (h1 : w1 = w1') (h3 : w3 = w3') (h2 : w2 = w2') (hn : nw = nw') (he : e = e') :
    Cert.Spec.rowOut xr w1 w3 w2 nw e d = Cert.Spec.rowOut xr' w1' w3' w2' nw' e' d := by
  subst hx h1 h3 h2 hn he
  rfl

/-- The gather of an array of the specification's rows of a padded layout through the tokens' places is the
    specification's token rows, when token `t`'s place holds token `t`'s row and sits in a tile of token `t`'s expert
    (and the matrices and gains on the two sides are equal). -/
theorem gather_rowsOut (g x96 : S10240x2048.Idx → EReal) (w1 w1' w3 w3' : Cert.Spec.SW13.Idx → EReal)
    (w2 w2' : Cert.Spec.SW2.Idx → EReal) (nw nw' : Cert.Spec.SNW.Idx → EReal) (eid : Fin 20 → Fin 4)
    (hg : ∀ (q : Fin 10240) (d : Fin 2048), g (ix2 q d)
      = Cert.Spec.rowOut (fun j => x96 (ix2 q j)) w1 w3 w2 nw (eid ⟨q.val / 512, by have := q.isLt; omega⟩) d)
    (v65 : IVec S8192 32) (p : Fin 8192 → Fin 10240) (h65 : ∀ t, v65 (ix1 t) = BitVec.ofNat 32 (p t).val)
    (xf : Cert.Spec.SROWS.Idx → EReal) (ids : Fin 8192 → Fin 4)
    (hx : ∀ t j, x96 (ix2 (p t) j) = xf (ix2 t j))
    (he : ∀ t, eid ⟨(p t).val / 512, by have := (p t).isLt; omega⟩ = ids t)
    (h1 : w1 = w1') (h3 : w3 = w3') (h2 : w2 = w2') (hn : nw = nw') :
    Host.gather gather_S10240x2048_S8192x1_S8192x2048_1_0_n_n_0_1_12048 g
        (broadcastInDim S8192x1 ![0] bcast_S8192_S8192x1_0 (normS 10240#32 v65))
      = Cert.Spec.rowsOut xf w1' w3' w2' nw' ids := by
  funext i
  obtain ⟨t, d, rfl⟩ : ∃ (t : Fin 8192) (d : Fin 2048), i = ix2 t d := ⟨i 0, i 1, eq_ix2 i⟩
  refine (tail_rows g v65 p h65 t d).trans ((hg (p t) d).trans ?_)
  exact rowOut_congr d (funext fun j => hx t j) h1 h3 h2 hn (he t)

/-! ## The kernel side's result -/

/-- THE KERNEL SIDE'S RESULT: the rows the kernel leaves, gathered through the tokens' padded rows and reshaped, are
    the statement's result of the launch arrays. -/
theorem result_eq (m : (ℓ : Loc nD τ sig) → Buf (Elt Ideal) ℓ) (hO : Ok m) (c : Dev nD)
    (hids : Cert.Spec.IdsInRange (V m c main_arg5)) :
    KTail.tailS (F := Ideal) ((GenP.dats m hO 0 c).arrAt 5 (cfgM m hO).N) (V m c main_v65)
      = Cert.Spec.out (m ((c : Thread nD τ).loc main_arg0)) (m ((c : Thread nD τ).loc main_arg1))
          (m ((c : Thread nD τ).loc main_arg3)) (m ((c : Thread nD τ).loc main_arg2))
          (m ((c : Thread nD τ).loc main_arg4)) (V m c main_arg5) hids := by
  -- the casts of the three matrices and the gain row are the launch arrays
  have h1 : (V m c main_v97 : Cert.Spec.SW13.Idx → EReal) = m ((c : Thread nD τ).loc main_arg1) := by
    rw [HostSteps.v97_eq m c, Gen.V_main_arg1 m c]; rfl
  have h3 : (V m c main_v98 : Cert.Spec.SW13.Idx → EReal) = m ((c : Thread nD τ).loc main_arg3) := by
    rw [HostSteps.v98_eq m c, Gen.V_main_arg3 m c]; rfl
  have h2 : (V m c main_v99 : Cert.Spec.SW2.Idx → EReal) = m ((c : Thread nD τ).loc main_arg2) := by
    rw [HostSteps.v99_eq m c, Gen.V_main_arg2 m c]; rfl
  have h4 : (V m c main_arg4 : Cert.Spec.SNW.Idx → EReal) = m ((c : Thread nD τ).loc main_arg4) := Gen.V_main_arg4 m c
  -- token t's padded row holds token t's row of x
  have hx : ∀ (t : Fin 8192) (j : Fin 2048),
      (V m c main_v96 : S10240x2048.Idx → EReal) (ix2 (Route.o2p m c hids t) j)
        = shapeCast Cert.Spec.SROWS (m ((c : Thread nD τ).loc main_arg0)) Cert.Spec.casts_rows (ix2 t j) := fun t j =>
    (Route.xpad_row m c hids t j).trans (by rw [HostSteps.v0_eq m c]; rfl)
  -- the tile of token t's padded row is of token t's expert
  have he : ∀ t : Fin 8192,
      KRegion.eidOf m hO ⟨(Route.o2p m c hids t).val / 512, KRegion.row_tile (Route.o2p m c hids t)⟩
        = Cert.Spec.idsOf (V m c main_arg5) hids t := fun t => Fin.ext (by
    rw [← KRegion.eidOf_val m hO, ← Gen.V_pre m c 0]
    exact Route.tile_expert m c hids t)
  have key := gather_rowsOut (KRegion.G m hO c) (V m c main_v96) (V m c main_v97) (m ((c : Thread nD τ).loc main_arg1))
    (V m c main_v98) (m ((c : Thread nD τ).loc main_arg3)) (V m c main_v99) (m ((c : Thread nD τ).loc main_arg2))
    (V m c main_arg4) (m ((c : Thread nD τ).loc main_arg4)) (KRegion.eidOf m hO)
    (fun q d => KRegion.G_apply m hO c q d)
    (V m c main_v65) (Route.o2p m c hids) (Route.v65_word m c hids)
    (shapeCast Cert.Spec.SROWS (m ((c : Thread nD τ).loc main_arg0)) Cert.Spec.casts_rows)
    (Cert.Spec.idsOf (V m c main_arg5) hids) hx he h1 h3 h2 h4
  rw [KRegion.out_rows m hO c]
  unfold KTail.tailS Cert.Spec.out
  exact congrArg (fun X => shapeCast S4x2048x2048 X shapeCasts_S8192x2048_S4x2048x2048) key

end Cert.KernelIdeal.KResult

end
-- ==== Proof.KRun.lean ====
/-
  The idealized kernel's run with its result named: every weakly fair execution terminates with the result buffer at
  the statement's result term of the argument arrays (Proof/SpecOut.lean) and the arguments unchanged — the generated
  frame run, its output array read row by row (Proof/KRegion.lean), the lines after the kernel (Proof/KTail.lean) and
  the routing (Proof/Route.lean) put together.
-/
import proofs.«413600_j1477468749957_2_alg».proof.Proof.FrameKI
import proofs.«413600_j1477468749957_2_alg».proof.Proof.KTail
import proofs.«413600_j1477468749957_2_alg».proof.Proof.KResult
import proofs.«413600_j1477468749957_2_alg».proof.Proof.TableBound
import proofs.«413600_j1477468749957_2_alg».proof.Proof.SpecOut

noncomputable section

namespace Cert.KernelIdeal.KRun

open Idealize.ShloMosaic Idealize.ShloMosaic.TcCoe Idealize.SL.Sem
open Cert.KernelIdeal Cert.KernelIdeal.Gen Cert.KernelIdeal.GenP

variable (m : (ℓ : Loc nD τ sig) → Buf (Elt Ideal) ℓ) (ρ : Dev nD → PrngReg)

/-- The result buffer after the run, as the statement's result term. -/
theorem result_spec (c : Dev nD) (hids : Cert.Spec.IdsInRange (m ((c.tc : Thread nD τ).loc main_arg5))) :
    Pipeline.afterTail pcfgs (fun _ => adm m (TableBound.ok m)) (dats m (TableBound.ok m)) 0 (V0 m) [hostOps1] c main_v108
      = Cert.Spec.out (m ((c.tc : Thread nD τ).loc main_arg0)) (m ((c.tc : Thread nD τ).loc main_arg1))
          (m ((c.tc : Thread nD τ).loc main_arg3)) (m ((c.tc : Thread nD τ).loc main_arg2))
          (m ((c.tc : Thread nD τ).loc main_arg4)) (m ((c.tc : Thread nD τ).loc main_arg5)) hids := by
  have hv : Cert.Spec.IdsInRange (V m c main_arg5) := (V_main_arg5 m c).symm ▸ hids
  rw [KTail.tail_result m (TableBound.ok m) c, KResult.result_eq m (TableBound.ok m) c hv]
  exact Cert.Spec.out_congr rfl rfl rfl rfl rfl (V_main_arg5 m c) hv hids

/-- THE RUN, READ. -/
theorem run (hids : ∀ c : Dev nD, Cert.Spec.IdsInRange (m ((c.tc : Thread nD τ).loc main_arg5))) :
    θ_run (defs (F := Ideal)) (onTc (τ := τ) (main (F := Ideal))) ⟨m, fun _ => 0, ρ⟩ (fun r => ∀ c : Dev nD,
      r.2.mem ((c.tc : Thread nD τ).loc main_v108)
        = Cert.Spec.out (m ((c.tc : Thread nD τ).loc main_arg0)) (m ((c.tc : Thread nD τ).loc main_arg1))
            (m ((c.tc : Thread nD τ).loc main_arg3)) (m ((c.tc : Thread nD τ).loc main_arg2))
            (m ((c.tc : Thread nD τ).loc main_arg4)) (m ((c.tc : Thread nD τ).loc main_arg5)) (hids c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c =>
    ⟨((h c).2 main_v108 (by decide : main_v108 ∈ Pipeline.restRefs sig spec0)).trans (result_spec m c (hids c)),
      (((h c).2 main_arg0 (by decide : main_arg0 ∈ Pipeline.restRefs sig spec0)).trans (W_main_arg0 m (TableBound.ok m) (dats m (TableBound.ok m)) c)),
      (((h c).2 main_arg1 (by decide : main_arg1 ∈ Pipeline.restRefs sig spec0)).trans (W_main_arg1 m (TableBound.ok m) (dats m (TableBound.ok m)) c)),
      (((h c).2 main_arg2 (by decide : main_arg2 ∈ Pipeline.restRefs sig spec0)).trans (W_main_arg2 m (TableBound.ok m) (dats m (TableBound.ok m)) c)),
      (((h c).2 main_arg3 (by decide : main_arg3 ∈ Pipeline.restRefs sig spec0)).trans (W_main_arg3 m (TableBound.ok m) (dats m (TableBound.ok m)) c)),
      ((h c).1 4).trans (((dats m (TableBound.ok m) 0 c).arrAt_in 4 rfl _).trans ((A_eq m (TableBound.ok m) c 4).trans (V_main_arg4 m c))),
      (((h c).2 main_arg5 (by decide : main_arg5 ∈ Pipeline.restRefs sig spec0)).trans (W_main_arg5 m (TableBound.ok m) (dats m (TableBound.ok m)) c))⟩)
    (run_main m ρ (TableBound.ok m))

end Cert.KernelIdeal.KRun

end
-- ==== Proof.RefRows.lean ====
/-
  The reference's result, row by row: every token row goes through the expert its modality word names
  (see Proof/Spec.lean for the mathematics).
-/
import proofs.«413600_j1477468749957_2_alg».proof.Proof.Gen.ReferenceIdeal.Read
import proofs.«413600_j1477468749957_2_alg».proof.Proof.Spec
import proofs.«413600_j1477468749957_2_alg».proof.Proof.SpecOut
import Idealize.ShloMosaic.Lib.ValueIdx
import Idealize.ShloMosaic.Lib.Pipeline.Value
import Idealize.ShloMosaic.PureOps.Ideal.Laws
import Idealize.ShloMosaic.Lib.StableHlo.Predicate
import Idealize.ShloMosaic.Lib.IdealHost

noncomputable section

open scoped BigOperators

namespace Cert.ReferenceIdeal.RefValue

open Cert.ReferenceIdeal Cert.ReferenceIdeal.Gen Cert.ReferenceIdeal.Read Idealize.ShloMosaic Idealize.ShloMosaic.ValueIdx
open Idealize.ShloMosaic.TcCoe Idealize.SL.Sem Idealize.ShloMosaic.StableHlo

/-- The token rows of the flattened activations: row `t` of `%0`. -/
abbrev xrow (a0 : FVec Ideal S4x2048x2048 .f32) (t : Fin 8192) : Fin 2048 → EReal :=
  fun j => val_main_v0 (F := Ideal) a0 (ix2 t j)

/-- The first projection at `(e, t, h)`: the transposed product `%2` is row `t` against row `h` of expert `e`'s matrix. -/
theorem v2_at (a0 : FVec Ideal S4x2048x2048 .f32) (a1 : FVec Ideal S4x3840x2048 .f32) (e : Fin 4) (t : Fin 8192) (h : Fin 3840) :
    val_main_v2 (F := Ideal) a0 a1 (ix3 e t h) = Cert.Spec.proj (xrow a0 t) a1 e h := by
  rw [val_main_v2_apply, val_main_v1_apply]
  unfold Cert.Spec.proj
  refine Finset.sum_congr rfl fun k _ => ?_
  have el : lidx_main_v1 (idx_main_v2 (ix3 e t h)) k = ix3 e h k :=
    funext fun a => Fin.ext (by match a with | ⟨0, _⟩ => rfl | ⟨1, _⟩ => rfl | ⟨2, _⟩ => rfl)
  have er : ridx_main_v1 (idx_main_v2 (ix3 e t h)) k = ix2 t k :=
    funext fun a => Fin.ext (by match a with | ⟨0, _⟩ => rfl | ⟨1, _⟩ => rfl)
  rw [el, er, mul_comm]

/-- The second projection `%5` at `(e, t, h)`, with the up matrix. -/
theorem v5_at (a0 : FVec Ideal S4x2048x2048 .f32) (a3 : FVec Ideal S4x3840x2048 .f32) (e : Fin 4) (t : Fin 8192) (h : Fin 3840) :
    val_main_v5 (F := Ideal) a0 a3 (ix3 e t h) = Cert.Spec.proj (xrow a0 t) a3 e h := by
  rw [val_main_v5_apply, val_main_v4_apply]
  unfold Cert.Spec.proj
  refine Finset.sum_congr rfl fun k _ => ?_
  have el : lidx_main_v4 (idx_main_v5 (ix3 e t h)) k = ix3 e h k :=
    funext fun a => Fin.ext (by match a with | ⟨0, _⟩ => rfl | ⟨1, _⟩ => rfl | ⟨2, _⟩ => rfl)
  have er : ridx_main_v4 (idx_main_v5 (ix3 e t h)) k = ix2 t k :=
    funext fun a => Fin.ext (by match a with | ⟨0, _⟩ => rfl | ⟨1, _⟩ => rfl)
  rw [el, er, mul_comm]

/-- The gate `silu`: `%3 = %2 · (1 / (1 + exp (−%2)))`, the logistic function of `%2` times `%2`. -/
theorem v3_at (a0 : FVec Ideal S4x2048x2048 .f32) (a1 : FVec Ideal S4x3840x2048 .f32) (i : S4x8192x3840.Idx) :
    val_main_v3 (F := Ideal) a0 a1 i
      = val_main_v2 (F := Ideal) a0 a1 i * Ideal.logistic (val_main_v2 (F := Ideal) a0 a1 i) := by
  rw [val_main_v3_apply, val_main_call0_v5_apply, val_main_call0_v4_apply, val_main_call0_cst_0_apply,
    val_main_call0_v3_apply, val_main_call0_v2_apply, val_main_call0_cst_apply, val_main_call0_v1_apply,
    val_main_call0_v0_apply]
  simp only [Ideal.mulf_def, Ideal.hostDivf_def, Ideal.addf_def, Ideal.hostUnary_exp_def, Ideal.hostNegf_def,
    Ideal.negf_def, Ideal.ofBits_def, Ideal.ofBits_one_f32]
  rfl

/-- The gated hidden activation `%6` at `(e, t, h)`. -/
theorem v6_at (a0 : FVec Ideal S4x2048x2048 .f32) (a1 a3 : FVec Ideal S4x3840x2048 .f32) (e : Fin 4) (t : Fin 8192) (h : Fin 3840) :
    val_main_v6 (F := Ideal) a0 a1 a3 (ix3 e t h) = Cert.Spec.act (xrow a0 t) a1 a3 e h := by
  rw [val_main_v6_apply, v3_at, v2_at, v5_at]
  rfl

/-- The feed-forward's result `%7` at `(e, t, d)`. -/
theorem v7_at (a0 : FVec Ideal S4x2048x2048 .f32) (a1 a3 : FVec Ideal S4x3840x2048 .f32) (a2 : FVec Ideal S4x2048x3840 .f32)
    (e : Fin 4) (t : Fin 8192) (d : Fin 2048) :
    val_main_v7 (F := Ideal) a0 a1 a2 a3 (ix3 e t d) = Cert.Spec.ffn (xrow a0 t) a1 a3 a2 e d := by
  rw [val_main_v7_apply]
  unfold Cert.Spec.ffn
  refine Finset.sum_congr rfl fun k _ => ?_
  have el : lidx_main_v7 (ix3 e t d) k = ix3 e t k :=
    funext fun a => Fin.ext (by match a with | ⟨0, _⟩ => rfl | ⟨1, _⟩ => rfl | ⟨2, _⟩ => rfl)
  have er : ridx_main_v7 (ix3 e t d) k = ix3 e d k :=
    funext fun a => Fin.ext (by match a with | ⟨0, _⟩ => rfl | ⟨1, _⟩ => rfl | ⟨2, _⟩ => rfl)
  rw [el, er, v6_at]

/-- The sum of squares `%9` at `(e, t)`: from the zero the sum starts at, the squares of the feed-forward's row. -/
theorem v9_at (a0 : FVec Ideal S4x2048x2048 .f32) (a1 a3 : FVec Ideal S4x3840x2048 .f32) (a2 : FVec Ideal S4x2048x3840 .f32)
    (e : Fin 4) (t : Fin 8192) :
    val_main_v9 (F := Ideal) a0 a1 a2 a3 (ix2 e t)
      = ∑ d : Fin 2048, Cert.Spec.ffn (xrow a0 t) a1 a3 a2 e d * Cert.Spec.ffn (xrow a0 t) a1 a3 a2 e d := by
  rw [val_main_v9_apply, val_main_cst_apply, Ideal.ofBits_def, Ideal.ofBits_zero_f32, zero_add]
  refine Finset.sum_congr rfl fun k _ => ?_
  have ei : idx_main_v9 (ix2 e t) k = ix3 e t k :=
    funext fun a => Fin.ext (by match a with | ⟨0, _⟩ => rfl | ⟨1, _⟩ => rfl | ⟨2, _⟩ => rfl)
  rw [ei, val_main_v8_apply, v7_at]
  rfl

/-- The normalised, gained row `%20` at `(e, t, d)`. -/
theorem v20_at (a0 : FVec Ideal S4x2048x2048 .f32) (a1 a3 : FVec Ideal S4x3840x2048 .f32) (a2 : FVec Ideal S4x2048x3840 .f32)
    (a4 : FVec Ideal S4x2048 .f32) (e : Fin 4) (t : Fin 8192) (d : Fin 2048) :
    val_main_v20 (F := Ideal) a0 a1 a2 a3 a4 (ix3 e t d) = Cert.Spec.rowOut (xrow a0 t) a1 a3 a2 a4 e d := by
  have e10 : idx_main_v10 (idx_main_v16 (ix3 e t d)) = ix2 e t :=
    funext fun a => Fin.ext (by match a with | ⟨0, _⟩ => rfl | ⟨1, _⟩ => rfl)
  have e18 : idx_main_v18 (idx_main_v19 (ix3 e t d)) = ix2 e d :=
    funext fun a => Fin.ext (by match a with | ⟨0, _⟩ => rfl | ⟨1, _⟩ => rfl)
  rw [val_main_v20_apply, val_main_v17_apply, val_main_v16_apply, val_main_v15_apply, val_main_v14_apply,
    val_main_v13_apply, val_main_cst_1_apply, val_main_v12_apply, val_main_v11_apply, val_main_cst_0_apply,
    val_main_v10_apply, e10, v9_at, v7_at, val_main_v19_apply, val_main_v18_apply, e18]
  rfl

/-! ## The gather -/

/-- The gather's dimension numbers. -/
abbrev G : GatherDims S4x8192x2048 S8192x2 S8192x2048 := gather_S4x8192x2048_S8192x2_S8192x2048_1_01_n_n_01_1_112048

/-- Where the gather reads component `c` of the start index of result row `j 0`: at `(j 0, c)`. -/
theorem G_siIdx (j : S8192x2048.Idx) (c : Fin G.startIndexMap.length) :
    G.siIdx j c = ix2 (j 0) (⟨c.val, c.isLt⟩ : Fin 2) := by
  funext b
  refine Fin.ext ?_
  match b with
  | ⟨0, _⟩ => rfl
  | ⟨1, _⟩ => rfl

/-- The expert coordinate the gather reads: the first start-index component, read signed and clamped to `[0, 3]`. -/
theorem gidx_0 (idx : IVec S8192x2 32) (j : S8192x2048.Idx) :
    (G.operandIdx j idx 0).val = min (idx (ix2 (j 0) (0 : Fin 2))).toInt.toNat 3 := by
  show G.start j idx 0 + G.batchCoord j 0 + G.offCoord j 0 = _
  rw [GatherDims.batchCoord_eq_zero _ _ _ (by decide), GatherDims.offCoord_eq_zero _ _ _ (by decide)]
  unfold GatherDims.start
  rw [dif_pos (by decide), G_siIdx]
  rfl

/-- The token coordinate the gather reads: the second start-index component, read signed and clamped to `[0, 8191]`. -/
theorem gidx_1 (idx : IVec S8192x2 32) (j : S8192x2048.Idx) :
    (G.operandIdx j idx 1).val = min (idx (ix2 (j 0) (1 : Fin 2))).toInt.toNat 8191 := by
  show G.start j idx 1 + G.batchCoord j 1 + G.offCoord j 1 = _
  rw [GatherDims.batchCoord_eq_zero _ _ _ (by decide), GatherDims.offCoord_eq_zero _ _ _ (by decide)]
  unfold GatherDims.start
  rw [dif_pos (by decide), G_siIdx]
  rfl

/-- The entry coordinate the gather reads: the result's own second coordinate. -/
theorem gidx_2 (idx : IVec S8192x2 32) (j : S8192x2048.Idx) :
    (G.operandIdx j idx 2).val = (j 1).val := by
  show G.start j idx 2 + G.batchCoord j 2 + G.offCoord j 2 = _
  rw [GatherDims.batchCoord_eq_zero _ _ _ (by decide)]
  unfold GatherDims.start GatherDims.offCoord
  rw [dif_neg (by decide), dif_pos (by decide)]
  simp only [Nat.zero_add]
  rfl

/-- A word below `2 ^ 31` is not below zero in the signed order. -/
theorem slt_zero_of_small {x : BitVec 32} (hx : x.toNat < 2 ^ 31) : IntOp.cmpi .slt x 0#32 = 0#1 :=
  eq_zero_of_ne_one fun h1 => by
    have := (Predicate.slt_iff_toNat hx (by decide)).1 h1
    simp at this

/-- The first start-index column: the modality word itself, since it is not negative. -/
theorem v34_left (a5 : IVec S8192 32) (h : Cert.Spec.IdsInRange a5) (t : Fin 8192) :
    val_main_v34 (F := Ideal) a5 (ix2 t (0 : Fin 2)) = a5 (ix1 t) := by
  have hc : val_main_v34 (F := Ideal) a5 (ix2 t (0 : Fin 2)) = val_main_v32 (F := Ideal) a5 (ix2 t (0 : Fin 1)) := by
    unfold val_main_v34
    exact concatenate_pair_apply_left (t := S8192x2) (s₁ := S8192x1) (s₂ := S8192x1) 1 (val_main_v32 (F := Ideal) a5)
      (val_main_v33 (F := Ideal)) concatenates_S8192x1_S8192x1_S8192x2_d1 (ix2 t (0 : Fin 2)) rfl (ix2 t (0 : Fin 1))
      (fun b => by match b with | ⟨0, _⟩ => rfl | ⟨1, _⟩ => rfl)
  have ei : idx_main_v32 (ix2 t (0 : Fin 1)) = ix1 t :=
    funext fun a => Fin.ext (by match a with | ⟨0, _⟩ => rfl)
  have hlt : (a5 (ix1 t)).toNat < 2 ^ 31 := lt_trans (h t) (by decide)
  rw [hc, val_main_v32_apply, ei, val_main_v26_apply, val_main_v23_apply, val_main_v22_apply, val_main_c_apply,
    slt_zero_of_small hlt, select_zero]

/-- The second start-index column: the token's own position, since it is not negative. -/
theorem v34_right (a5 : IVec S8192 32) (t : Fin 8192) :
    val_main_v34 (F := Ideal) a5 (ix2 t (1 : Fin 2)) = BitVec.ofNat 32 t.val := by
  have hc : val_main_v34 (F := Ideal) a5 (ix2 t (1 : Fin 2)) = val_main_v33 (F := Ideal) (ix2 t (0 : Fin 1)) := by
    unfold val_main_v34
    exact concatenate_pair_apply_right (t := S8192x2) (s₁ := S8192x1) (s₂ := S8192x1) 1 (val_main_v32 (F := Ideal) a5)
      (val_main_v33 (F := Ideal)) concatenates_S8192x1_S8192x1_S8192x2_d1 (ix2 t (1 : Fin 2)) rfl rfl (ix2 t (0 : Fin 1))
      (fun b hb => by match b with | ⟨0, _⟩ => rfl | ⟨1, _⟩ => exact absurd rfl hb) rfl
  have ei : idx_main_v33 (ix2 t (0 : Fin 1)) = ix1 t :=
    funext fun a => Fin.ext (by match a with | ⟨0, _⟩ => rfl)
  have hlt : (BitVec.ofNat 32 t.val).toNat < 2 ^ 31 := by
    have := t.isLt
    simp only [BitVec.toNat_ofNat]; omega
  rw [hc, val_main_v33_apply, ei, val_main_v31_apply, val_main_v28_apply, val_main_v27_apply, val_main_c_3_apply,
    val_main_v21_apply]
  show Scalar.select (IntOp.cmpi .slt (BitVec.ofNat 32 t.val) 0#32) _ (BitVec.ofNat 32 t.val) = _
  rw [slt_zero_of_small hlt, select_zero]

/-- THE GATHER READ AT `(t, d)`: the row of the expert the token's word names, at the token's own position. -/
theorem v35_at (a0 : FVec Ideal S4x2048x2048 .f32) (a1 a3 : FVec Ideal S4x3840x2048 .f32) (a2 : FVec Ideal S4x2048x3840 .f32)
    (a4 : FVec Ideal S4x2048 .f32) (a5 : IVec S8192 32) (h : Cert.Spec.IdsInRange a5) (t : Fin 8192) (d : Fin 2048) :
    val_main_v35 (F := Ideal) a0 a1 a2 a3 a4 a5 (ix2 t d)
      = val_main_v20 (F := Ideal) a0 a1 a2 a3 a4 (ix3 (Cert.Spec.idsOf a5 h t) t d) := by
  unfold val_main_v35 Host.gather
  refine congrArg _ (funext fun a => Fin.ext ?_)
  match a with
  | ⟨0, _⟩ =>
    refine (gidx_0 _ _).trans ?_
    have hlt : (a5 (ix1 t)).toNat < 2 ^ 31 := lt_trans (h t) (by decide)
    show min (val_main_v34 (F := Ideal) a5 (ix2 t (0 : Fin 2))).toInt.toNat 3 = (a5 (ix1 t)).toNat
    rw [v34_left a5 h t, Predicate.toInt_eq_toNat_of_lt hlt, Int.toNat_natCast]
    have := h t
    omega
  | ⟨1, _⟩ =>
    refine (gidx_1 _ _).trans ?_
    show min (val_main_v34 (F := Ideal) a5 (ix2 t (1 : Fin 2))).toInt.toNat 8191 = t.val
    rw [v34_right a5 t, Predicate.toInt_ofNat_small _ (lt_trans t.isLt (by decide)), Int.toNat_natCast]
    have := t.isLt
    omega
  | ⟨2, _⟩ => exact gidx_2 _ _

/-- THE REFERENCE'S ROWS: before its last reshape the reference holds, at token `t`, the row of the expert `ids t`. -/
theorem rows_eq (a0 : FVec Ideal S4x2048x2048 .f32) (a1 a3 : FVec Ideal S4x3840x2048 .f32) (a2 : FVec Ideal S4x2048x3840 .f32)
    (a4 : FVec Ideal S4x2048 .f32) (a5 : IVec S8192 32) (h : Cert.Spec.IdsInRange a5) :
    val_main_v35 (F := Ideal) a0 a1 a2 a3 a4 a5
      = Cert.Spec.rowsOut (val_main_v0 (F := Ideal) a0) a1 a3 a2 a4 (Cert.Spec.idsOf a5 h) := by
  funext i
  obtain ⟨t, d, rfl⟩ : ∃ (t : Fin 8192) (d : Fin 2048), i = ix2 t d := ⟨i 0, i 1, eq_ix2 i⟩
  rw [v35_at a0 a1 a3 a2 a4 a5 h, v20_at]
  rfl

/-! ## The packaged run -/

/-- THE REFERENCE'S RUN: every weakly fair execution of the reference ends with its result the rows of the
    specification, reshaped to `[4, 2048, 2048]`, and its arguments unchanged, when the modality words are in range. -/
theorem ref_run (m' : (ℓ : Loc nD τ sig) → Buf (Elt Ideal) ℓ) (ρ' : Dev nD → PrngReg)
    (h : ∀ c : Dev nD, Cert.Spec.IdsInRange (m' ((c.tc : Thread nD τ).loc main_arg5))) :
    θ_run (defs (F := Ideal)) (onTc (τ := τ) (main (F := Ideal))) ⟨m', fun _ => 0, ρ'⟩ (fun r => ∀ c : Dev nD,
      r.2.mem ((c.tc : Thread nD τ).loc main_v36)
        = shapeCast S4x2048x2048 (Cert.Spec.rowsOut
            (shapeCast S8192x2048 (m' ((c.tc : Thread nD τ).loc main_arg0)) shapeCasts_S4x2048x2048_S8192x2048)
            (m' ((c.tc : Thread nD τ).loc main_arg1)) (m' ((c.tc : Thread nD τ).loc main_arg3))
            (m' ((c.tc : Thread nD τ).loc main_arg2)) (m' ((c.tc : Thread nD τ).loc main_arg4))
            (Cert.Spec.idsOf (m' ((c.tc : Thread nD τ).loc main_arg5)) (h c))) shapeCasts_S8192x2048_S4x2048x2048
      ∧ r.2.mem ((c.tc : Thread nD τ).loc main_arg0) = m' ((c.tc : Thread nD τ).loc main_arg0)
      ∧ r.2.mem ((c.tc : Thread nD τ).loc main_arg1) = m' ((c.tc : Thread nD τ).loc main_arg1)
      ∧ r.2.mem ((c.tc : Thread nD τ).loc main_arg2) = m' ((c.tc : Thread nD τ).loc main_arg2)
      ∧ r.2.mem ((c.tc : Thread nD τ).loc main_arg3) = m' ((c.tc : Thread nD τ).loc main_arg3)
      ∧ r.2.mem ((c.tc : Thread nD τ).loc main_arg4) = m' ((c.tc : Thread nD τ).loc main_arg4)
      ∧ r.2.mem ((c.tc : Thread nD τ).loc main_arg5) = m' ((c.tc : Thread nD τ).loc main_arg5)) :=
  (θ_run defs _ _).mono (fun _ hh c => ⟨by
      rw [(hh c).1, val_main_v36_eq]
      unfold val_main_v36
      rw [rows_eq _ _ _ _ _ _ (h c)]
      rfl, (hh c).2⟩)
    (Cert.ReferenceIdeal.Value.run (F := Ideal) m' ρ')

/-- THE REFERENCE'S RUN, its result as the statement's one term of the argument arrays. -/
theorem ref_run' (m' : (ℓ : Loc nD τ sig) → Buf (Elt Ideal) ℓ) (ρ' : Dev nD → PrngReg)
    (h : ∀ c : Dev nD, Cert.Spec.IdsInRange (m' ((c.tc : Thread nD τ).loc main_arg5))) :
    θ_run (defs (F := Ideal)) (onTc (τ := τ) (main (F := Ideal))) ⟨m', fun _ => 0, ρ'⟩ (fun r => ∀ c : Dev nD,
      r.2.mem ((c.tc : Thread nD τ).loc main_v36)
        = Cert.Spec.out (m' ((c.tc : Thread nD τ).loc main_arg0)) (m' ((c.tc : Thread nD τ).loc main_arg1))
            (m' ((c.tc : Thread nD τ).loc main_arg3)) (m' ((c.tc : Thread nD τ).loc main_arg2))
            (m' ((c.tc : Thread nD τ).loc main_arg4)) (m' ((c.tc : Thread nD τ).loc main_arg5)) (h c)
      ∧ r.2.mem ((c.tc : Thread nD τ).loc main_arg0) = m' ((c.tc : Thread nD τ).loc main_arg0)
      ∧ r.2.mem ((c.tc : Thread nD τ).loc main_arg1) = m' ((c.tc : Thread nD τ).loc main_arg1)
      ∧ r.2.mem ((c.tc : Thread nD τ).loc main_arg2) = m' ((c.tc : Thread nD τ).loc main_arg2)
      ∧ r.2.mem ((c.tc : Thread nD τ).loc main_arg3) = m' ((c.tc : Thread nD τ).loc main_arg3)
      ∧ r.2.mem ((c.tc : Thread nD τ).loc main_arg4) = m' ((c.tc : Thread nD τ).loc main_arg4)
      ∧ r.2.mem ((c.tc : Thread nD τ).loc main_arg5) = m' ((c.tc : Thread nD τ).loc main_arg5)) :=
  ref_run m' ρ' h

end Cert.ReferenceIdeal.RefValue

end
-- ==== Proof.lean ====
/-
  A modality-routed feed-forward layer (8192 tokens, four experts: a gated SwiGLU projection to 3840 hidden units and
  back, an RMS normalisation and the expert's gain row) computed two ways. The kernel sorts the tokens by expert on
  the host, lays each expert's group out in 512-row tiles, runs ONE expert per tile in a Pallas kernel that accumulates
  the hidden dimension in fifteen blocks of 256, and gathers the rows back; the reference computes every expert on
  every token and selects. Over the extended reals, for modality words in [0, 3], both results are the one term
  `Cert.Spec.out` of the argument arrays:

    * the reference: its generated run read operation by operation (Proof/RefRows.lean);
    * the kernel: the generated frame run, whose accumulator after the fifteenth block is the full hidden sum
      (Proof/KPieces.lean, Proof/KRegionA.lean, Proof/KRegion.lean over the payload algebra of Proof/PayValue.lean and the
      block reads of Proof/KBlocks.lean), the host routing decoded into the combinatorics of Proof/RouteMath.lean
      (sorting is a permutation that orders by expert; token t's padded row lies in a tile served by t's expert, and
      holds t's row of x), and the final gather (Proof/KTail.lean, Proof/KResult.lean, Proof/KRun.lean).

  The frames: the table of tile experts holds words below 4 at EVERY launch memory (a signed minimum with 3 of a sum of
  four bits), so the pipeline's side condition of the table needs nothing of the precondition (Proof/TableBound.lean).
  The precondition is used once: the modality words are in [0, 3] (Proof/PreDecode.lean). No finiteness is used:
  the sums are regrouped by commutativity and associativity only.
-/
import proofs.«413600_j1477468749957_2_alg».proof.Defs
import proofs.«413600_j1477468749957_2_alg».proof.Proof.Gen.Kernel
import proofs.«413600_j1477468749957_2_alg».proof.Proof.Gen.KernelIdeal
import proofs.«413600_j1477468749957_2_alg».proof.Proof.Gen.ReferenceIdeal
import proofs.«413600_j1477468749957_2_alg».proof.Proof.Gen.Pre_finite_inputs
import proofs.«413600_j1477468749957_2_alg».proof.Proof.FrameK
import proofs.«413600_j1477468749957_2_alg».proof.Proof.FrameKI
import proofs.«413600_j1477468749957_2_alg».proof.Proof.TableBound
import proofs.«413600_j1477468749957_2_alg».proof.Proof.TableBoundK
import proofs.«413600_j1477468749957_2_alg».proof.Proof.PreDecode
import proofs.«413600_j1477468749957_2_alg».proof.Proof.KRun
import proofs.«413600_j1477468749957_2_alg».proof.Proof.RefRows
import Idealize.ShloMosaic.Adequacy
import Idealize.ShloMosaic.Init

noncomputable section

namespace Cert.Proof

open Idealize.ShloMosaic Idealize.SL.Sem

/-- The word-level kernel's frame: the generated frame under the table's side condition, which always holds. -/
theorem frame_k : Cert.frame_Kernel := fun m ρ _ => Cert.Kernel.GenP.frame m ρ (Cert.Kernel.TableBound.ok m)

/-- The idealized kernel's frame, likewise. -/
theorem frame_ki : Cert.frame_KernelIdeal := fun m ρ _ => Cert.KernelIdeal.GenP.frame m ρ (Cert.KernelIdeal.TableBound.ok m)

/-- The reference's frame: its generated run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- Both idealized programs end at `Cert.Spec.out` of the argument arrays. -/
theorem algebraic : Cert.algebraic_KernelIdeal_ReferenceIdeal := by
  intro m ρ m' ρ' hpre hagree
  have hK : ∀ c : Dev Cert.KernelIdeal.nD, Cert.Spec.IdsInRange (m ((c.tc : Thread Cert.KernelIdeal.nD Cert.KernelIdeal.τ).loc Cert.KernelIdeal.main_arg5)) :=
    fun c => Cert.PreDecode.ids_in_range _ _ _ _ _ _ (hpre c)
  have hR : ∀ c : Dev Cert.ReferenceIdeal.nD, Cert.Spec.IdsInRange (m' ((c.tc : Thread Cert.ReferenceIdeal.nD Cert.ReferenceIdeal.τ).loc Cert.ReferenceIdeal.main_arg5)) :=
    fun c => (hagree c).2.2.2.2.2 ▸ hK c
  refine ⟨fun c => Cert.Spec.out (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5)) (hK c),
    Cert.KernelIdeal.KRun.run m ρ hK, ?_⟩
  refine (θ_run Cert.ReferenceIdeal.defs _ _).mono (fun _ h c => ⟨(h c).1.trans ?_, (h c).2⟩)
    (Cert.ReferenceIdeal.RefValue.ref_run' m' ρ' hR)
  exact Cert.Spec.out_congr (hagree c).1 (hagree c).2.1 (hagree c).2.2.1 (hagree c).2.2.2.1 (hagree c).2.2.2.2.1
    (hagree c).2.2.2.2.2 (hR c) (hK c)

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
